-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v71)) (v3 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_v77) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x32000 : Shape := ⟨3, ![8, 1024, 32000]⟩
abbrev S8x1024 : Shape := ⟨2, ![8, 1024]⟩
abbrev S_ : Shape := ⟨0, ![]⟩

class Facts : Prop where
  bcast_S_S8x1024x32000 : S_.BroadcastsInDim S8x1024x32000 (![] : Fin 0 → Fin S8x1024x32000.rank)
  reducesTo_S8x1024x32000_S_d0_1_2 : S8x1024x32000.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x1024x32000 .f32) (main_arg1 : IVec S8x1024 32) (main_arg2 : IVec S8x1024 32) : IVec S_ 1 :=
  let main_v0 : FVec F S8x1024x32000 .f32 := Host.absf main_arg0
  let main_cst : FVec F S_ .f32 := constant S_ .f32 0x7F800000#32
  let main_v1 : FVec F S8x1024x32000 .f32 := broadcastInDim S8x1024x32000 ![] bcast_S_S8x1024x32000 main_cst
  let main_v2 : IVec S8x1024x32000 1 := cmpf .olt main_v0 main_v1
  let main_c : IVec S_ 1 := constantI S_ 1 1#1
  let main_v3 : IVec S_ 1 := (fun x v => Host.reduce IntOp.andi x v reducesTo_S8x1024x32000_S_d0_1_2 h_S_) main_v2 main_c
  let main_c_0 : IVec S_ 32 := constantI S_ 32 0#32
  let main_v4 : IVec S8x1024 32 := broadcastInDim S8x1024 ![] bcast_S_S8x1024 main_c_0
  let main_v5 : IVec S8x1024 1 := cmpi .sge main_arg2 main_v4
  let main_c_1 : IVec S_ 32 := constantI S_ 32 32000#32
  let main_v6 : IVec S8x1024 32 := broadcastInDim S8x1024 ![] bcast_S_S8x1024 main_c_1
  let main_v7 : IVec S8x1024 1 := cmpi .slt main_arg2 main_v6
  let main_v8 : IVec S8x1024 1 := andi main_v5 main_v7
  let main_c_2 : IVec S_ 1 := constantI S_ 1 1#1
  let main_v9 : IVec S_ 1 := (fun x v => Host.reduce IntOp.andi x v reducesTo_S8x1024_S_d0_1 h_S_) main_v8 main_c_2
  let main_v10 : IVec S_ 1 := andi main_v3 main_v9
  main_v10
-- ==== Kernel.lean ====
abbrev S8x1024x32000 : Shape := ⟨3, ![8, 1024, 32000]⟩
abbrev S8x1024 : Shape := ⟨2, ![8, 1024]⟩
abbrev S_ : Shape := ⟨0, ![]⟩
abbrev S8x1024x1 : Shape := ⟨3, ![8, 1024, 1]⟩
abbrev S8x1x128 : Shape := ⟨3, ![8, 1, 128]⟩
abbrev S1x64x32000 : Shape := ⟨3, ![1, 64, 32000]⟩
abbrev S1x64x1 : Shape := ⟨3, ![1, 64, 1]⟩
abbrev S1x1x128 : Shape := ⟨3, ![1, 1, 128]⟩
abbrev S64x32000 : Shape := ⟨2, ![64, 32000]⟩
abbrev S64x1 : Shape := ⟨2, ![64, 1]⟩
abbrev S64 : Shape := ⟨1, ![64]⟩
abbrev S1 : Shape := ⟨1, ![1]⟩
abbrev S1x1 : Shape := ⟨2, ![1, 1]⟩
abbrev S1x6 : Shape := ⟨2, ![1, 6]⟩
abbrev S1x122 : Shape := ⟨2, ![1, 122]⟩
abbrev S1x128 : Shape := ⟨2, ![1, 128]⟩
abbrev S8x128 : Shape := ⟨2, ![8, 128]⟩
abbrev S8x1 : Shape := ⟨2, ![8, 1]⟩
abbrev S8 : Shape := ⟨1, ![8]⟩

abbrev nBuf : Space → Nat
  | .hbm => 129
  | .vmem => 8
  | .smem => 0
  | _ => 0

abbrev hbmTy0_0 (i : Nat) : BufTy := match i % 128 with
  | 0 => ⟨S8x1024x32000, .f32⟩
  | 1 => ⟨S8x1024, .i32⟩
  | 2 => ⟨S8x1024, .i32⟩
  | 3 => ⟨S_, .i32⟩
  | 4 => ⟨S_, .i32⟩
  | 5 => ⟨S_, .i32⟩
  | 6 => ⟨S8x1024, .i32⟩
  | 7 => ⟨S8x1024, .i32⟩
  | 8 => ⟨S_, .i32⟩
  | 9 => ⟨S8x1024, .i32⟩
  | 10 => ⟨S8x1024, .i32⟩
  | 11 => ⟨S8x1024x1, .i32⟩
  | 12 => ⟨S8x1024x1, .i32⟩
  | 13 => ⟨S8x1x128, .f32⟩
  | 14 => ⟨S8x128, .f32⟩
  | 15 => ⟨S8x1, .f32⟩
  | 16 => ⟨S8, .f32⟩
  | 17 => ⟨S8x1, .f32⟩
  | 18 => ⟨S8, .f32⟩
  | 19 => ⟨S8x1, .f32⟩
  | 20 => ⟨S8, .f32⟩
  | 21 => ⟨S8x1, .f32⟩
  | 22 => ⟨S8, .f32⟩
  | 23 => ⟨S8x1, .f32⟩
  | 24 => ⟨S8, .f32⟩
  | 25 => ⟨S8x1, .f32⟩
  | 26 => ⟨S8, .f32⟩
  | 27 => ⟨S_, .f32⟩
  | 28 => ⟨S8, .f32⟩
  | 29 => ⟨S8, .i1⟩
  | 30 => ⟨S_, .f32⟩
  | 31 => ⟨S8, .f32⟩
  | 32 => ⟨S8, .f32⟩
  | 33 => ⟨S8, .f32⟩
  | 34 => ⟨S_, .f32⟩
  | 35 => ⟨S_, .f32⟩
  | 36 => ⟨S8, .f32⟩
  | 37 => ⟨S8, .f32⟩
  | 38 => ⟨S8, .f32⟩
  | 39 => ⟨S_, .f32⟩
  | 40 => ⟨S8, .f32⟩
  | 41 => ⟨S8, .i1⟩
  | 42 => ⟨S_, .f32⟩
  | 43 => ⟨S8, .f32⟩
  | 44 => ⟨S8, .f32⟩
  | 45 => ⟨S8, .f32⟩
  | 46 => ⟨S_, .f32⟩
  | 47 => ⟨S_, .f32⟩
  | 48 => ⟨S8, .f32⟩
  | 49 => ⟨S8, .f32⟩
  | 50 => ⟨S8, .f32⟩
  | 51 => ⟨S_, .f32⟩
  | 52 => ⟨S8, .f32⟩
  | 53 => ⟨S8, .i1⟩
  | 54 => ⟨S_, .f32⟩
  | 55 => ⟨S8, .f32⟩
  | 56 => ⟨S8, .f32⟩
  | 57 => ⟨S8, .f32⟩
  | 58 => ⟨S_, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S8, .f32⟩
  | 67 => ⟨S_, .f32⟩
  | 68 => ⟨S8, .f32⟩
  | 69 => ⟨S8, .f32⟩
  | 70 => ⟨S8, .f32⟩
  | 71 => ⟨S8, .f32⟩
  | 72 => ⟨S_, .f32⟩
  | 73 => ⟨S8, .f32⟩
  | 74 => ⟨S8, .f32⟩
  | 75 => ⟨S8, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S8, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .i1⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x1024x32000, .f32⟩

abbrev hbmTy0_1 (i : Nat) : BufTy := match i % 128 with
  | 0 => ⟨S_, .f32⟩
  | _ => ⟨S8x1024x32000, .f32⟩

abbrev hbmTy (i : Nat) : BufTy := match i / 128 with
  | 0 => hbmTy0_0 i
  | 1 => hbmTy0_1 i
  | _ => ⟨S8x1024x32000, .f32⟩

abbrev bufTy : (tb : Table) → Fin (tcTables nBuf tb) → BufTy
  | .hbm, ⟨i, _⟩ => hbmTy i
  | .local _ .vmem, ⟨0, _⟩ => ⟨S1x64x32000, .f32⟩
  | .local _ .vmem, ⟨1, _⟩ => ⟨S1x64x32000, .f32⟩
  | .local _ .vmem, ⟨2, _⟩ => ⟨S1x64x1, .i32⟩
  | .local _ .vmem, ⟨3, _⟩ => ⟨S1x64x1, .i32⟩
  | .local _ .vmem, ⟨4, _⟩ => ⟨S1x64x1, .i32⟩
  | .local _ .vmem, ⟨5, _⟩ => ⟨S1x64x1, .i32⟩
  | .local _ .vmem, ⟨6, _⟩ => ⟨S1x1x128, .f32⟩
  | .local _ .vmem, ⟨7, _⟩ => ⟨S1x1x128, .f32⟩
  | _, _ => ⟨S8x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_call3_v0 : Ref sig .tc := ⟨.hbm, 59, rfl⟩
abbrev main_call3_v1 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_cst_17 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_cst_19 : Ref sig .tc := ⟨.hbm, 97, rfl⟩
abbrev main_v62 : Ref sig .tc := ⟨.hbm, 98, rfl⟩
abbrev main_cst_20 : Ref sig .tc := ⟨.hbm, 99, rfl⟩
abbrev main_v63 : Ref sig .tc := ⟨.hbm, 100, rfl⟩
abbrev main_v64 : Ref sig .tc := ⟨.hbm, 101, rfl⟩
abbrev main_cst_21 : Ref sig .tc := ⟨.hbm, 102, rfl⟩
abbrev main_call4_v0 : Ref sig .tc := ⟨.hbm, 103, rfl⟩
abbrev main_v65 : Ref sig .tc := ⟨.hbm, 104, rfl⟩
abbrev main_cst_22 : Ref sig .tc := ⟨.hbm, 105, rfl⟩
abbrev main_v66 : Ref sig .tc := ⟨.hbm, 106, rfl⟩
abbrev main_cst_23 : Ref sig .tc := ⟨.hbm, 107, rfl⟩
abbrev main_v67 : Ref sig .tc := ⟨.hbm, 108, rfl⟩
abbrev main_cst_24 : Ref sig .tc := ⟨.hbm, 109, rfl⟩
abbrev main_v68 : Ref sig .tc := ⟨.hbm, 110, rfl⟩
abbrev main_cst_25 : Ref sig .tc := ⟨.hbm, 111, rfl⟩
abbrev main_v69 : Ref sig .tc := ⟨.hbm, 112, rfl⟩
abbrev main_v70 : Ref sig .tc := ⟨.hbm, 113, rfl⟩
abbrev main_cst_26 : Ref sig .tc := ⟨.hbm, 114, rfl⟩
abbrev main_call5_v0 : Ref sig .tc := ⟨.hbm, 115, rfl⟩
abbrev main_v71 : Ref sig .tc := ⟨.hbm, 116, rfl⟩
abbrev main_cst_27 : Ref sig .tc := ⟨.hbm, 117, rfl⟩
abbrev main_v72 : Ref sig .tc := ⟨.hbm, 118, rfl⟩
abbrev main_cst_28 : Ref sig .tc := ⟨.hbm, 119, rfl⟩
abbrev main_v73 : Ref sig .tc := ⟨.hbm, 120, rfl⟩
abbrev main_cst_29 : Ref sig .tc := ⟨.hbm, 121, rfl⟩
abbrev main_v74 : Ref sig .tc := ⟨.hbm, 122, rfl⟩
abbrev main_cst_30 : Ref sig .tc := ⟨.hbm, 123, rfl⟩
abbrev main_v75 : Ref sig .tc := ⟨.hbm, 124, rfl⟩
abbrev main_v76 : Ref sig .tc := ⟨.hbm, 125, rfl⟩
abbrev main_cst_31 : Ref sig .tc := ⟨.hbm, 126, rfl⟩
abbrev main_call6_v0 : Ref sig .tc := ⟨.hbm, 127, rfl⟩
abbrev main_v77 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8x1024 : S_.BroadcastsInDim S8x1024 (![] : Fin 0 → Fin S8x1024.rank)
  shapeCasts_S8x1024_S8x1024x1 : S8x1024.ShapeCasts S8x1024x1
  inb_S1x1x128_S1x1x128_0_0_0 : ∀ a, (![0, 0, 0] : Fin 3 → Nat) a + S1x1x128.size a ≤ S1x1x128.size a
  h_S1x1x128 : 0 < S1x1x128.numel
  inb_S1x64x32000_S1x64x32000_0_0_0 : ∀ a, (![0, 0, 0] : Fin 3 → Nat) a + S1x64x32000.size a ≤ S1x64x32000.size a
  h_S1x64x32000 : 0 < S1x64x32000.numel
  shapeCasts_S1x64x32000_S64x32000 : S1x64x32000.ShapeCasts S64x32000
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  iota_S64x32000_d1_w32 : S64x32000.Iotas .tc 32 [1]
  broadcasts_S64x1_S64x32000 : S64x1.Broadcasts S64x32000
  reduces_S64x32000_S64 : S64x32000.Reduces [1] S64
  shapeCasts_S64_S64x1 : S64.ShapeCasts S64x1
  reduces_S64x1_S1 : S64x1.Reduces [0] S1
  shapeCasts_S1_S1x1 : S1.ShapeCasts S1x1
  natLt_1_32 : 1 < 32
  concatenates_S1x1_S1x1_S1x1_S1x1_S1x1_S1x1_S1x6_d1 : Shape.Concatenates [S1x1, S1x1, S1x1, S1x1, S1x1, S1x1] S1x6 1
  concatenates_S1x6_S1x122_S1x128_d1 : Shape.Concatenates [S1x6, S1x122] S1x128 1
  shapeCasts_S1x1x128_S1x128 : S1x1x128.ShapeCasts S1x128
  shapeCasts_S1x128_S1x1x128 : S1x128.ShapeCasts S1x1x128
  shapeCasts_S8x1x128_S8x128 : S8x1x128.ShapeCasts S8x128
  slices_S8x128_S8x1_0_0 : S8x128.Slices ![0, 0] S8x1
  shapeCasts_S8x1_S8 : S8x1.ShapeCasts S8
  slices_S8x128_S8x1_0_1 : S8x128.Slices ![0, 1] S8x1
  slices_S8x128_S8x1_0_2 : S8x128.Slices ![0, 2] S8x1
  slices_S8x128_S8x1_0_3 : S8x128.Slices ![0, 3] S8x1
  slices_S8x128_S8x1_0_4 : S8x128.Slices ![0, 4] S8x1
  slices_S8x128_S8x1_0_5 : S8x128.Slices ![0, 5] S8x1
  bcast_S_S8 : S_.BroadcastsInDim S8 (![] : Fin 0 → Fin S8.rank)
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32000.size a ≤ S8x1024x32000.size a
  hwx0_0 : ∀ i : grid0.Coords, EltTy.bits .f32 = 32 ∨ (Rect.block (s := S8x1024x32000) S1x64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S8x1024x1.size a
  hwx0_1 : ∀ i : grid0.Coords, EltTy.bits .i32 = 32 ∨ (Rect.block (s := S8x1024x1) S1x64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S8x1024x1.size a
  hwx0_2 : ∀ i : grid0.Coords, EltTy.bits .i32 = 32 ∨ (Rect.block (s := S8x1024x1) S1x64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

abbrev win0_0 : Pipeline.Window sig grid0 :=
  Pipeline.Window.ofSpec (Memref.whole main_arg0) S1x64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x32000 : Shape := ⟨3, ![8, 1024, 32000]⟩
abbrev S8x1024 : Shape := ⟨2, ![8, 1024]⟩
abbrev S_ : Shape := ⟨0, ![]⟩
abbrev S8x1024x1 : Shape := ⟨3, ![8, 1024, 1]⟩
abbrev S8x1024x1x1 : Shape := ⟨4, ![8, 1024, 1, 1]⟩
abbrev S1 : Shape := ⟨1, ![1]⟩
abbrev S1x1x1x1 : Shape := ⟨4, ![1, 1, 1, 1]⟩
abbrev S8 : Shape := ⟨1, ![8]⟩

abbrev nBuf : Space → Nat
  | .hbm => 199
  | .vmem => 0
  | .smem => 0
  | _ => 0

abbrev hbmTy0_0 (i : Nat) : BufTy := match i % 128 with
  | 0 => ⟨S8x1024x32000, .f32⟩
  | 1 => ⟨S8x1024, .i32⟩
  | 2 => ⟨S8x1024, .i32⟩
  | 3 => ⟨S_, .f32⟩
  | 4 => ⟨S8x1024, .f32⟩
  | 5 => ⟨S_, .f32⟩
  | 6 => ⟨S8x1024, .f32⟩
  | 7 => ⟨S8x1024, .f32⟩
  | 8 => ⟨S8x1024x1, .f32⟩
  | 9 => ⟨S8x1024x32000, .f32⟩
  | 10 => ⟨S8x1024x32000, .f32⟩
  | 11 => ⟨S8x1024x32000, .f32⟩
  | 12 => ⟨S_, .f32⟩
  | 13 => ⟨S8x1024, .f32⟩
  | 14 => ⟨S8x1024x1, .f32⟩
  | 15 => ⟨S8x1024x1, .f32⟩
  | 16 => ⟨S8x1024x32000, .f32⟩
  | 17 => ⟨S8x1024x32000, .f32⟩
  | 18 => ⟨S8x1024x1, .i32⟩
  | 19 => ⟨S_, .i32⟩
  | 20 => ⟨S8x1024x1, .i32⟩
  | 21 => ⟨S8x1024x1, .i1⟩
  | 22 => ⟨S_, .i32⟩
  | 23 => ⟨S8x1024x1, .i32⟩
  | 24 => ⟨S8x1024x1, .i32⟩
  | 25 => ⟨S8x1024x1, .i32⟩
  | 26 => ⟨S8x1024x1x1, .i32⟩
  | 27 => ⟨S1, .i32⟩
  | 28 => ⟨S_, .i32⟩
  | 29 => ⟨S8x1024x1x1, .i32⟩
  | 30 => ⟨S8x1024x1x1, .i1⟩
  | 31 => ⟨S1x1x1x1, .i32⟩
  | 32 => ⟨S8x1024x1x1, .i32⟩
  | 33 => ⟨S8x1024x1x1, .i1⟩
  | 34 => ⟨S8x1024x1x1, .i1⟩
  | 35 => ⟨S_, .i1⟩
  | 36 => ⟨S8x1024x1, .i1⟩
  | 37 => ⟨S8x1024x1, .f32⟩
  | 38 => ⟨S_, .f32⟩
  | 39 => ⟨S8x1024x1, .f32⟩
  | 40 => ⟨S8x1024x1, .f32⟩
  | 41 => ⟨S8x1024, .f32⟩
  | 42 => ⟨S8x1024, .f32⟩
  | 43 => ⟨S_, .i32⟩
  | 44 => ⟨S8x1024, .i32⟩
  | 45 => ⟨S8x1024, .i1⟩
  | 46 => ⟨S_, .i1⟩
  | 47 => ⟨S8x1024, .i1⟩
  | 48 => ⟨S_, .i32⟩
  | 49 => ⟨S8x1024, .i32⟩
  | 50 => ⟨S8x1024, .i1⟩
  | 51 => ⟨S8x1024, .i1⟩
  | 52 => ⟨S_, .i32⟩
  | 53 => ⟨S8x1024, .i32⟩
  | 54 => ⟨S8x1024, .i1⟩
  | 55 => ⟨S8x1024, .i1⟩
  | 56 => ⟨S_, .i32⟩
  | 57 => ⟨S8x1024, .i32⟩
  | 58 => ⟨S8x1024, .i1⟩
  | 59 => ⟨S8x1024, .i1⟩
  | 60 => ⟨S_, .i32⟩
  | 61 => ⟨S8x1024, .i32⟩
  | 62 => ⟨S8x1024, .i1⟩
  | 63 => ⟨S8x1024, .i1⟩
  | 64 => ⟨S8x1024, .i1⟩
  | 65 => ⟨S8x1024, .i1⟩
  | 66 => ⟨S8x1024, .i1⟩
  | 67 => ⟨S8x1024, .i32⟩
  | 68 => ⟨S_, .i32⟩
  | 69 => ⟨S8, .i32⟩
  | 70 => ⟨S_, .f32⟩
  | 71 => ⟨S_, .f32⟩
  | 72 => ⟨S8x1024, .f32⟩
  | 73 => ⟨S8x1024, .f32⟩
  | 74 => ⟨S_, .f32⟩
  | 75 => ⟨S8, .f32⟩
  | 76 => ⟨S_, .i32⟩
  | 77 => ⟨S8, .i32⟩
  | 78 => ⟨S8, .i1⟩
  | 79 => ⟨S_, .i32⟩
  | 80 => ⟨S8, .i32⟩
  | 81 => ⟨S8, .i32⟩
  | 82 => ⟨S8, .f32⟩
  | 83 => ⟨S8, .f32⟩
  | 84 => ⟨S_, .f32⟩
  | 85 => ⟨S_, .f32⟩
  | 86 => ⟨S8, .f32⟩
  | 87 => ⟨S8, .f32⟩
  | 88 => ⟨S8, .f32⟩
  | 89 => ⟨S8x1024, .i32⟩
  | 90 => ⟨S_, .i32⟩
  | 91 => ⟨S8, .i32⟩
  | 92 => ⟨S_, .f32⟩
  | 93 => ⟨S_, .f32⟩
  | 94 => ⟨S8x1024, .f32⟩
  | 95 => ⟨S8x1024, .f32⟩
  | 96 => ⟨S_, .f32⟩
  | 97 => ⟨S8, .f32⟩
  | 98 => ⟨S_, .i32⟩
  | 99 => ⟨S8, .i32⟩
  | 100 => ⟨S8, .i1⟩
  | 101 => ⟨S_, .i32⟩
  | 102 => ⟨S8, .i32⟩
  | 103 => ⟨S8, .i32⟩
  | 104 => ⟨S8, .f32⟩
  | 105 => ⟨S8, .f32⟩
  | 106 => ⟨S_, .f32⟩
  | 107 => ⟨S_, .f32⟩
  | 108 => ⟨S8, .f32⟩
  | 109 => ⟨S8, .f32⟩
  | 110 => ⟨S8, .f32⟩
  | 111 => ⟨S8x1024, .i32⟩
  | 112 => ⟨S_, .i32⟩
  | 113 => ⟨S8, .i32⟩
  | 114 => ⟨S_, .f32⟩
  | 115 => ⟨S_, .f32⟩
  | 116 => ⟨S8x1024, .f32⟩
  | 117 => ⟨S8x1024, .f32⟩
  | 118 => ⟨S_, .f32⟩
  | 119 => ⟨S8, .f32⟩
  | 120 => ⟨S_, .i32⟩
  | 121 => ⟨S8, .i32⟩
  | 122 => ⟨S8, .i1⟩
  | 123 => ⟨S_, .i32⟩
  | 124 => ⟨S8, .i32⟩
  | 125 => ⟨S8, .i32⟩
  | 126 => ⟨S8, .f32⟩
  | 127 => ⟨S8, .f32⟩
  | _ => ⟨S8x1024x32000, .f32⟩

abbrev hbmTy0_1 (i : Nat) : BufTy := match i % 128 with
  | 0 => ⟨S_, .f32⟩
  | 1 => ⟨S_, .f32⟩
  | 2 => ⟨S8, .f32⟩
  | 3 => ⟨S8, .f32⟩
  | 4 => ⟨S8, .f32⟩
  | 5 => ⟨S_, .f32⟩
  | 6 => ⟨S8, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S8, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i1⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | _ => ⟨S8x1024x32000, .f32⟩

abbrev hbmTy (i : Nat) : BufTy := match i / 128 with
  | 0 => hbmTy0_0 i
  | 1 => hbmTy0_1 i
  | _ => ⟨S8x1024x32000, .f32⟩

abbrev bufTy : (tb : Table) → Fin (tcTables nBuf tb) → BufTy
  | .hbm, ⟨i, _⟩ => hbmTy i
  | _, _ => ⟨S8x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_c_0 : Ref sig .tc := ⟨.hbm, 46, rfl⟩
abbrev main_v7 : Ref sig .tc := ⟨.hbm, 47, rfl⟩
abbrev main_c_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_c_3 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_c_4 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_5 : Ref sig .tc := ⟨.hbm, 68, rfl⟩
abbrev main_v24 : Ref sig .tc := ⟨.hbm, 69, rfl⟩
abbrev main_cst : Ref sig .tc := ⟨.hbm, 70, rfl⟩
abbrev main_call2_v0 : Ref sig .tc := ⟨.hbm, 71, rfl⟩
abbrev main_call2_v1 : Ref sig .tc := ⟨.hbm, 72, rfl⟩
abbrev main_v25 : Ref sig .tc := ⟨.hbm, 73, rfl⟩
abbrev main_cst_6 : Ref sig .tc := ⟨.hbm, 74, rfl⟩
abbrev main_v26 : Ref sig .tc := ⟨.hbm, 75, rfl⟩
abbrev main_c_7 : Ref sig .tc := ⟨.hbm, 76, rfl⟩
abbrev main_v27 : Ref sig .tc := ⟨.hbm, 77, rfl⟩
abbrev main_v28 : Ref sig .tc := ⟨.hbm, 78, rfl⟩
abbrev main_c_8 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_9 : Ref sig .tc := ⟨.hbm, 84, rfl⟩
abbrev main_call3_v0 : Ref sig .tc := ⟨.hbm, 85, rfl⟩
abbrev main_call3_v1 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_c_10 : Ref sig .tc := ⟨.hbm, 90, rfl⟩
abbrev main_v36 : Ref sig .tc := ⟨.hbm, 91, rfl⟩
abbrev main_cst_11 : Ref sig .tc := ⟨.hbm, 92, rfl⟩
abbrev main_call4_v0 : Ref sig .tc := ⟨.hbm, 93, rfl⟩
abbrev main_call4_v1 : Ref sig .tc := ⟨.hbm, 94, rfl⟩
abbrev main_v37 : Ref sig .tc := ⟨.hbm, 95, rfl⟩
abbrev main_cst_12 : Ref sig .tc := ⟨.hbm, 96, rfl⟩
abbrev main_v38 : Ref sig .tc := ⟨.hbm, 97, rfl⟩
abbrev main_c_13 : Ref sig .tc := ⟨.hbm, 98, rfl⟩
abbrev main_v39 : Ref sig .tc := ⟨.hbm, 99, rfl⟩
abbrev main_v40 : Ref sig .tc := ⟨.hbm, 100, rfl⟩
abbrev main_c_14 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_15 : Ref sig .tc := ⟨.hbm, 106, rfl⟩
abbrev main_call5_v0 : Ref sig .tc := ⟨.hbm, 107, rfl⟩
abbrev main_call5_v1 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_c_16 : Ref sig .tc := ⟨.hbm, 112, rfl⟩
abbrev main_v48 : Ref sig .tc := ⟨.hbm, 113, rfl⟩
abbrev main_cst_17 : Ref sig .tc := ⟨.hbm, 114, rfl⟩
abbrev main_call6_v0 : Ref sig .tc := ⟨.hbm, 115, rfl⟩
abbrev main_call6_v1 : Ref sig .tc := ⟨.hbm, 116, rfl⟩
abbrev main_v49 : Ref sig .tc := ⟨.hbm, 117, rfl⟩
abbrev main_cst_18 : Ref sig .tc := ⟨.hbm, 118, rfl⟩
abbrev main_v50 : Ref sig .tc := ⟨.hbm, 119, rfl⟩
abbrev main_c_19 : Ref sig .tc := ⟨.hbm, 120, rfl⟩
abbrev main_v51 : Ref sig .tc := ⟨.hbm, 121, rfl⟩
abbrev main_v52 : Ref sig .tc := ⟨.hbm, 122, rfl⟩
abbrev main_c_20 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_cst_21 : Ref sig .tc := ⟨.hbm, 128, rfl⟩
abbrev main_call7_v0 : Ref sig .tc := ⟨.hbm, 129, rfl⟩
abbrev main_call7_v1 : Ref sig .tc := ⟨.hbm, 130, rfl⟩
abbrev main_v57 : Ref sig .tc := ⟨.hbm, 131, rfl⟩
abbrev main_v58 : Ref sig .tc := ⟨.hbm, 132, rfl⟩
abbrev main_cst_22 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_23 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_cst_24 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_25 : Ref sig .tc := ⟨.hbm, 147, rfl⟩
abbrev main_v70 : Ref sig .tc := ⟨.hbm, 148, rfl⟩
abbrev main_v71 : Ref sig .tc := ⟨.hbm, 149, rfl⟩
abbrev main_cst_26 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_cst_27 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_28 : Ref sig .tc := ⟨.hbm, 159, rfl⟩
abbrev main_v79 : Ref sig .tc := ⟨.hbm, 160, rfl⟩
abbrev main_cst_29 : Ref sig .tc := ⟨.hbm, 161, rfl⟩
abbrev main_v80 : Ref sig .tc := ⟨.hbm, 162, rfl⟩
abbrev main_cst_30 : Ref sig .tc := ⟨.hbm, 163, rfl⟩
abbrev main_v81 : Ref sig .tc := ⟨.hbm, 164, rfl⟩
abbrev main_cst_31 : Ref sig .tc := ⟨.hbm, 165, rfl⟩
abbrev main_v82 : Ref sig .tc := ⟨.hbm, 166, rfl⟩
abbrev main_cst_32 : Ref sig .tc := ⟨.hbm, 167, rfl⟩
abbrev main_v83 : Ref sig .tc := ⟨.hbm, 168, rfl⟩
abbrev main_cst_33 : Ref sig .tc := ⟨.hbm, 169, rfl⟩
abbrev main_v84 : Ref sig .tc := ⟨.hbm, 170, rfl⟩
abbrev main_v85 : Ref sig .tc := ⟨.hbm, 171, rfl⟩
abbrev main_cst_34 : Ref sig .tc := ⟨.hbm, 172, rfl⟩
abbrev main_call8_v0 : Ref sig .tc := ⟨.hbm, 173, rfl⟩
abbrev main_v86 : Ref sig .tc := ⟨.hbm, 174, rfl⟩
abbrev main_cst_35 : Ref sig .tc := ⟨.hbm, 175, rfl⟩
abbrev main_v87 : Ref sig .tc := ⟨.hbm, 176, rfl⟩
abbrev main_cst_36 : Ref sig .tc := ⟨.hbm, 177, rfl⟩
abbrev main_v88 : Ref sig .tc := ⟨.hbm, 178, rfl⟩
abbrev main_cst_37 : Ref sig .tc := ⟨.hbm, 179, rfl⟩
abbrev main_v89 : Ref sig .tc := ⟨.hbm, 180, rfl⟩
abbrev main_cst_38 : Ref sig .tc := ⟨.hbm, 181, rfl⟩
abbrev main_v90 : Ref sig .tc := ⟨.hbm, 182, rfl⟩
abbrev main_v91 : Ref sig .tc := ⟨.hbm, 183, rfl⟩
abbrev main_cst_39 : Ref sig .tc := ⟨.hbm, 184, rfl⟩
abbrev main_call9_v0 : Ref sig .tc := ⟨.hbm, 185, rfl⟩
abbrev main_v92 : Ref sig .tc := ⟨.hbm, 186, rfl⟩
abbrev main_cst_40 : Ref sig .tc := ⟨.hbm, 187, rfl⟩
abbrev main_v93 : Ref sig .tc := ⟨.hbm, 188, rfl⟩
abbrev main_cst_41 : Ref sig .tc := ⟨.hbm, 189, rfl⟩
abbrev main_v94 : Ref sig .tc := ⟨.hbm, 190, rfl⟩
abbrev main_cst_42 : Ref sig .tc := ⟨.hbm, 191, rfl⟩
abbrev main_v95 : Ref sig .tc := ⟨.hbm, 192, rfl⟩
abbrev main_cst_43 : Ref sig .tc := ⟨.hbm, 193, rfl⟩
abbrev main_v96 : Ref sig .tc := ⟨.hbm, 194, rfl⟩
abbrev main_v97 : Ref sig .tc := ⟨.hbm, 195, rfl⟩
abbrev main_cst_44 : Ref sig .tc := ⟨.hbm, 196, rfl⟩
abbrev main_call10_v0 : Ref sig .tc := ⟨.hbm, 197, rfl⟩
abbrev main_v98 : Ref sig .tc := ⟨.hbm, 198, rfl⟩

abbrev nD : Nat := 1
abbrev τ : Topo := Topo.v7x

variable {F : FTy → Type} [FloatOps F]

class Facts₀ : Prop where
  reducesTo_S8x1024x32000_S8x1024_d2 : S8x1024x32000.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  natLt_1_32 : 1 < 32
  reducesTo_S8x1024_S8_d1 : S8x1024.ReducesTo [1] S8
  bcast_S_S8 : S_.BroadcastsInDim S8 (![] : Fin 0 → Fin S8.rank)
  reducesTo_S8_S_d0 : S8.ReducesTo [0] S_
  gather_S8x1024x32000_S8x1024x1x1_S8x1024x1_n_2_01_01_2_3_111_wf : GatherDims.WF S8x1024x32000 S8x1024x1x1 S8x1024x1 [] [2] [0, 1] [2] [0, 1] 3 ![1, 1, 1]

variable [Facts₀]

def gather_S8x1024x32000_S8x1024x1x1_S8x1024x1_n_2_01_01_2_3_111 : GatherDims S8x1024x32000 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x32000_S8x1024x1x1_S8x1024x1_n_2_01_01_2_3_111_wf

class Facts : Prop extends Facts₀ where

variable [Facts]
-- ==== Proof.K.Kit.lean ====
/-
  The kernel program around its one pallas_call: ten host operations (the clamp of the targets to [0, 31999] and two
  reshapes to columns) before the region, 115 after it. This module fixes what the region finds in each buffer
  (`V0`, `V`), shows @main is "earlier lines, the region, later lines", and that the later lines stay clear of the
  pipeline's arrays and of the three arguments, so that a run of the region extends to a run of @main whose arguments
  end as launched. It also names each window's block at a grid point and the one branch condition of the body
  (the row-tile coordinate is zero).
-/
import proofs.«414165_j8486855377000_2_alg».proof.Proof.Gen.Kernel.Launch
import proofs.«414165_j8486855377000_2_alg».proof.Proof.Gen.Kernel.Skeleton
import proofs.«414165_j8486855377000_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The twelve stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11]

/-- Core `c`'s buffer contents when the region is entered: after the ten host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- The buffers no host operation may write: the pipeline's four arrays and the three arguments. -/
abbrev kept : List (Ref sig .tc) := [main_arg0, main_arg1, main_arg2, main_v1, main_v2, main_v3]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor

/-- A fact of every operation of every stretch, from the stretches' own lists. -/
theorem forall2_of {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

/-- No operation of this stretch writes an array of the pipeline or an argument: each writes its own result buffer. -/
theorem hostOps1_nw : (hostOps1 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_1_nw : (hostOps1_1 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_2_nw : (hostOps1_2 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_3_nw : (hostOps1_3 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_4_nw : (hostOps1_4 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_5_nw : (hostOps1_5 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_6_nw : (hostOps1_6 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_7_nw : (hostOps1_7 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_8_nw : (hostOps1_8 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_9_nw : (hostOps1_9 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_10_nw : (hostOps1_10 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_11_nw : (hostOps1_11 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1, hostOps0_2] tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall2_of (P := fun op : HloOp τ sig (Elt F) => op.bufs ⊆ StableHlo.tcRefs τ sig)
    (by simp only [tailOps, List.Forall]; exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub⟩) ops hops op hop)
/-- They allocate nothing. -/
theorem sfx_fresh : ∀ ops ∈ (tailOps : List (List (HloOp τ sig (Elt F)))), ∀ op ∈ ops, op.fresh = ∅ :=
  forall2_of (by simp only [tailOps, List.Forall]; exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh⟩)
/-- None writes a kept buffer. -/
theorem sfx_nw : ∀ ops ∈ (tailOps : List (List (HloOp τ sig (Elt F)))), ∀ op ∈ ops, ∀ b ∈ kept, Proc.devRef .tc b ∉ op.writes :=
  forall2_of (by simp only [tailOps, List.Forall]; exact ⟨hostOps1_nw, hostOps1_1_nw, hostOps1_2_nw, hostOps1_3_nw, hostOps1_4_nw, hostOps1_5_nw, hostOps1_6_nw, hostOps1_7_nw, hostOps1_8_nw, hostOps1_9_nw, hostOps1_10_nw, hostOps1_11_nw⟩)
/-- In particular none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  refine sfx_nw ops hops op hop _ ?_
  fin_cases w <;> simp [kept, Pipeline.arrRef]

/-! ## The arguments, as the region finds them and as @main leaves them -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A kept buffer that is no array of the pipeline ends, after the later lines, as the region found it. -/
theorem tail_kept (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact sfx_nw ops hops op hop' b hb),
    Pipeline.withArrays_of_ne _ c (V0 m c) _ b hne]

/-- `main_arg1` and `main_arg2` bypass the region and no later line writes them: they end as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (tail_kept m dats c main_arg1 (by simp [kept]) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (tail_kept m dats c main_arg2 (by simp [kept]) (by decide)).trans (V_main_arg2 m c)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data whose arrays are the region-entry contents, a run of @main to the library's frame post
    leaves the three arguments as launched: the logits are window 0's array, an input of the pipeline; the two token
    arrays bypass the region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The condition of the body's one `scf.if`: the row-tile coordinate (grid axis 1) is zero. -/
abbrev cond0_0 (i : grid0.Coords) : Prop := (Scalar.cmpi .ne (Scalar.extui (Scalar.cmpi .eq (BitVec.ofNat 32 (i 1).val) 0#32)) 0#32) = 1#1
/-- It holds at the first of each batch's sixteen points. -/
theorem hcond0_0 : ∀ t : Fin cfg0.N, cond0_0 (grid0.coords t) ↔ t.val % 16 = 0 :=
  (by decide +kernel : ∀ t : Fin grid0.N, cond0_0 (grid0.coords t) ↔ t.val % 16 = 0)

/-- Every window is live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs -/

/-- One staging buffer of the output window, through which its contents are stated. -/
abbrev VO0_3 : View sig .tc .vmem S1x1x128 .f32 := (Memref.whole cc0_stg3_0 : Memref sig .tc .vmem S1x1x128 .f32).view
/-- Each window's current staging memref at point `t`, as the pipeline passes it to the body, and its wholeness. -/
abbrev ms0_0 (t : Fin cfg0.N) : Memref sig .tc .vmem S1x64x32000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)

end Cert.Kernel.Fr

end
-- ==== Proof.K.RunA.lean ====
/-
  The kernel body at a batch's FIRST row tile (the branch taken): it zeroes the output block, then loads the logits
  tile and the two token columns, and stores the block back as zero plus the tile's six masked sums and counts. The
  run is stated on any whole staging memrefs: the three inputs at their contents, the output at anything; it ends
  with the inputs as they were and the output's buffer written by the run's stores (the pieces, last first).
-/
import proofs.«414165_j8486855377000_2_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores of the body when the branch is taken, with the proof that the body runs to a continuation holding them. -/
noncomputable def kernelRun0_A (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec F S1x64x32000 .f32) (x1 : Vec F S1x64x1 .i32) (x2 : Vec F S1x64x1 .i32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, fun E K => ?run⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.K.RunB.lean ====
/-
  The kernel body at a batch's LATER row tiles (the branch not taken): it loads the logits tile and the two token
  columns and adds the tile's six masked sums and counts into the output block, which it therefore reads before it
  writes. The run is stated on any whole staging memrefs: the three inputs at their contents and the output at its
  running contents; it ends with the inputs as they were and the output's buffer written by the run's one store.
-/
import proofs.«414165_j8486855377000_2_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store of the body when the branch is not taken, with the proof that the body runs to a continuation holding it. -/
noncomputable def kernelRun0_B (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec F S1x64x32000 .f32) (x1 : Vec F S1x64x1 .i32) (x2 : Vec F S1x64x1 .i32) (xo3 : Vec F S1x1x128 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, fun E K => ?run⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.K.Frame.lean ====
/-
  The frame of the kernel program. The output block of a batch is carried over its sixteen row tiles: zeroed and
  written at the first, read and rewritten at each later one, written back to its array after the last. This module
  says what the block's staging buffer holds after every grid point (by recursion on the point, from the two case runs
  of the body), gives the pipeline its proof data, discharges the body obligation at a generic point, and concludes:
  every weakly fair execution of @main terminates without fault, the output array ends at what the pipeline wrote
  back, and the three arguments end as launched.
-/
import proofs.«414165_j8486855377000_2_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-tile run's stores tile the output block, so they cover it. -/
theorem cover0_A_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec F S1x64x32000 .f32) (x1 : Vec F S1x64x1 .i32) (x2 : Vec F S1x64x1 .i32) (y : S1x1x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1x128.size (by sl_kernel_rfl) y

/-- What the first-tile run leaves in the output block's staging buffer: its stores read back. -/
def out0_A_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec F S1x64x32000 .f32) (x1 : Vec F S1x64x1 .i32) (x2 : Vec F S1x64x1 .i32) : Vec F S1x1x128 .f32 :=
  VO0_3.read (Elt F) (VO0_3.writes (Elt F) VO0_3.junk (kernelRun0_A c i arg2 harg2 arg3 harg3 arg4 harg4 arg5 harg5 hc0 x0 x1 x2).1)

/-- A later tile's one store covers the output block. -/
theorem cover0_B_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec F S1x64x32000 .f32) (x1 : Vec F S1x64x1 .i32) (x2 : Vec F S1x64x1 .i32) (xo3 : Vec F S1x1x128 .f32) (y : S1x1x128.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1x128.size (by sl_kernel_rfl) y

/-- What a later tile's run leaves in the output block's staging buffer, from what the tile before left (`xo3`). -/
def out0_B_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec F S1x64x32000 .f32) (x1 : Vec F S1x64x1 .i32) (x2 : Vec F S1x64x1 .i32) (xo3 : Vec F S1x1x128 .f32) : Vec F S1x1x128 .f32 :=
  VO0_3.read (Elt F) (VO0_3.writes (Elt F) VO0_3.junk (kernelRun0_B c i arg2 harg2 arg3 harg3 arg4 harg4 arg5 harg5 hc0 x0 x1 x2 xo3).1)

/-! ## What the output block holds after each point -/

/-- THE ACCUMULATION: the output block's staging buffer after the body at position `n` — at a batch's first tile the
    first-tile run on the point's blocks, at a later tile the later-tile run over what position `n - 1` left. -/
def outsAt0 (c : Dev nD) : (n : ℕ) → n < cfg0.N → Vec F S1x1x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a batch's first tile. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- `outsAt0` at a later tile: over what the point before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the output's
    at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later tile the output block's staging buffer holds what the body left at the point before: the point is not
    the first, and the buffer was not written back between (write-backs happen after a batch's last tile only). -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the point is a batch's first tile or a later one;
    at a later one the output's memref holds what the point before left; so the case's run applies, and its stores
    read back are the proof data's contents after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 128 := lt_of_lt_of_eq t.isLt (show cfg0.N = 128 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any float family: @main runs to the end without fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Kit.lean ====
/-
  The kernel program around its one pallas_call: ten host operations (the clamp of the targets to [0, 31999] and two
  reshapes to columns) before the region, 115 after it. This module fixes what the region finds in each buffer
  (`V0`, `V`), shows @main is "earlier lines, the region, later lines", and that the later lines stay clear of the
  pipeline's arrays and of the three arguments, so that a run of the region extends to a run of @main whose arguments
  end as launched. It also names each window's block at a grid point and the one branch condition of the body
  (the row-tile coordinate is zero).
-/
import proofs.«414165_j8486855377000_2_alg».proof.Proof.Gen.KernelIdeal.Launch
import proofs.«414165_j8486855377000_2_alg».proof.Proof.Gen.KernelIdeal.Skeleton
import proofs.«414165_j8486855377000_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The twelve stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11]

/-- Core `c`'s buffer contents when the region is entered: after the ten host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- The buffers no host operation may write: the pipeline's four arrays and the three arguments. -/
abbrev kept : List (Ref sig .tc) := [main_arg0, main_arg1, main_arg2, main_v1, main_v2, main_v3]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor

/-- A fact of every operation of every stretch, from the stretches' own lists. -/
theorem forall2_of {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

/-- No operation of this stretch writes an array of the pipeline or an argument: each writes its own result buffer. -/
theorem hostOps1_nw : (hostOps1 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_1_nw : (hostOps1_1 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_2_nw : (hostOps1_2 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_3_nw : (hostOps1_3 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_4_nw : (hostOps1_4 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_5_nw : (hostOps1_5 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_6_nw : (hostOps1_6 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_7_nw : (hostOps1_7 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_8_nw : (hostOps1_8 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_9_nw : (hostOps1_9 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_10_nw : (hostOps1_10 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No operation of this stretch writes an array of the pipeline or an argument: each writes its own result buffer. -/
theorem hostOps1_11_nw : (hostOps1_11 : List (HloOp τ sig (Elt F))).Forall fun op => ∀ b ∈ kept, Proc.devRef .tc b ∉ op.writes := by
  simp only [List.Forall, kept, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1, hostOps0_2] tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall2_of (P := fun op : HloOp τ sig (Elt F) => op.bufs ⊆ StableHlo.tcRefs τ sig)
    (by simp only [tailOps, List.Forall]; exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub⟩) ops hops op hop)
/-- They allocate nothing. -/
theorem sfx_fresh : ∀ ops ∈ (tailOps : List (List (HloOp τ sig (Elt F)))), ∀ op ∈ ops, op.fresh = ∅ :=
  forall2_of (by simp only [tailOps, List.Forall]; exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh⟩)
/-- None writes a kept buffer. -/
theorem sfx_nw : ∀ ops ∈ (tailOps : List (List (HloOp τ sig (Elt F)))), ∀ op ∈ ops, ∀ b ∈ kept, Proc.devRef .tc b ∉ op.writes :=
  forall2_of (by simp only [tailOps, List.Forall]; exact ⟨hostOps1_nw, hostOps1_1_nw, hostOps1_2_nw, hostOps1_3_nw, hostOps1_4_nw, hostOps1_5_nw, hostOps1_6_nw, hostOps1_7_nw, hostOps1_8_nw, hostOps1_9_nw, hostOps1_10_nw, hostOps1_11_nw⟩)
/-- In particular none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  refine sfx_nw ops hops op hop _ ?_
  fin_cases w <;> simp [kept, Pipeline.arrRef]

/-! ## The arguments, as the region finds them and as @main leaves them -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A kept buffer that is no array of the pipeline ends, after the later lines, as the region found it. -/
theorem tail_kept (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact sfx_nw ops hops op hop' b hb),
    Pipeline.withArrays_of_ne _ c (V0 m c) _ b hne]

/-- `main_arg1` and `main_arg2` bypass the region and no later line writes them: they end as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (tail_kept m dats c main_arg1 (by simp [kept]) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (tail_kept m dats c main_arg2 (by simp [kept]) (by decide)).trans (V_main_arg2 m c)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data whose arrays are the region-entry contents, a run of @main to the library's frame post
    leaves the three arguments as launched: the logits are window 0's array, an input of the pipeline; the two token
    arrays bypass the region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The condition of the body's one `scf.if`: the row-tile coordinate (grid axis 1) is zero. -/
abbrev cond0_0 (i : grid0.Coords) : Prop := (Scalar.cmpi .ne (Scalar.extui (Scalar.cmpi .eq (BitVec.ofNat 32 (i 1).val) 0#32)) 0#32) = 1#1
/-- It holds at the first of each batch's sixteen points. -/
theorem hcond0_0 : ∀ t : Fin cfg0.N, cond0_0 (grid0.coords t) ↔ t.val % 16 = 0 :=
  (by decide +kernel : ∀ t : Fin grid0.N, cond0_0 (grid0.coords t) ↔ t.val % 16 = 0)

/-- Every window is live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs -/

/-- One staging buffer of the output window, through which its contents are stated. -/
abbrev VO0_3 : View sig .tc .vmem S1x1x128 .f32 := (Memref.whole cc0_stg3_0 : Memref sig .tc .vmem S1x1x128 .f32).view
/-- Each window's current staging memref at point `t`, as the pipeline passes it to the body, and its wholeness. -/
abbrev ms0_0 (t : Fin cfg0.N) : Memref sig .tc .vmem S1x64x32000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KI.RunA.lean ====
/-
  The kernel body at a batch's FIRST row tile (the branch taken): it zeroes the output block, then loads the logits
  tile and the two token columns, and stores the block back as zero plus the tile's six masked sums and counts. The
  run is stated on any whole staging memrefs: the three inputs at their contents, the output at anything; it ends
  with the inputs as they were and the output's buffer written by the run's stores (the pieces, last first).
-/
import proofs.«414165_j8486855377000_2_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores of the body when the branch is taken, with the proof that the body runs to a continuation holding them. -/
noncomputable def kernelRun0_A (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec F S1x64x32000 .f32) (x1 : Vec F S1x64x1 .i32) (x2 : Vec F S1x64x1 .i32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, fun E K => ?run⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KI.RunB.lean ====
/-
  The kernel body at a batch's LATER row tiles (the branch not taken): it loads the logits tile and the two token
  columns and adds the tile's six masked sums and counts into the output block, which it therefore reads before it
  writes. The run is stated on any whole staging memrefs: the three inputs at their contents and the output at its
  running contents; it ends with the inputs as they were and the output's buffer written by the run's one store.
-/
import proofs.«414165_j8486855377000_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store of the body when the branch is not taken, with the proof that the body runs to a continuation holding it. -/
noncomputable def kernelRun0_B (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec F S1x64x32000 .f32) (x1 : Vec F S1x64x1 .i32) (x2 : Vec F S1x64x1 .i32) (xo3 : Vec F S1x1x128 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, fun E K => ?run⟩
  case run =>
    simp only [cc0__agg_kernel_eq_skeleton]; unfold cc0__agg_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KI.Frame.lean ====
/-
  The frame of the kernel program. The output block of a batch is carried over its sixteen row tiles: zeroed and
  written at the first, read and rewritten at each later one, written back to its array after the last. This module
  says what the block's staging buffer holds after every grid point (by recursion on the point, from the two case runs
  of the body), gives the pipeline its proof data, discharges the body obligation at a generic point, and concludes:
  every weakly fair execution of @main terminates without fault, the output array ends at what the pipeline wrote
  back, and the three arguments end as launched.
-/
import proofs.«414165_j8486855377000_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-tile run's stores tile the output block, so they cover it. -/
theorem cover0_A_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec F S1x64x32000 .f32) (x1 : Vec F S1x64x1 .i32) (x2 : Vec F S1x64x1 .i32) (y : S1x1x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1x128.size (by sl_kernel_rfl) y

/-- What the first-tile run leaves in the output block's staging buffer: its stores read back. -/
def out0_A_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec F S1x64x32000 .f32) (x1 : Vec F S1x64x1 .i32) (x2 : Vec F S1x64x1 .i32) : Vec F S1x1x128 .f32 :=
  VO0_3.read (Elt F) (VO0_3.writes (Elt F) VO0_3.junk (kernelRun0_A c i arg2 harg2 arg3 harg3 arg4 harg4 arg5 harg5 hc0 x0 x1 x2).1)

/-- A later tile's one store covers the output block. -/
theorem cover0_B_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec F S1x64x32000 .f32) (x1 : Vec F S1x64x1 .i32) (x2 : Vec F S1x64x1 .i32) (xo3 : Vec F S1x1x128 .f32) (y : S1x1x128.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1x128.size (by sl_kernel_rfl) y

/-- What a later tile's run leaves in the output block's staging buffer, from what the tile before left (`xo3`). -/
def out0_B_3 (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec F S1x64x32000 .f32) (x1 : Vec F S1x64x1 .i32) (x2 : Vec F S1x64x1 .i32) (xo3 : Vec F S1x1x128 .f32) : Vec F S1x1x128 .f32 :=
  VO0_3.read (Elt F) (VO0_3.writes (Elt F) VO0_3.junk (kernelRun0_B c i arg2 harg2 arg3 harg3 arg4 harg4 arg5 harg5 hc0 x0 x1 x2 xo3).1)

/-! ## What the output block holds after each point -/

/-- THE ACCUMULATION: the output block's staging buffer after the body at position `n` — at a batch's first tile the
    first-tile run on the point's blocks, at a later tile the later-tile run over what position `n - 1` left. -/
def outsAt0 (c : Dev nD) : (n : ℕ) → n < cfg0.N → Vec F S1x1x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a batch's first tile. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- `outsAt0` at a later tile: over what the point before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the output's
    at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later tile the output block's staging buffer holds what the body left at the point before: the point is not
    the first, and the buffer was not written back between (write-backs happen after a batch's last tile only). -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the point is a batch's first tile or a later one;
    at a later one the output's memref holds what the point before left; so the case's run applies, and its stores
    read back are the proof data's contents after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 128 := lt_of_lt_of_eq t.isLt (show cfg0.N = 128 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any float family: @main runs to the end without fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Spec.lean ====
/-
  The mathematics both programs compute, with no program in sight.

  For logits `lp[b, r, v]` (8 batches, 1024 rows, 32000 columns), input tokens `inp[b, r]` and targets `tgt[b, r]`:
  a row's negative log-likelihood is  nll = (M + log Σ_v exp(lp_v − M)) − lp[tgt],  M the row's maximum, the target's
  logit picked out as  Σ_v [v = tgt] · lp_v.  A row is a MASK row (token 4), a SPECIAL row (token 0, 1, 2 or 3) or a
  REGULAR row (neither). Per batch and category: the sum of nll over the category's rows and the number of such rows.
  From these six vectors of length 8 the four results follow by one fixed chain of elementwise operations and
  reductions (`lossOf`, `catAvg`), the same in both programs; the programs differ in whether the count reaches that
  chain as a float (the kernel) or as a 32-bit integer converted late (the reference): `catMeanF` / `catMeanI`.
-/
import Idealize.ShloMosaic.PureOps
import Idealize.ShloMosaic.PureOps.Ideal.Laws
import Idealize.ShloMosaic.Lib.ValueIdx

noncomputable section

namespace Cert.Spec

open Idealize.ShloMosaic Idealize.ShloMosaic.ValueIdx

abbrev S_ : Shape := ⟨0, ![]⟩
abbrev S8 : Shape := ⟨1, ![8]⟩
abbrev S8x1024 : Shape := ⟨2, ![8, 1024]⟩
abbrev S8x1024x32000 : Shape := ⟨3, ![8, 1024, 32000]⟩
abbrev S8x1x128 : Shape := ⟨3, ![8, 1, 128]⟩
abbrev S1x64x32000 : Shape := ⟨3, ![1, 64, 32000]⟩
abbrev S1x64x1 : Shape := ⟨3, ![1, 64, 1]⟩

/-! ## The chain from the six per-batch vectors to the four results -/

section Chain

variable {F : FTy → Type} [FloatOps F]
variable (hb : S_.BroadcastsInDim S8 (![] : Fin 0 → Fin S8.rank)) (hr : S8.ReducesTo [0] S_) (h0 : 0 < S_.numel)

/-- A category's mean per batch from a FLOAT count: `where(n > 0, s / max(n, 1), 0)`. -/
def catMeanF (s n : FVec F S8 .f32) : FVec F S8 .f32 :=
  select (cmpf .ogt n (broadcastInDim S8 ![] hb (constant S_ .f32 0x00000000#32)))
    (Host.divf s (maximumf n (broadcastInDim S8 ![] hb (constant S_ .f32 0x3F800000#32))))
    (broadcastInDim S8 ![] hb (id (constant S_ .f32 0x00000000#32)))
/-- Whether the category is present in the batch, as 0 or 1, from a float count. -/
def catPresF (n : FVec F S8 .f32) : FVec F S8 .f32 :=
  uitofp .f32 (cmpf .ogt n (broadcastInDim S8 ![] hb (constant S_ .f32 0x00000000#32)))
/-- The same mean from an INTEGER count: `where(n > 0, s / float(max(n, 1)), 0)`. -/
def catMeanI (s : FVec F S8 .f32) (n : IVec S8 32) : FVec F S8 .f32 :=
  select (cmpi .sgt n (broadcastInDim S8 ![] hb (constantI S_ 32 0#32)))
    (Host.divf s (sitofp .f32 (maxsi n (broadcastInDim S8 ![] hb (constantI S_ 32 1#32)))))
    (broadcastInDim S8 ![] hb (id (constant S_ .f32 0x00000000#32)))
/-- Presence from an integer count. -/
def catPresI (n : IVec S8 32) : FVec F S8 .f32 :=
  uitofp .f32 (cmpi .sgt n (broadcastInDim S8 ![] hb (constantI S_ 32 0#32)))

/-- The loss: the batch mean of  (m_reg·1·p_reg + m_msk·1·p_msk + m_spc·0.01·p_spc) / (p_reg·1 + p_msk·1 + p_spc·0.01). -/
def lossOf (mr pr mm pm ms ps : FVec F S8 .f32) : FVec F S_ .f32 :=
  Host.divf (Host.reduceAdd
      (Host.divf
        (addf (addf (mulf (mulf mr (broadcastInDim S8 ![] hb (constant S_ .f32 0x3F800000#32))) pr)
                    (mulf (mulf mm (broadcastInDim S8 ![] hb (constant S_ .f32 0x3F800000#32))) pm))
              (mulf (mulf ms (broadcastInDim S8 ![] hb (constant S_ .f32 0x3C23D70A#32))) ps))
        (addf (addf (mulf pr (broadcastInDim S8 ![] hb (constant S_ .f32 0x3F800000#32)))
                    (mulf pm (broadcastInDim S8 ![] hb (constant S_ .f32 0x3F800000#32))))
              (mulf ps (broadcastInDim S8 ![] hb (constant S_ .f32 0x3C23D70A#32)))))
      (constant S_ .f32 0x00000000#32) hr h0)
    (constant S_ .f32 0x41000000#32)

/-- A category's average over the batches where it is present: `where(Σp > 0, Σm / max(Σp, 1), 0)`. -/
def catAvg (mean pres : FVec F S8 .f32) : FVec F S_ .f32 :=
  select (cmpf .ogt (Host.reduceAdd pres (constant S_ .f32 0x00000000#32) hr h0) (constant S_ .f32 0x00000000#32))
    (Host.divf (Host.reduceAdd mean (constant S_ .f32 0x00000000#32) hr h0)
      (maximumf (Host.reduceAdd pres (constant S_ .f32 0x00000000#32) hr h0) (constant S_ .f32 0x3F800000#32)))
    (id (constant S_ .f32 0x00000000#32))

end Chain

/-! ## Rows -/

/-- A row is a mask row, a special row, or a regular row, by its input token. -/
def isMsk (w : BitVec 32) : Prop := w = 4#32
def isSpc (w : BitVec 32) : Prop := w = 0#32 ∨ w = 1#32 ∨ w = 2#32 ∨ w = 3#32
def isReg (w : BitVec 32) : Prop := ¬isMsk w ∧ ¬isSpc w
instance : DecidablePred isMsk := fun w => inferInstanceAs (Decidable (w = 4#32))
instance : DecidablePred isSpc := fun w => inferInstanceAs (Decidable (w = 0#32 ∨ w = 1#32 ∨ w = 2#32 ∨ w = 3#32))
instance : DecidablePred isReg := fun w => inferInstanceAs (Decidable (¬isMsk w ∧ ¬isSpc w))

/-- A row's maximum: the fold of `max` from −∞ over the 32000 columns. -/
def rowMax (x : Fin 32000 → EReal) : EReal := (Finset.univ : Finset (Fin 32000)).fold max ⊥ x

/-- A row's negative log-likelihood at target word `t`:  (M + log Σ_v exp(x_v − M)) − Σ_v [v = t]·x_v. -/
def nllRow (x : Fin 32000 → EReal) (t : BitVec 32) : EReal :=
  (rowMax x + Ideal.log (∑ v : Fin 32000, Ideal.exp (x v - rowMax x)))
    - ∑ v : Fin 32000, if BitVec.ofNat 32 v.val = t then x v else 0

/-- Row `r` of batch `b` of the logits. -/
def rowOf (lp : S8x1024x32000.Idx → EReal) (b : Fin 8) (r : Fin 1024) : Fin 32000 → EReal := fun v => lp (ix3 b r v)

/-- The sum of nll over batch `b`'s rows of category `P`. -/
def catSumAt (P : BitVec 32 → Prop) [DecidablePred P] (lp : S8x1024x32000.Idx → EReal) (inp tgt : S8x1024.Idx → BitVec 32) (b : Fin 8) : EReal :=
  ∑ r : Fin 1024, if P (inp (ix2 b r)) then nllRow (rowOf lp b r) (tgt (ix2 b r)) else 0
/-- The number of batch `b`'s rows of category `P`. -/
def catCountAt (P : BitVec 32 → Prop) [DecidablePred P] (inp : S8x1024.Idx → BitVec 32) (b : Fin 8) : ℕ :=
  (Finset.univ.filter fun r : Fin 1024 => P (inp (ix2 b r))).card

/-- The three per-batch vectors of a category: the sum, the count as an extended real, the count as a word. -/
def catSum (P : BitVec 32 → Prop) [DecidablePred P] (lp : S8x1024x32000.Idx → EReal) (inp tgt : S8x1024.Idx → BitVec 32) : FVec Ideal S8 .f32 :=
  fun j => catSumAt P lp inp tgt ⟨(j 0).val, (j 0).isLt⟩
def catCntF (P : BitVec 32 → Prop) [DecidablePred P] (inp : S8x1024.Idx → BitVec 32) : FVec Ideal S8 .f32 :=
  fun j => (((catCountAt P inp ⟨(j 0).val, (j 0).isLt⟩ : ℕ) : ℝ) : EReal)
def catCntI (P : BitVec 32 → Prop) [DecidablePred P] (inp : S8x1024.Idx → BitVec 32) : IVec S8 32 :=
  fun j => BitVec.ofNat 32 (catCountAt P inp ⟨(j 0).val, (j 0).isLt⟩)

/-! ## One tile of 64 rows, as the kernel body sees it -/

/-- What one grid point adds to its batch's output block, lane by lane: lanes 0 to 5 are the regular, mask and
    special rows' (sum of nll, count) over the tile's 64 rows; every other lane is 0. -/
def tileLane (x0 : S1x64x32000.Idx → EReal) (x1 x2 : S1x64x1.Idx → BitVec 32) (j : Fin 128) : EReal :=
  let nll (r : Fin 64) : EReal := nllRow (fun v => x0 (ix3 0 r v)) (x2 (ix3 0 r 0))
  let tok (r : Fin 64) : BitVec 32 := x1 (ix3 0 r 0)
  match j.val with
  | 0 => ∑ r : Fin 64, if isReg (tok r) then nll r else 0
  | 1 => ∑ r : Fin 64, if isReg (tok r) then (1 : EReal) else 0
  | 2 => ∑ r : Fin 64, if isMsk (tok r) then nll r else 0
  | 3 => ∑ r : Fin 64, if isMsk (tok r) then (1 : EReal) else 0
  | 4 => ∑ r : Fin 64, if isSpc (tok r) then nll r else 0
  | 5 => ∑ r : Fin 64, if isSpc (tok r) then (1 : EReal) else 0
  | _ => 0

end Cert.Spec

end
-- ==== Proof.KVal.Names.lean ====
/-
  Names for reading the kernel's value: the grid point of batch b and row tile s (the grid runs the sixteen tiles of a
  batch consecutively), each window's block at a point at its literal shape, the output array after the region, and a
  lane of it as a vector over the batches.
-/
import proofs.«414165_j8486855377000_2_alg».proof.Proof.KI.Frame
import proofs.«414165_j8486855377000_2_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The grid point of batch `b`, row tile `s`: point 16·b + s. -/
def pt (b : Fin 8) (s : Fin 16) : Fin cfg0.N :=
  ⟨16 * b.val + s.val, by have h : cfg0.N = 128 := N_0; have := b.isLt; have := s.isLt; omega⟩

theorem pt_val (b : Fin 8) (s : Fin 16) : (pt b s).val = 16 * b.val + s.val := rfl

/-- The logits tile, the input-token column and the target column that point `t` stages. -/
abbrev blk0 (c : Dev nD) (t : Fin cfg0.N) : Vec Ideal S1x64x32000 .f32 := iblk m c 0 t
abbrev blk1 (c : Dev nD) (t : Fin cfg0.N) : Vec Ideal S1x64x1 .i32 := iblk m c 1 t
abbrev blk2 (c : Dev nD) (t : Fin cfg0.N) : Vec Ideal S1x64x1 .i32 := iblk m c 2 t

/-- The output array [8, 1, 128] after the region. -/
abbrev agg (c : Dev nD) : Vec Ideal S8x1x128 .f32 := (dats (F := Ideal) m 0 c).arrAt 3 cfg0.N

/-- Lane `j` of the output array, as a vector over the eight batches. -/
def col (c : Dev nD) (j : Fin 128) : FVec Ideal S8 .f32 := fun i => agg m c (ix3 ⟨(i 0).val, (i 0).isLt⟩ 0 j)

end Cert.KernelIdeal.Val

end
-- ==== Proof.KVal.Pay.lean ====
/-
  One grid point's arithmetic, lane by lane: the value the body stores into the output block is, at lane j, what the
  block held there plus the tile's lane-j quantity (`Spec.tileLane`): the masked sums of the 64 rows' negative
  log-likelihoods and the masked counts in lanes 0 to 5, zero elsewhere. The block the first tile starts from is zero.
-/
import proofs.«414165_j8486855377000_2_alg».proof.Proof.Gen.KernelIdeal.Skeleton
import proofs.«414165_j8486855377000_2_alg».proof.Proof.Spec
import Idealize.ShloMosaic.Lib.Pipeline.Value
import Idealize.ShloMosaic.Lib.ValueLayout
import Idealize.ShloMosaic.PureOps.Ideal.Laws
import Idealize.ShloMosaic.Lib.StableHlo.Predicate

noncomputable section

namespace Cert.KernelIdeal.Val

open Cert.KernelIdeal Cert.KernelIdeal.Gen Idealize.ShloMosaic Idealize.ShloMosaic.ValueIdx

/-! ## The three row masks, read at a row -/

/-- The token column viewed [64, 1] reads the block's row. -/
private theorem pay4_at (x1 : Vec Ideal S1x64x1 .i32) (r : Fin 64) :
    k0_pay4 (F := Ideal) x1 (ix2 r 0) = x1 (ix3 0 r 0) :=
  shapeCast_1ab_ab_apply x1 _ r 0

private theorem bit_or_iff (a b : BitVec 1) : IntOp.ori a b = 1#1 ↔ a = 1#1 ∨ b = 1#1 := by
  revert a b; decide

private theorem bit_nor_iff (a b : BitVec 1) :
    IntOp.andi (IntOp.xori a 1#1) (IntOp.xori b 1#1) = 1#1 ↔ ¬a = 1#1 ∧ ¬b = 1#1 := by
  revert a b; decide

/-- The mask-row bit is set exactly on the rows whose token is 4. -/
private theorem pay5_iff (x1 : Vec Ideal S1x64x1 .i32) (r : Fin 64) :
    k0_pay5 (F := Ideal) x1 (ix2 r 0) = 1#1 ↔ Cert.Spec.isMsk (x1 (ix3 0 r 0)) := by
  show IntOp.cmpi .eq (k0_pay4 (F := Ideal) x1 (ix2 r 0)) 4#32 = 1#1 ↔ _
  rw [StableHlo.Predicate.cmpi_eq_iff, pay4_at]
  rfl

/-- The special-row bit is set exactly on the rows whose token is 0, 1, 2 or 3. -/
private theorem pay6_iff (x1 : Vec Ideal S1x64x1 .i32) (r : Fin 64) :
    k0_pay6 (F := Ideal) x1 (ix2 r 0) = 1#1 ↔ Cert.Spec.isSpc (x1 (ix3 0 r 0)) := by
  show IntOp.ori (IntOp.ori (IntOp.ori (IntOp.cmpi .eq (k0_pay4 (F := Ideal) x1 (ix2 r 0)) 0#32)
      (IntOp.cmpi .eq (k0_pay4 (F := Ideal) x1 (ix2 r 0)) 1#32))
      (IntOp.cmpi .eq (k0_pay4 (F := Ideal) x1 (ix2 r 0)) 2#32))
      (IntOp.cmpi .eq (k0_pay4 (F := Ideal) x1 (ix2 r 0)) 3#32) = 1#1 ↔ _
  rw [bit_or_iff, bit_or_iff, bit_or_iff, StableHlo.Predicate.cmpi_eq_iff, StableHlo.Predicate.cmpi_eq_iff,
    StableHlo.Predicate.cmpi_eq_iff, StableHlo.Predicate.cmpi_eq_iff, pay4_at]
  unfold Cert.Spec.isSpc
  tauto

/-- The regular-row bit is set exactly on the rows that are neither. -/
private theorem pay7_iff (x1 : Vec Ideal S1x64x1 .i32) (r : Fin 64) :
    k0_pay7 (F := Ideal) x1 (ix2 r 0) = 1#1 ↔ Cert.Spec.isReg (x1 (ix3 0 r 0)) := by
  show IntOp.andi (IntOp.xori (k0_pay5 (F := Ideal) x1 (ix2 r 0)) 1#1)
      (IntOp.xori (k0_pay6 (F := Ideal) x1 (ix2 r 0)) 1#1) = 1#1 ↔ _
  rw [bit_nor_iff, pay5_iff, pay6_iff]
  rfl

/-! ## The logits tile viewed [64, 32000], and a reduction along a row -/

/-- The logits tile viewed [64, 32000] reads the block's row and column. -/
private theorem pay3_at (x0 : Vec Ideal S1x64x32000 .f32) (r : Fin 64) (v : Fin 32000) :
    k0_pay3 (F := Ideal) x0 (ix2 r v) = x0 (ix3 0 r v) :=
  shapeCast_1ab_ab_apply x0 _ r v

/-- A [64] vector viewed [64, 1] reads its row. -/
private theorem col_at {α : Type} (x : S64.Idx → α) (h : S64.ShapeCasts S64x1) (r : Fin 64) :
    shapeCast S64x1 x h (ix2 r 0) = x (ix1 r) :=
  shapeCast_apply x h _ _ (by
    rw [Shape.rowMajor_val_two, Shape.rowMajor_val_one]
    show r.val = r.val * 1 + 0
    omega)

/-- The index a reduction along the columns puts back: row r, column v. -/
private theorem lift_row (r : Fin 64) (v : Fin 32000) :
    reduces_S64x32000_S64.lift (ix1 r) v = ix2 r v := by
  funext a
  match a with
  | ⟨0, _⟩ => exact Fin.ext rfl
  | ⟨1, _⟩ => exact Fin.ext rfl

/-- The word of minus infinity is the bottom of the extended reals. -/
private theorem ofBits_neg_inf : Ideal.ofBits .f32 0xFF800000#32 = (⊥ : EReal) := by
  simp [Ideal.ofBits, Ideal.ieee]

/-- The row maximum, read at a row. -/
private theorem pay9_at (x0 : Vec Ideal S1x64x32000 .f32) (r : Fin 64) :
    k0_pay9 (F := Ideal) x0 (ix2 r 0) = Cert.Spec.rowMax (fun v => x0 (ix3 0 r v)) := by
  unfold k0_pay9
  refine (col_at _ _ r).trans ?_
  refine (Ideal.multiReduction_maximumf_single (k0_pay3 (F := Ideal) x0) _ reduces_S64x32000_S64 _ _ (ix1 r)).trans ?_
  unfold Cert.Spec.rowMax
  show Finset.fold max (Ideal.ofBits .f32 0xFF800000#32) _ (Finset.univ : Finset (Fin 32000)) = _
  rw [ofBits_neg_inf]
  congr 1
  refine funext fun (v : Fin 32000) => ?_
  show k0_pay3 (F := Ideal) x0 (reduces_S64x32000_S64.lift (ix1 r) v) = _
  rw [lift_row, pay3_at]

/-- The target's logit, read at a row: the sum over the columns of the logit where the column's number is the target. -/
private theorem pay8_at (x0 : Vec Ideal S1x64x32000 .f32) (x2 : Vec Ideal S1x64x1 .i32) (r : Fin 64) :
    k0_pay8 (F := Ideal) x0 x2 (ix2 r 0)
      = ∑ v : Fin 32000, if BitVec.ofNat 32 v.val = x2 (ix3 0 r 0) then x0 (ix3 0 r v) else 0 := by
  unfold k0_pay8
  refine (col_at _ _ r).trans ?_
  refine (Ideal.multiReduction_add_single _ _ reduces_S64x32000_S64 _ _ (ix1 r)).trans ?_
  show ∑ v : Fin 32000, _ = _
  refine Finset.sum_congr rfl fun v _ => ?_
  rw [lift_row, select_apply, pay3_at, broadcast_apply]
  have hc : cmpi .eq (iota .tc S64x32000 32 [1] iota_S64x32000_d1_w32)
      (broadcastTo S64x32000 (shapeCast S64x1 x2 shapeCasts_S1x64x1_S64x1) broadcasts_S64x1_S64x32000) (ix2 r v) = 1#1
      ↔ BitVec.ofNat 32 v.val = x2 (ix3 0 r 0) := by
    show IntOp.cmpi .eq (iota .tc S64x32000 32 [1] iota_S64x32000_d1_w32 (ix2 r v))
      (broadcastTo S64x32000 (shapeCast S64x1 x2 shapeCasts_S1x64x1_S64x1) broadcasts_S64x1_S64x32000 (ix2 r v)) = 1#1 ↔ _
    rw [StableHlo.Predicate.cmpi_eq_iff, iota_single_apply,
      broadcastTo_apply _ broadcasts_S64x1_S64x32000 (ix2 r v) (ix2 r 0) (fun a => by
        match a with
        | ⟨0, _⟩ => rfl
        | ⟨1, _⟩ => rfl),
      shapeCast_1ab_ab_apply]
  by_cases h : BitVec.ofNat 32 v.val = x2 (ix3 0 r 0)
  · rw [if_pos h, hc.2 h, select_one]
  · rw [if_neg h, eq_zero_of_ne_one (fun h1 => h (hc.1 h1)), select_zero]
    exact Ideal.ofBits_zero_f32

/-! ## A row's negative log-likelihood -/

private theorem bcast_col_at {α : Type} (x : S64x1.Idx → α) (r : Fin 64) (v : Fin 32000) :
    broadcastTo S64x32000 x broadcasts_S64x1_S64x32000 (ix2 r v) = x (ix2 r 0) :=
  broadcastTo_apply x broadcasts_S64x1_S64x32000 (ix2 r v) (ix2 r 0) (fun a => by
    match a with
    | ⟨0, _⟩ => rfl
    | ⟨1, _⟩ => rfl)

/-- The logits less their row's maximum, read at a row and column. -/
private theorem pay10_at (x0 : Vec Ideal S1x64x32000 .f32) (r : Fin 64) (v : Fin 32000) :
    k0_pay10 (F := Ideal) x0 (ix2 r v) = x0 (ix3 0 r v) - Cert.Spec.rowMax (fun v => x0 (ix3 0 r v)) := by
  unfold k0_pay10
  rw [subf_apply, pay3_at, bcast_col_at, pay9_at]

/-- The body's per-row value: (the maximum + log of the sum of the exponentials) less the target's logit. -/
private def nllV (v31 v33 : FVec Ideal S64x1 .f32) (v35 : FVec Ideal S64x32000 .f32) : FVec Ideal S64x1 .f32 :=
  subf (addf v33 (log (shapeCast S64x1
    (multiReduction .add [1] S64 (exp v35) 0x00000000#32 reduces_S64x32000_S64 (.inl rfl) rfl) shapeCasts_S64_S64x1))) v31

/-- … is the row's negative log-likelihood. -/
private theorem nllV_at (x0 : Vec Ideal S1x64x32000 .f32) (x2 : Vec Ideal S1x64x1 .i32) (r : Fin 64) :
    nllV (k0_pay8 x0 x2) (k0_pay9 x0) (k0_pay10 x0) (ix2 r 0)
      = Cert.Spec.nllRow (fun v => x0 (ix3 0 r v)) (x2 (ix3 0 r 0)) := by
  have hs : shapeCast S64x1 (multiReduction .add [1] S64 (exp (k0_pay10 (F := Ideal) x0)) 0x00000000#32
        reduces_S64x32000_S64 (.inl rfl) rfl) shapeCasts_S64_S64x1 (ix2 r 0)
      = ∑ v : Fin 32000, Ideal.exp (x0 (ix3 0 r v) - Cert.Spec.rowMax (fun v => x0 (ix3 0 r v))) := by
    refine (col_at _ _ r).trans ?_
    refine (Ideal.multiReduction_add_single _ _ reduces_S64x32000_S64 _ _ (ix1 r)).trans ?_
    show ∑ v : Fin 32000, _ = _
    refine Finset.sum_congr rfl fun v _ => ?_
    rw [lift_row]
    show Ideal.exp (k0_pay10 (F := Ideal) x0 (ix2 r v)) = _
    rw [pay10_at]
  have hl : ∀ y : FVec Ideal S64x1 .f32, log y (ix2 r 0) = Ideal.log (y (ix2 r 0)) := fun _ => rfl
  unfold nllV
  rw [subf_apply, addf_apply, pay8_at, pay9_at, hl, hs]
  rfl

/-! ## The six sums over the tile's 64 rows -/

/-- The index a reduction along the rows of a [64, 1] column puts back: row r. -/
private theorem lift_col (r : Fin 64) : reduces_S64x1_S1.lift (ix1 (0 : Fin 1)) r = ix2 r 0 := by
  funext a
  match a with
  | ⟨0, _⟩ => exact Fin.ext rfl
  | ⟨1, _⟩ => exact Fin.ext rfl

/-- A column summed over its 64 rows and viewed [1, 1]. -/
private theorem colSum_at (x : FVec Ideal S64x1 .f32) :
    shapeCast S1x1 (multiReduction .add [0] S1 x 0x00000000#32 reduces_S64x1_S1 (.inl rfl) rfl) shapeCasts_S1_S1x1
      (ix2 0 0) = ∑ r : Fin 64, x (ix2 r 0) := by
  refine (shapeCast_a_1a_apply _ _ 0 0).trans ?_
  refine (Ideal.multiReduction_add_single x _ reduces_S64x1_S1 _ _ (ix1 0)).trans ?_
  show ∑ r : Fin 64, _ = _
  refine Finset.sum_congr rfl fun r _ => ?_
  rw [lift_col]

/-- The sum of the per-row values on the rows a mask selects. -/
private theorem sumSel_at (m : IVec S64x1 1) (n : FVec Ideal S64x1 .f32) :
    shapeCast S1x1 (multiReduction .add [0] S1
        (select m n (broadcast S64x1 (Scalar.ofBits (F := Ideal) .f32 0x00000000#32)))
        0x00000000#32 reduces_S64x1_S1 (.inl rfl) rfl) shapeCasts_S1_S1x1 (ix2 0 0)
      = ∑ r : Fin 64, if m (ix2 r 0) = 1#1 then n (ix2 r 0) else 0 := by
  rw [colSum_at]
  refine Finset.sum_congr rfl fun r _ => ?_
  rw [select_apply, broadcast_apply]
  by_cases h : m (ix2 r 0) = 1#1
  · rw [if_pos h, h, select_one]
  · rw [if_neg h, eq_zero_of_ne_one h, select_zero]
    exact Ideal.ofBits_zero_f32

/-- The number of rows a mask selects, as the sum of the widened bits read as floats. -/
private theorem cntSel_at (m : IVec S64x1 1) :
    shapeCast S1x1 (multiReduction .add [0] S1
        (sitofp (F := Ideal) .f32 (extui 32 m natLt_1_32))
        0x00000000#32 reduces_S64x1_S1 (.inl rfl) rfl) shapeCasts_S1_S1x1 (ix2 0 0)
      = ∑ r : Fin 64, if m (ix2 r 0) = 1#1 then (1 : EReal) else 0 := by
  rw [colSum_at]
  refine Finset.sum_congr rfl fun r _ => ?_
  show ((((m (ix2 r 0)).setWidth 32).toInt : ℝ) : EReal) = _
  by_cases h : m (ix2 r 0) = 1#1
  · rw [if_pos h, h]
    norm_num
  · rw [if_neg h, eq_zero_of_ne_one h]
    norm_num

/-! ## The six values side by side, padded to 128 lanes -/

/-- The six [1, 1] values laid side by side, read at lane k: the k-th value. -/
private theorem cat6_at (y0 y1 y2 y3 y4 y5 : FVec Ideal S1x1 .f32) (k : Fin 6) :
    concatenate S1x6 1 [⟨S1x1, y0⟩, ⟨S1x1, y1⟩, ⟨S1x1, y2⟩, ⟨S1x1, y3⟩, ⟨S1x1, y4⟩, ⟨S1x1, y5⟩]
        concatenates_S1x1_S1x1_S1x1_S1x1_S1x1_S1x1_S1x6_d1 (ix2 0 k)
      = (![y0, y1, y2, y3, y4, y5] k) (ix2 0 0) := by
  have hi : ∀ (k : Fin 6) (b : Fin S1x1.rank), b.cast (rfl : S1x1.rank = S1x6.rank) ≠ (1 : Fin S1x6.rank) →
      ((ix2 (0 : Fin 1) (0 : Fin 1) : S1x1.Idx) b).val
        = ((ix2 (0 : Fin 1) k : S1x6.Idx) (b.cast (rfl : S1x1.rank = S1x6.rank))).val := fun k b hb => by
    match b with
    | ⟨0, _⟩ => rfl
    | ⟨1, _⟩ => exact absurd rfl hb
  match k with
  | ⟨0, _⟩ =>
    exact concatenate_apply_piece (α := Ideal .f32) 1 [⟨S1x1, y0⟩, ⟨S1x1, y1⟩, ⟨S1x1, y2⟩, ⟨S1x1, y3⟩, ⟨S1x1, y4⟩, ⟨S1x1, y5⟩]
      concatenates_S1x1_S1x1_S1x1_S1x1_S1x1_S1x1_S1x6_d1 _ 0 (by show 0 < 6; decide) S1x1 y0 rfl rfl 0 rfl (ix2 0 0) (hi _) rfl
  | ⟨1, _⟩ =>
    exact concatenate_apply_piece (α := Ideal .f32) 1 [⟨S1x1, y0⟩, ⟨S1x1, y1⟩, ⟨S1x1, y2⟩, ⟨S1x1, y3⟩, ⟨S1x1, y4⟩, ⟨S1x1, y5⟩]
      concatenates_S1x1_S1x1_S1x1_S1x1_S1x1_S1x1_S1x6_d1 _ 1 (by show 1 < 6; decide) S1x1 y1 rfl rfl 1 rfl (ix2 0 0) (hi _) rfl
  | ⟨2, _⟩ =>
    exact concatenate_apply_piece (α := Ideal .f32) 1 [⟨S1x1, y0⟩, ⟨S1x1, y1⟩, ⟨S1x1, y2⟩, ⟨S1x1, y3⟩, ⟨S1x1, y4⟩, ⟨S1x1, y5⟩]
      concatenates_S1x1_S1x1_S1x1_S1x1_S1x1_S1x1_S1x6_d1 _ 2 (by show 2 < 6; decide) S1x1 y2 rfl rfl 2 rfl (ix2 0 0) (hi _) rfl
  | ⟨3, _⟩ =>
    exact concatenate_apply_piece (α := Ideal .f32) 1 [⟨S1x1, y0⟩, ⟨S1x1, y1⟩, ⟨S1x1, y2⟩, ⟨S1x1, y3⟩, ⟨S1x1, y4⟩, ⟨S1x1, y5⟩]
      concatenates_S1x1_S1x1_S1x1_S1x1_S1x1_S1x1_S1x6_d1 _ 3 (by show 3 < 6; decide) S1x1 y3 rfl rfl 3 rfl (ix2 0 0) (hi _) rfl
  | ⟨4, _⟩ =>
    exact concatenate_apply_piece (α := Ideal .f32) 1 [⟨S1x1, y0⟩, ⟨S1x1, y1⟩, ⟨S1x1, y2⟩, ⟨S1x1, y3⟩, ⟨S1x1, y4⟩, ⟨S1x1, y5⟩]
      concatenates_S1x1_S1x1_S1x1_S1x1_S1x1_S1x1_S1x6_d1 _ 4 (by show 4 < 6; decide) S1x1 y4 rfl rfl 4 rfl (ix2 0 0) (hi _) rfl
  | ⟨5, _⟩ =>
    exact concatenate_apply_piece (α := Ideal .f32) 1 [⟨S1x1, y0⟩, ⟨S1x1, y1⟩, ⟨S1x1, y2⟩, ⟨S1x1, y3⟩, ⟨S1x1, y4⟩, ⟨S1x1, y5⟩]
      concatenates_S1x1_S1x1_S1x1_S1x1_S1x1_S1x1_S1x6_d1 _ 5 (by show 5 < 6; decide) S1x1 y5 rfl rfl 5 rfl (ix2 0 0) (hi _) rfl

/-- The row of six followed by 122 more lanes, read at one of the first six lanes. -/
private theorem cat2_left (y : FVec Ideal S1x6 .f32) (z : FVec Ideal S1x122 .f32) (j : Fin 128) (k : Fin 6)
    (hj : k.val = j.val) :
    concatenate S1x128 1 [⟨S1x6, y⟩, ⟨S1x122, z⟩] concatenates_S1x6_S1x122_S1x128_d1 (ix2 0 j) = y (ix2 0 k) :=
  concatenate_pair_apply_left 1 y z _ (ix2 0 j) rfl (ix2 0 k) (fun b => by
    match b with
    | ⟨0, _⟩ => rfl
    | ⟨1, _⟩ => exact hj)

/-- … and at one of the other 122. -/
private theorem cat2_right (y : FVec Ideal S1x6 .f32) (z : FVec Ideal S1x122 .f32) (j : Fin 128) (k : Fin 122)
    (hj : k.val + 6 = j.val) :
    concatenate S1x128 1 [⟨S1x6, y⟩, ⟨S1x122, z⟩] concatenates_S1x6_S1x122_S1x128_d1 (ix2 0 j) = z (ix2 0 k) :=
  concatenate_pair_apply_right 1 y z _ (ix2 0 j) rfl rfl (ix2 0 k) (fun b hb => by
    match b with
    | ⟨0, _⟩ => rfl
    | ⟨1, _⟩ => exact absurd rfl hb) hj

/-- The padded row of the tile's six quantities. -/
private def sixRow (m10 m21 m24 : IVec S64x1 1) (n : FVec Ideal S64x1 .f32) : FVec Ideal S1x128 .f32 :=
  concatenate S1x128 1
    [⟨S1x6, concatenate S1x6 1
      [⟨S1x1, shapeCast S1x1 (multiReduction .add [0] S1
          (select m24 n (broadcast S64x1 (Scalar.ofBits (F := Ideal) .f32 0x00000000#32)))
          0x00000000#32 reduces_S64x1_S1 (.inl rfl) rfl) shapeCasts_S1_S1x1⟩,
       ⟨S1x1, shapeCast S1x1 (multiReduction .add [0] S1 (sitofp (F := Ideal) .f32 (extui 32 m24 natLt_1_32))
          0x00000000#32 reduces_S64x1_S1 (.inl rfl) rfl) shapeCasts_S1_S1x1⟩,
       ⟨S1x1, shapeCast S1x1 (multiReduction .add [0] S1
          (select m10 n (broadcast S64x1 (Scalar.ofBits (F := Ideal) .f32 0x00000000#32)))
          0x00000000#32 reduces_S64x1_S1 (.inl rfl) rfl) shapeCasts_S1_S1x1⟩,
       ⟨S1x1, shapeCast S1x1 (multiReduction .add [0] S1 (sitofp (F := Ideal) .f32 (extui 32 m10 natLt_1_32))
          0x00000000#32 reduces_S64x1_S1 (.inl rfl) rfl) shapeCasts_S1_S1x1⟩,
       ⟨S1x1, shapeCast S1x1 (multiReduction .add [0] S1
          (select m21 n (broadcast S64x1 (Scalar.ofBits (F := Ideal) .f32 0x00000000#32)))
          0x00000000#32 reduces_S64x1_S1 (.inl rfl) rfl) shapeCasts_S1_S1x1⟩,
       ⟨S1x1, shapeCast S1x1 (multiReduction .add [0] S1 (sitofp (F := Ideal) .f32 (extui 32 m21 natLt_1_32))
          0x00000000#32 reduces_S64x1_S1 (.inl rfl) rfl) shapeCasts_S1_S1x1⟩]
      concatenates_S1x1_S1x1_S1x1_S1x1_S1x1_S1x1_S1x6_d1⟩,
     ⟨S1x122, broadcast S1x122 (Scalar.ofBits (F := Ideal) .f32 0x00000000#32)⟩]
    concatenates_S1x6_S1x122_S1x128_d1

/-- The stored value is the loaded block plus the padded row, lane by lane. -/
private theorem pay1_at (m10 m21 m24 : IVec S64x1 1) (v31 v33 : FVec Ideal S64x1 .f32) (v35 : FVec Ideal S64x32000 .f32)
    (xo : Vec Ideal S1x1x128 .f32) (j : Fin 128) :
    k0_pay1 (F := Ideal) m10 m21 m24 v31 v33 v35 xo (ix3 0 0 j)
      = xo (ix3 0 0 j) + sixRow m10 m21 m24 (nllV v31 v33 v35) (ix2 0 j) := by
  have e : k0_pay1 (F := Ideal) m10 m21 m24 v31 v33 v35 xo
      = shapeCast S1x1x128 (addf (shapeCast S1x128 xo shapeCasts_S1x1x128_S1x128) (sixRow m10 m21 m24 (nllV v31 v33 v35)))
          shapeCasts_S1x128_S1x1x128 := rfl
  rw [e, shapeCast_ab_1ab_apply, addf_apply, shapeCast_1ab_ab_apply]

/-! ## The two lane theorems -/

/-- A masked sum over the rows, in the body's reading and in the specification's. -/
private theorem sum_rows_congr (m : IVec S64x1 1) (P : BitVec 32 → Prop) [DecidablePred P] (tok : Fin 64 → BitVec 32)
    (f g : Fin 64 → EReal) (hm : ∀ r, m (ix2 r 0) = 1#1 ↔ P (tok r)) (hf : ∀ r, f r = g r) :
    (∑ r : Fin 64, if m (ix2 r 0) = 1#1 then f r else 0) = ∑ r : Fin 64, if P (tok r) then g r else 0 :=
  Finset.sum_congr rfl fun r _ => by rw [hf r]; exact if_congr (hm r) rfl rfl

theorem pay_lane (x0 : Vec Ideal S1x64x32000 .f32) (x1 x2 : Vec Ideal S1x64x1 .i32) (xo : Vec Ideal S1x1x128 .f32) (j : Fin 128) :
    k0_pay1 (F := Ideal) (k0_pay5 x1) (k0_pay6 x1) (k0_pay7 x1) (k0_pay8 x0 x2) (k0_pay9 x0) (k0_pay10 x0) xo (ix3 0 0 j)
      = xo (ix3 0 0 j) + Cert.Spec.tileLane x0 x1 x2 j := by
  rw [pay1_at]
  congr 1
  obtain ⟨jv, hj⟩ := j
  match jv, hj with
  | 0, hj =>
    refine (cat2_left _ _ _ ⟨0, by decide⟩ rfl).trans ?_
    refine (cat6_at _ _ _ _ _ _ _).trans ?_
    refine (sumSel_at _ _).trans ?_
    exact sum_rows_congr _ Cert.Spec.isReg (fun r => x1 (ix3 0 r 0)) _
      (fun r => Cert.Spec.nllRow (fun v => x0 (ix3 0 r v)) (x2 (ix3 0 r 0))) (pay7_iff x1) (nllV_at x0 x2)
  | 1, hj =>
    refine (cat2_left _ _ _ ⟨1, by decide⟩ rfl).trans ?_
    refine (cat6_at _ _ _ _ _ _ _).trans ?_
    refine (cntSel_at _).trans ?_
    exact sum_rows_congr _ Cert.Spec.isReg (fun r => x1 (ix3 0 r 0)) (fun _ => 1) (fun _ => 1) (pay7_iff x1) (fun _ => rfl)
  | 2, hj =>
    refine (cat2_left _ _ _ ⟨2, by decide⟩ rfl).trans ?_
    refine (cat6_at _ _ _ _ _ _ _).trans ?_
    refine (sumSel_at _ _).trans ?_
    exact sum_rows_congr _ Cert.Spec.isMsk (fun r => x1 (ix3 0 r 0)) _
      (fun r => Cert.Spec.nllRow (fun v => x0 (ix3 0 r v)) (x2 (ix3 0 r 0))) (pay5_iff x1) (nllV_at x0 x2)
  | 3, hj =>
    refine (cat2_left _ _ _ ⟨3, by decide⟩ rfl).trans ?_
    refine (cat6_at _ _ _ _ _ _ _).trans ?_
    refine (cntSel_at _).trans ?_
    exact sum_rows_congr _ Cert.Spec.isMsk (fun r => x1 (ix3 0 r 0)) (fun _ => 1) (fun _ => 1) (pay5_iff x1) (fun _ => rfl)
  | 4, hj =>
    refine (cat2_left _ _ _ ⟨4, by decide⟩ rfl).trans ?_
    refine (cat6_at _ _ _ _ _ _ _).trans ?_
    refine (sumSel_at _ _).trans ?_
    exact sum_rows_congr _ Cert.Spec.isSpc (fun r => x1 (ix3 0 r 0)) _
      (fun r => Cert.Spec.nllRow (fun v => x0 (ix3 0 r v)) (x2 (ix3 0 r 0))) (pay6_iff x1) (nllV_at x0 x2)
  | 5, hj =>
    refine (cat2_left _ _ _ ⟨5, by decide⟩ rfl).trans ?_
    refine (cat6_at _ _ _ _ _ _ _).trans ?_
    refine (cntSel_at _).trans ?_
    exact sum_rows_congr _ Cert.Spec.isSpc (fun r => x1 (ix3 0 r 0)) (fun _ => 1) (fun _ => 1) (pay6_iff x1) (fun _ => rfl)
  | n + 6, hj =>
    refine (cat2_right _ _ _ ⟨n, by omega⟩ rfl).trans ?_
    exact Ideal.ofBits_zero_f32

theorem pay2_lane (j : Fin 128) : k0_pay2 (F := Ideal) (ix3 0 0 j) = 0 :=
  Ideal.ofBits_zero_f32

end Cert.KernelIdeal.Val

end
-- ==== Proof.KVal.Acc.lean ====
/-
  From the body's stores to the output array. The stores of each case read back are the body's final payload (over
  zero at a batch's first tile, over the block's running contents at a later one); so lane j of the block after tile s
  of batch b is the sum of the lane-j quantities of tiles 0 to s; the block is written back after tile 15 only, to row b
  of the output array, whose lane j therefore ends at the sum over the batch's sixteen tiles.
-/
import proofs.«414165_j8486855377000_2_alg».proof.Proof.KVal.Names
import proofs.«414165_j8486855377000_2_alg».proof.Proof.KVal.Pay
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)
open Idealize.ShloMosaic.Tactic

/-- The whole output block starts at offset zero on each of its three axes. -/
private theorem hz3 : (![0, 0, 0] : Fin 3 → Nat) = fun _ => 0 := funext fun a => by fin_cases a <;> rfl

variable (m : (ℓ : Loc nD τ sig) → Buf (Elt Ideal) ℓ)

/-- The first-tile run's stores, read back, are the final payload over the zero block. -/
theorem out0_A_3_eq (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : cond0_0 i)
    (x0 : Vec Ideal S1x64x32000 .f32) (x1 : Vec Ideal S1x64x1 .i32) (x2 : Vec Ideal S1x64x1 .i32) :
    out0_A_3 (F := Ideal) c i arg2 harg2 arg3 harg3 arg4 harg4 arg5 harg5 hc0 x0 x1 x2
      = k0_pay1 (F := Ideal) (k0_pay5 x1) (k0_pay6 x1) (k0_pay7 x1) (k0_pay8 x0 x2) (k0_pay9 x0) (k0_pay10 x0) (k0_pay2 (F := Ideal)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, View.ld_unit_zero (S := S1x64x1) hz3, View.ld_unit_zero (S := S1x64x32000) hz3]

/-- A later tile's store, read back, is the final payload over what the tile before left. -/
theorem out0_B_3_eq (c : Dev nD) (i : grid0.Coords) (arg2 : Memref sig .tc .vmem S1x64x32000 .f32) (harg2 : arg2.IsWhole) (arg3 : Memref sig .tc .vmem S1x64x1 .i32) (harg3 : arg3.IsWhole) (arg4 : Memref sig .tc .vmem S1x64x1 .i32) (harg4 : arg4.IsWhole) (arg5 : Memref sig .tc .vmem S1x1x128 .f32) (harg5 : arg5.IsWhole) (hc0 : ¬cond0_0 i)
    (x0 : Vec Ideal S1x64x32000 .f32) (x1 : Vec Ideal S1x64x1 .i32) (x2 : Vec Ideal S1x64x1 .i32) (xo3 : Vec Ideal S1x1x128 .f32) :
    out0_B_3 (F := Ideal) c i arg2 harg2 arg3 harg3 arg4 harg4 arg5 harg5 hc0 x0 x1 x2 xo3
      = k0_pay1 (F := Ideal) (k0_pay5 x1) (k0_pay6 x1) (k0_pay7 x1) (k0_pay8 x0 x2) (k0_pay9 x0) (k0_pay10 x0) xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz3]
  simp only [View.readAt_eq_ld, harg2.read_unread, harg3.read_unread, harg4.read_unread, harg5.read_unread, View.ld_unit_zero (S := S1x1x128) hz3, View.ld_unit_zero (S := S1x64x1) hz3, View.ld_unit_zero (S := S1x64x32000) hz3]

/-! ## The running sum over a batch's tiles -/

/-- The terms up to tile 0 are the term at tile 0. -/
private theorem sum_le_zero (f : Fin 16 → EReal) : (∑ s' : Fin 16, if s'.val ≤ 0 then f s' else 0) = f 0 := by
  have e : ∀ s' : Fin 16, (if s'.val ≤ 0 then f s' else 0) = if s' = 0 then f s' else 0 := fun s' => by
    by_cases h : s' = 0
    · subst h; rfl
    · have h1 : ¬s'.val ≤ 0 := fun h2 => h (Fin.ext (Nat.le_zero.mp h2))
      rw [if_neg h, if_neg h1]
  rw [Finset.sum_congr rfl fun s' _ => e s', Finset.sum_ite_eq' Finset.univ (0 : Fin 16) f, if_pos (Finset.mem_univ _)]

/-- The terms up to tile n + 1 are the terms up to tile n and the term at tile n + 1. -/
private theorem sum_le_succ (f : Fin 16 → EReal) (n : Nat) (h : n + 1 < 16) :
    (∑ s' : Fin 16, if s'.val ≤ n + 1 then f s' else 0) = (∑ s' : Fin 16, if s'.val ≤ n then f s' else 0) + f ⟨n + 1, h⟩ := by
  have e : ∀ s' : Fin 16, (if s'.val ≤ n + 1 then f s' else 0)
      = (if s'.val ≤ n then f s' else 0) + (if s' = ⟨n + 1, h⟩ then f s' else 0) := fun s' => by
    by_cases h1 : s'.val ≤ n
    · have h3 : s' ≠ ⟨n + 1, h⟩ := fun e => by have e' : s'.val = n + 1 := congrArg Fin.val e; omega
      rw [if_pos h1, if_pos (Nat.le_succ_of_le h1), if_neg h3, add_zero]
    · by_cases h2 : s' = ⟨n + 1, h⟩
      · have h4 : s'.val ≤ n + 1 := by rw [h2]
        rw [if_neg h1, if_pos h4, if_pos h2, zero_add]
      · have h3 : ¬s'.val ≤ n + 1 := fun h4 => h2 (Fin.ext (by show s'.val = n + 1; omega))
        rw [if_neg h1, if_neg h3, if_neg h2, add_zero]
  rw [Finset.sum_congr rfl fun s' _ => e s', Finset.sum_add_distrib, Finset.sum_ite_eq' Finset.univ (⟨n + 1, h⟩ : Fin 16) f,
    if_pos (Finset.mem_univ _)]

/-- The block's contents after a point depend on the point's number only. -/
private theorem outsAt0_congr (c : Dev nD) (n n' : Nat) (h : n < cfg0.N) (h' : n' < cfg0.N) (e : n = n') :
    outsAt0 (F := Ideal) m c n h = outsAt0 (F := Ideal) m c n' h' := by
  subst e; rfl

/-- Lane `j` of the block after tile `n` of batch `b`, by induction on the tile: the first tile adds its quantity to
    zero, a later one to what the tile before left. -/
private theorem lane_nat (c : Dev nD) (b : Fin 8) (j : Fin 128) : ∀ (n : Nat) (hn : n < 16),
    outsAt0 (F := Ideal) m c (pt b ⟨n, hn⟩).val (pt b ⟨n, hn⟩).isLt (ix3 0 0 j)
      = ∑ s' : Fin 16, if s'.val ≤ n then Cert.Spec.tileLane (blk0 m c (pt b s')) (blk1 m c (pt b s')) (blk2 m c (pt b s')) j else 0
  | 0, hn => by
    have h0 : (pt b ⟨0, hn⟩).val % 16 = 0 := by show (16 * b.val + 0) % 16 = 0; omega
    rw [outsAt0_A m c (pt b ⟨0, hn⟩) h0]
    refine (congrFun (out0_A_3_eq c (grid0.coords (pt b ⟨0, hn⟩)) (ms0_0 (pt b ⟨0, hn⟩)) (hs0_0 (pt b ⟨0, hn⟩)) (ms0_1 (pt b ⟨0, hn⟩)) (hs0_1 (pt b ⟨0, hn⟩)) (ms0_2 (pt b ⟨0, hn⟩)) (hs0_2 (pt b ⟨0, hn⟩)) (ms0_3 (pt b ⟨0, hn⟩)) (hs0_3 (pt b ⟨0, hn⟩)) ((hcond0_0 (pt b ⟨0, hn⟩)).mpr h0) (blk0 m c (pt b ⟨0, hn⟩)) (blk1 m c (pt b ⟨0, hn⟩)) (blk2 m c (pt b ⟨0, hn⟩))) (ix3 0 0 j)).trans ?_
    refine (pay_lane (blk0 m c (pt b ⟨0, hn⟩)) (blk1 m c (pt b ⟨0, hn⟩)) (blk2 m c (pt b ⟨0, hn⟩)) (k0_pay2 (F := Ideal)) j).trans ?_
    rw [pay2_lane, zero_add, sum_le_zero]
    rfl
  | n + 1, hn => by
    have h0 : ¬(pt b ⟨n + 1, hn⟩).val % 16 = 0 := by show ¬(16 * b.val + (n + 1)) % 16 = 0; omega
    rw [outsAt0_B m c (pt b ⟨n + 1, hn⟩) h0]
    refine (congrFun (out0_B_3_eq c (grid0.coords (pt b ⟨n + 1, hn⟩)) (ms0_0 (pt b ⟨n + 1, hn⟩)) (hs0_0 (pt b ⟨n + 1, hn⟩)) (ms0_1 (pt b ⟨n + 1, hn⟩)) (hs0_1 (pt b ⟨n + 1, hn⟩)) (ms0_2 (pt b ⟨n + 1, hn⟩)) (hs0_2 (pt b ⟨n + 1, hn⟩)) (ms0_3 (pt b ⟨n + 1, hn⟩)) (hs0_3 (pt b ⟨n + 1, hn⟩)) (fun h => h0 ((hcond0_0 (pt b ⟨n + 1, hn⟩)).mp h)) (blk0 m c (pt b ⟨n + 1, hn⟩)) (blk1 m c (pt b ⟨n + 1, hn⟩)) (blk2 m c (pt b ⟨n + 1, hn⟩))
      (outsAt0 (F := Ideal) m c ((pt b ⟨n + 1, hn⟩).val - 1) (Nat.lt_of_le_of_lt (Nat.sub_le _ _) (pt b ⟨n + 1, hn⟩).isLt))) (ix3 0 0 j)).trans ?_
    refine (pay_lane (blk0 m c (pt b ⟨n + 1, hn⟩)) (blk1 m c (pt b ⟨n + 1, hn⟩)) (blk2 m c (pt b ⟨n + 1, hn⟩)) (outsAt0 (F := Ideal) m c ((pt b ⟨n + 1, hn⟩).val - 1) (Nat.lt_of_le_of_lt (Nat.sub_le _ _) (pt b ⟨n + 1, hn⟩).isLt)) j).trans ?_
    rw [outsAt0_congr m c ((pt b ⟨n + 1, hn⟩).val - 1) (pt b ⟨n, Nat.lt_of_succ_lt hn⟩).val (Nat.lt_of_le_of_lt (Nat.sub_le _ _) (pt b ⟨n + 1, hn⟩).isLt) (pt b ⟨n, Nat.lt_of_succ_lt hn⟩).isLt
        (by show 16 * b.val + (n + 1) - 1 = 16 * b.val + n; omega),
      lane_nat c b j n (Nat.lt_of_succ_lt hn), sum_le_succ _ n hn]

/-- Lane `j` of the output block after tile `s` of batch `b`: the tiles 0 to `s` summed. -/
theorem outsAt0_lane (c : Dev nD) (b : Fin 8) (s : Fin 16) (j : Fin 128) :
    outsAt0 (F := Ideal) m c (pt b s).val (pt b s).isLt (ix3 0 0 j)
      = ∑ s' : Fin 16, if s'.val ≤ s.val then Cert.Spec.tileLane (blk0 m c (pt b s')) (blk1 m c (pt b s')) (blk2 m c (pt b s')) j else 0 :=
  lane_nat m c b j s.val s.isLt

/-! ## The array after the region -/

/-- The output window's block index at a point: the point's batch, then zero, zero. -/
private theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- Every index of the block is (0, 0, lane). -/
private theorem blk_idx (y : S1x1x128.Idx) : y = ix3 0 0 (y 2) := by
  have h0 : (y 0).val < 1 := (y 0).isLt
  have h1 : (y 1).val < 1 := (y 1).isLt
  funext a
  match a with
  | ⟨0, _⟩ => exact Fin.ext (by show (y 0).val = 0; omega)
  | ⟨1, _⟩ => exact Fin.ext (by show (y 1).val = 0; omega)
  | ⟨2, _⟩ => rfl

/-- What the output array ends holding: at row `b`, lane `j`, the batch's sixteen tiles summed. -/
private def aggG (c : Dev nD) : Vec Ideal S8x1x128 .f32 := fun i =>
  ∑ s : Fin 16, Cert.Spec.tileLane (blk0 m c (pt ⟨(i 0).val, (i 0).isLt⟩ s)) (blk1 m c (pt ⟨(i 0).val, (i 0).isLt⟩ s))
    (blk2 m c (pt ⟨(i 0).val, (i 0).isLt⟩ s)) ⟨(i 2).val, (i 2).isLt⟩

/-- What a point writes back, at an index of the block: the block's contents after the point. -/
private theorem flushed3_apply (c : Dev nD) (t : Fin cfg0.N) (y : S1x1x128.Idx) :
    (dats (F := Ideal) m 0 c).flushed 3 t y = outsAt0 (F := Ideal) m c t.val t.isLt y := by
  show (cfg0.win 3).cut (grid0.coords t) ((dats (F := Ideal) m 0 c).after 3 t) y = _
  rw [after0_3]
  rfl

/-- Where an index of point `t`'s block sits in the array: row `t / 16`, the same lane. -/
private theorem emb3 (t : Fin cfg0.N) (hb : t.val / 16 < 8) (y : S1x1x128.Idx) :
    ((cfg0.win 3).blk t).view.emb y = ix3 ⟨t.val / 16, hb⟩ 0 (y 2) := by
  obtain ⟨e0, e1, e2⟩ := idx3 t
  have h0 : (y 0).val < 1 := (y 0).isLt
  have h1 : (y 1).val < 1 := (y 1).isLt
  funext a
  apply Fin.ext
  match a with
  | ⟨0, _⟩ => show win0_3.index t (0 : Fin 3) * 1 + 1 * (y 0).val = t.val / 16; omega
  | ⟨1, _⟩ => show win0_3.index t (1 : Fin 3) * 1 + 1 * (y 1).val = 0; omega
  | ⟨2, _⟩ => show win0_3.index t (2 : Fin 3) * 128 + 1 * (y 2).val = (y 2).val; omega

/-- What a writing-back point writes is its block of that array: the point is its batch's last tile, and the block
    then holds the sum over all sixteen. -/
private theorem flushed3_eq (c : Dev nD) (t : Fin cfg0.N) (hf : (cfg0.win 3).flush t = true) :
    (dats (F := Ideal) m 0 c).flushed 3 t = ((cfg0.win 3).blk t).view.read (Elt Ideal) (aggG m c) := by
  have h15 : t.val % 16 = 15 := (flush0_3 t).mp hf
  have hN : t.val < 128 := lt_of_lt_of_eq t.isLt (show cfg0.N = 128 from N_0)
  have hb : t.val / 16 < 8 := by omega
  obtain ⟨b, rfl⟩ : ∃ b : Fin 8, t = pt b 15 :=
    ⟨⟨t.val / 16, hb⟩, Fin.ext (by show t.val = 16 * (t.val / 16) + 15; omega)⟩
  have eb : (⟨(pt b 15).val / 16, hb⟩ : Fin 8) = b := Fin.ext (by show (16 * b.val + 15) / 16 = b.val; omega)
  funext y
  refine (flushed3_apply m c (pt b 15) y).trans ?_
  show _ = aggG m c (((cfg0.win 3).blk (pt b 15)).view.emb y)
  rw [emb3 (pt b 15) hb y, eb]
  refine (congrArg (outsAt0 (F := Ideal) m c (pt b 15).val (pt b 15).isLt) (blk_idx y)).trans ?_
  refine (outsAt0_lane m c b 15 (y 2)).trans ?_
  exact Finset.sum_congr rfl fun s' _ => (if_pos (by have := s'.isLt; show s'.val ≤ 15; omega)).trans rfl

/-- An index of the array is in point `t`'s block iff each coordinate is in the block's range on its axis. -/
private theorem mem_blk3 (t : Fin cfg0.N) (i : S8x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v3).slice (win0_3.rect t)).set ↔ _
  rw [View.set_slice_whole, Rect.mem_set_unit]
  exact Iff.rfl

/-- Row `b` of the array is in the block of batch `b`'s last tile, which is written back. -/
private theorem cover3 (i : S8x1x128.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 128 := (i 2).isLt
  have ht : (pt ⟨(i 0).val, h0⟩ 15).val = 16 * (i 0).val + 15 := rfl
  refine ⟨pt ⟨(i 0).val, h0⟩ 15, (flush0_3 _).mpr (by rw [ht]; omega), ?_⟩
  rw [mem_blk3]
  obtain ⟨e0, e1, e2⟩ := idx3 (pt ⟨(i 0).val, h0⟩ 15)
  rw [ht] at e0
  intro a
  match a with
  | ⟨0, _⟩ =>
    show win0_3.index (pt ⟨(i 0).val, h0⟩ 15) (0 : Fin 3) * 1 ≤ (i 0).val
      ∧ (i 0).val < win0_3.index (pt ⟨(i 0).val, h0⟩ 15) (0 : Fin 3) * 1 + 1
    omega
  | ⟨1, _⟩ =>
    show win0_3.index (pt ⟨(i 0).val, h0⟩ 15) (1 : Fin 3) * 1 ≤ (i 1).val
      ∧ (i 1).val < win0_3.index (pt ⟨(i 0).val, h0⟩ 15) (1 : Fin 3) * 1 + 1
    omega
  | ⟨2, _⟩ =>
    show win0_3.index (pt ⟨(i 0).val, h0⟩ 15) (2 : Fin 3) * 128 ≤ (i 2).val
      ∧ (i 2).val < win0_3.index (pt ⟨(i 0).val, h0⟩ 15) (2 : Fin 3) * 128 + 128
    omega

/-- Lane `j` of row `b` of the output array after the region: the batch's sixteen tiles summed. -/
theorem agg_lane (c : Dev nD) (b : Fin 8) (j : Fin 128) :
    agg m c (ix3 b 0 j) = ∑ s : Fin 16, Cert.Spec.tileLane (blk0 m c (pt b s)) (blk1 m c (pt b s)) (blk2 m c (pt b s)) j := by
  have h : agg m c = aggG m c :=
    (dats (F := Ideal) m 0 c).arrAt_eq_of_cover 3 (aggG m c) (flushed3_eq m c) (fun i => cover3 i)
  exact (congrFun h (ix3 b 0 j)).trans rfl

end Cert.KernelIdeal.Val

end
-- ==== Proof.KVal.Host.lean ====
/-
  The host side of the kernel program. Before the region: the input tokens reshaped to a column; the targets clamped
  to [0, 31999] — no change for a target already there — and reshaped to a column; so each window's block at the point
  of batch b, tile s reads rows 64·s to 64·s + 63 of batch b of its argument. After the region: lanes 0 to 5 of the
  output array are sliced out as six vectors over the batches, and the four results are the fixed chain of them.
-/
import proofs.«414165_j8486855377000_2_alg».proof.Proof.KVal.Names
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## Which rows a point's blocks cover -/

/-- The block index of each input window at grid point t: batch t / 16, row tile t % 16, column block 0. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)

/-- A column reshaped from a matrix, read at an index whose first two coordinates are (b, q), is the matrix at (b, q). -/
theorem reshape_col {α : Type} (x : S8x1024.Idx → α) (b : Fin 8) (q : Fin 1024) (i : S8x1024x1.Idx) (h0 : (i 0).val = b.val) (h1 : (i 1).val = q.val) :
    shapeCast S8x1024x1 x shapeCasts_S8x1024_S8x1024x1 i = x (ix2 b q) := by
  refine shapeCast_apply _ _ _ _ ?_
  rw [Shape.rowMajor_val_two, Shape.rowMajor_val_three]
  have h2 : (i 2).val < 1 := (i 2).isLt
  show b.val * 1024 + q.val = ((i 0).val * 1024 + (i 1).val) * 1 + (i 2).val
  omega

/-- A word below 32000 is its own clamp to [0, 31999], in the order the program prints it: min(31999, max(0, w)). -/
theorem clamp_self (w : BitVec 32) (hw : w.toNat < 32000) : IntOp.minsi 31999#32 (IntOp.maxsi 0#32 w) = w := by
  have hti : w.toInt = w.toNat := StableHlo.Predicate.toInt_eq_toNat_of_lt (by omega)
  have h0 : (0#32 : BitVec 32).toInt = 0 := by decide
  have hh : (31999#32 : BitVec 32).toInt = 31999 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, hh, decide_eq_true_eq] at hc
  all_goals first | rfl | (apply BitVec.eq_of_toNat_eq; simp only [BitVec.toNat_ofNat]; omega)

/-- The input-token column the region finds is the input tokens reshaped. -/
theorem V_main_v1 (c : Dev nD) : (V m c main_v1 : S8x1024x1.Idx → BitVec 32) = shapeCast S8x1024x1 (m ((c.tc : Thread nD τ).loc main_arg1)) shapeCasts_S8x1024_S8x1024x1 := by
  dsimp only [V, V0]
  simp only [hostOps0, hostOps0_1, hostOps0_2, List.flatten_cons, List.flatten_nil, List.append_nil, List.cons_append, List.nil_append]
  after_results
  rfl

/-- The target column the region finds is the targets clamped to [0, 31999], reshaped. -/
theorem V_main_v2 (c : Dev nD) : (V m c main_v2 : S8x1024x1.Idx → BitVec 32)
    = shapeCast S8x1024x1
        (minsi (broadcastInDim S8x1024 ![] bcast_S_S8x1024 (id (constantI S_ 32 31999#32)))
          (maxsi (broadcastInDim S8x1024 ![] bcast_S_S8x1024 (id (constantI S_ 32 0#32))) (m ((c.tc : Thread nD τ).loc main_arg2))))
        shapeCasts_S8x1024_S8x1024x1 := by
  dsimp only [V, V0]
  simp only [hostOps0, hostOps0_1, hostOps0_2, List.flatten_cons, List.flatten_nil, List.append_nil, List.cons_append, List.nil_append]
  after_results
  rfl

/-! ## The blocks -/

/-- The logits tile of point (b, s) reads rows 64·s … of batch b of the logits. -/
theorem blk0_apply (c : Dev nD) (b : Fin 8) (s : Fin 16) (r : Fin 64) (v : Fin 32000) :
    blk0 m c (pt b s) (ix3 0 r v)
      = (m ((c.tc : Thread nD τ).loc main_arg0)) (ix3 b ⟨64 * s.val + r.val, by have := s.isLt; have := r.isLt; omega⟩ v) := by
  show V m c main_arg0 (((cfg0.win 0).blk (pt b s)).view.emb (ix3 0 r v)) = _
  rw [V_main_arg0]
  obtain ⟨e0, e1, e2⟩ := idx0 (pt b s)
  have hs := s.isLt
  have hr := r.isLt
  have hb := b.isLt
  refine congrArg _ (funext fun a => Fin.ext ?_)
  match a with
  | ⟨0, _⟩ =>
    show win0_0.index (pt b s) (0 : Fin 3) * 1 + 1 * 0 = b.val
    rw [e0, pt_val]; omega
  | ⟨1, _⟩ =>
    show win0_0.index (pt b s) (1 : Fin 3) * 64 + 1 * r.val = 64 * s.val + r.val
    rw [e1, pt_val]; omega
  | ⟨2, _⟩ =>
    show win0_0.index (pt b s) (2 : Fin 3) * 32000 + 1 * v.val = v.val
    rw [e2]; omega

/-- The input-token column of point (b, s) reads the same rows of the input tokens. -/
theorem blk1_apply (c : Dev nD) (b : Fin 8) (s : Fin 16) (r : Fin 64) :
    blk1 m c (pt b s) (ix3 0 r 0)
      = (m ((c.tc : Thread nD τ).loc main_arg1)) (ix2 b ⟨64 * s.val + r.val, by have := s.isLt; have := r.isLt; omega⟩) := by
  show V m c main_v1 (((cfg0.win 1).blk (pt b s)).view.emb (ix3 0 r 0)) = _
  rw [V_main_v1]
  obtain ⟨e0, e1, e2⟩ := idx1 (pt b s)
  have hs := s.isLt
  have hr := r.isLt
  have hb := b.isLt
  refine reshape_col _ b _ _ ?_ ?_
  · show win0_1.index (pt b s) (0 : Fin 3) * 1 + 1 * 0 = b.val
    rw [e0, pt_val]; omega
  · show win0_1.index (pt b s) (1 : Fin 3) * 64 + 1 * r.val = 64 * s.val + r.val
    rw [e1, pt_val]; omega

/-- The target column of point (b, s) reads the same rows of the targets: a target below 32000 is its own clamp. -/
theorem blk2_apply (c : Dev nD) (hrange : ∀ i, ((m ((c.tc : Thread nD τ).loc main_arg2)) i).toNat < 32000) (b : Fin 8) (s : Fin 16) (r : Fin 64) :
    blk2 m c (pt b s) (ix3 0 r 0)
      = (m ((c.tc : Thread nD τ).loc main_arg2)) (ix2 b ⟨64 * s.val + r.val, by have := s.isLt; have := r.isLt; omega⟩) := by
  show V m c main_v2 (((cfg0.win 2).blk (pt b s)).view.emb (ix3 0 r 0)) = _
  rw [V_main_v2]
  obtain ⟨e0, e1, e2⟩ := idx2 (pt b s)
  have hs := s.isLt
  have hr := r.isLt
  have hb := b.isLt
  refine (reshape_col _ b ⟨64 * s.val + r.val, by omega⟩ _ ?_ ?_).trans ?_
  · show win0_2.index (pt b s) (0 : Fin 3) * 1 + 1 * 0 = b.val
    rw [e0, pt_val]; omega
  · show win0_2.index (pt b s) (1 : Fin 3) * 64 + 1 * r.val = 64 * s.val + r.val
    rw [e1, pt_val]; omega
  · exact clamp_self _ (hrange _)

/-! ## The later lines, for any contents of the output array -/

section Generic
variable {F : FTy → Type} [FloatOps F]

/-- Lane k of an [8, 1, 128] array as a vector over the batches, the way the program slices it out:
    reshape to [8, 128], the column k as [8, 1], reshape to [8]. -/
def lane (k : Nat) (hs : S8x128.Slices ![0, k] S8x1) (A : Vec F S8x1x128 .f32) : FVec F S8 .f32 :=
  shapeCast S8 (extractStridedSlice S8x1 ![0, k] (shapeCast S8x128 A shapeCasts_S8x1x128_S8x128) hs) shapeCasts_S8x1_S8

/-- It is the array read at (batch, 0, k). -/
theorem lane_apply (k : Nat) (hk : k < 128) (hs : S8x128.Slices ![0, k] S8x1) (A : Vec F S8x1x128 .f32) (i : S8.Idx) :
    lane k hs A i = A (ix3 ⟨(i 0).val, (i 0).isLt⟩ 0 ⟨k, hk⟩) := by
  have hi : (i 0).val < 8 := (i 0).isLt
  unfold lane
  refine (shapeCast_apply _ _ i (ix2 ⟨(i 0).val, hi⟩ 0) ?_).trans ?_
  · rw [Shape.rowMajor_val_two, Shape.rowMajor_val_one]
    show (i 0).val * 1 + 0 = (i 0).val
    omega
  refine (extractStridedSlice_apply _ _ _ _ (ix2 ⟨(i 0).val, hi⟩ ⟨k, hk⟩) ?_).trans ?_
  · intro a
    match a with
    | ⟨0, _⟩ => show (i 0).val = 0 + (i 0).val; omega
    | ⟨1, _⟩ => show k = k + 0; omega
  refine shapeCast_apply _ _ _ _ ?_
  rw [Shape.rowMajor_val_three, Shape.rowMajor_val_two]
  show ((i 0).val * 1 + 0) * 128 + k = (i 0).val * 128 + k
  omega

/-- The loss as the fixed chain of lanes 0 to 5 of an array. -/
def lossG (A : Vec F S8x1x128 .f32) : FVec F S_ .f32 :=
  Spec.lossOf bcast_S_S8 reducesTo_S8_S_d0 h_S_
    (Spec.catMeanF bcast_S_S8 (lane 0 slices_S8x128_S8x1_0_0 A) (lane 1 slices_S8x128_S8x1_0_1 A)) (Spec.catPresF bcast_S_S8 (lane 1 slices_S8x128_S8x1_0_1 A))
    (Spec.catMeanF bcast_S_S8 (lane 2 slices_S8x128_S8x1_0_2 A) (lane 3 slices_S8x128_S8x1_0_3 A)) (Spec.catPresF bcast_S_S8 (lane 3 slices_S8x128_S8x1_0_3 A))
    (Spec.catMeanF bcast_S_S8 (lane 4 slices_S8x128_S8x1_0_4 A) (lane 5 slices_S8x128_S8x1_0_5 A)) (Spec.catPresF bcast_S_S8 (lane 5 slices_S8x128_S8x1_0_5 A))

/-- A category's average as the fixed chain of its two lanes (sum, count). -/
def avgG (ks kn : Nat) (hks : S8x128.Slices ![0, ks] S8x1) (hkn : S8x128.Slices ![0, kn] S8x1) (A : Vec F S8x1x128 .f32) : FVec F S_ .f32 :=
  Spec.catAvg reducesTo_S8_S_d0 h_S_ (Spec.catMeanF bcast_S_S8 (lane ks hks A) (lane kn hkn A)) (Spec.catPresF bcast_S_S8 (lane kn hkn A))

set_option maxHeartbeats 8000000 in
/-- The later lines leave in the loss's buffer the chain of the lanes of whatever the output array holds. -/
theorem tail_v59 (W : Valuation τ sig (Elt F)) :
    StableHlo.after (List.flatten (tailOps (F := F))) W (Proc.devRef .tc main_v59) = lossG (W (Proc.devRef .tc main_v3)) := by
  simp only [tailOps, hostOps1, hostOps1_1, hostOps1_2, hostOps1_3, hostOps1_4, hostOps1_5, hostOps1_6, hostOps1_7, hostOps1_8, hostOps1_9, hostOps1_10, hostOps1_11,
    List.flatten_cons, List.flatten_nil, List.append_nil, List.cons_append, List.nil_append]
  after_results_simp
  rfl

set_option maxHeartbeats 8000000 in
/-- Likewise the regular rows' average, -/
theorem tail_v65 (W : Valuation τ sig (Elt F)) :
    StableHlo.after (List.flatten (tailOps (F := F))) W (Proc.devRef .tc main_v65) = avgG 0 1 slices_S8x128_S8x1_0_0 slices_S8x128_S8x1_0_1 (W (Proc.devRef .tc main_v3)) := by
  simp only [tailOps, hostOps1, hostOps1_1, hostOps1_2, hostOps1_3, hostOps1_4, hostOps1_5, hostOps1_6, hostOps1_7, hostOps1_8, hostOps1_9, hostOps1_10, hostOps1_11,
    List.flatten_cons, List.flatten_nil, List.append_nil, List.cons_append, List.nil_append]
  after_results_simp
  rfl

set_option maxHeartbeats 8000000 in
/-- the mask rows' average, -/
theorem tail_v71 (W : Valuation τ sig (Elt F)) :
    StableHlo.after (List.flatten (tailOps (F := F))) W (Proc.devRef .tc main_v71) = avgG 2 3 slices_S8x128_S8x1_0_2 slices_S8x128_S8x1_0_3 (W (Proc.devRef .tc main_v3)) := by
  simp only [tailOps, hostOps1, hostOps1_1, hostOps1_2, hostOps1_3, hostOps1_4, hostOps1_5, hostOps1_6, hostOps1_7, hostOps1_8, hostOps1_9, hostOps1_10, hostOps1_11,
    List.flatten_cons, List.flatten_nil, List.append_nil, List.cons_append, List.nil_append]
  after_results_simp
  rfl

set_option maxHeartbeats 8000000 in
/-- and the special rows' average. -/
theorem tail_v77 (W : Valuation τ sig (Elt F)) :
    StableHlo.after (List.flatten (tailOps (F := F))) W (Proc.devRef .tc main_v77) = avgG 4 5 slices_S8x128_S8x1_0_4 slices_S8x128_S8x1_0_5 (W (Proc.devRef .tc main_v3)) := by
  simp only [tailOps, hostOps1, hostOps1_1, hostOps1_2, hostOps1_3, hostOps1_4, hostOps1_5, hostOps1_6, hostOps1_7, hostOps1_8, hostOps1_9, hostOps1_10, hostOps1_11,
    List.flatten_cons, List.flatten_nil, List.append_nil, List.cons_append, List.nil_append]
  after_results_simp
  rfl

end Generic

/-! ## The results -/

/-- Lane j of the output array after the region, sliced the program's way, is the vector `col`. -/
theorem lane_agg (c : Dev nD) (j : Fin 128) (hs : S8x128.Slices ![0, j.val] S8x1) : lane j.val hs (agg m c) = col m c j :=
  funext fun i => lane_apply j.val j.isLt hs (agg m c) i

/-- The later lines start from the region's output array in the output buffer. -/
theorem tail_start (c : Dev nD) :
    Pipeline.withArrays (cfgs 0).spec c (V0 m c) (fun w => (dats (F := Ideal) m 0 c).arrAt w (cfgs 0).N) (Proc.devRef .tc main_v3) = agg m c :=
  Pipeline.withArrays_arr spec0 launch0.win.arr_inj c _ _ 3

/-- The four results after the later lines, as the fixed chain of the output array's lanes 0 to 5. -/
theorem tail_results (c : Dev nD) :
    Pipeline.afterTail₀ cfgs (dats (F := Ideal) m) 0 (V0 m) tailOps c main_v59
        = Spec.lossOf Cert.KernelIdeal.Gen.bcast_S_S8 Cert.KernelIdeal.Gen.reducesTo_S8_S_d0 Cert.KernelIdeal.Gen.h_S_
            (Spec.catMeanF Cert.KernelIdeal.Gen.bcast_S_S8 (col m c 0) (col m c 1)) (Spec.catPresF Cert.KernelIdeal.Gen.bcast_S_S8 (col m c 1)) (Spec.catMeanF Cert.KernelIdeal.Gen.bcast_S_S8 (col m c 2) (col m c 3)) (Spec.catPresF Cert.KernelIdeal.Gen.bcast_S_S8 (col m c 3)) (Spec.catMeanF Cert.KernelIdeal.Gen.bcast_S_S8 (col m c 4) (col m c 5)) (Spec.catPresF Cert.KernelIdeal.Gen.bcast_S_S8 (col m c 5))
    ∧ Pipeline.afterTail₀ cfgs (dats (F := Ideal) m) 0 (V0 m) tailOps c main_v65
        = Spec.catAvg Cert.KernelIdeal.Gen.reducesTo_S8_S_d0 Cert.KernelIdeal.Gen.h_S_ (Spec.catMeanF Cert.KernelIdeal.Gen.bcast_S_S8 (col m c 0) (col m c 1)) (Spec.catPresF Cert.KernelIdeal.Gen.bcast_S_S8 (col m c 1))
    ∧ Pipeline.afterTail₀ cfgs (dats (F := Ideal) m) 0 (V0 m) tailOps c main_v71
        = Spec.catAvg Cert.KernelIdeal.Gen.reducesTo_S8_S_d0 Cert.KernelIdeal.Gen.h_S_ (Spec.catMeanF Cert.KernelIdeal.Gen.bcast_S_S8 (col m c 2) (col m c 3)) (Spec.catPresF Cert.KernelIdeal.Gen.bcast_S_S8 (col m c 3))
    ∧ Pipeline.afterTail₀ cfgs (dats (F := Ideal) m) 0 (V0 m) tailOps c main_v77
        = Spec.catAvg Cert.KernelIdeal.Gen.reducesTo_S8_S_d0 Cert.KernelIdeal.Gen.h_S_ (Spec.catMeanF Cert.KernelIdeal.Gen.bcast_S_S8 (col m c 4) (col m c 5)) (Spec.catPresF Cert.KernelIdeal.Gen.bcast_S_S8 (col m c 5)) := by
  have e0 : lane 0 slices_S8x128_S8x1_0_0 (agg m c) = col m c 0 := lane_agg m c 0 _
  have e1 : lane 1 slices_S8x128_S8x1_0_1 (agg m c) = col m c 1 := lane_agg m c 1 _
  have e2 : lane 2 slices_S8x128_S8x1_0_2 (agg m c) = col m c 2 := lane_agg m c 2 _
  have e3 : lane 3 slices_S8x128_S8x1_0_3 (agg m c) = col m c 3 := lane_agg m c 3 _
  have e4 : lane 4 slices_S8x128_S8x1_0_4 (agg m c) = col m c 4 := lane_agg m c 4 _
  have e5 : lane 5 slices_S8x128_S8x1_0_5 (agg m c) = col m c 5 := lane_agg m c 5 _
  refine ⟨?_, ?_, ?_, ?_⟩
  · unfold Pipeline.afterTail₀
    refine ((tail_v59 _).trans (congrArg lossG (tail_start m c))).trans ?_
    unfold lossG
    rw [e0, e1, e2, e3, e4, e5]
  · unfold Pipeline.afterTail₀
    refine ((tail_v65 _).trans (congrArg (avgG 0 1 slices_S8x128_S8x1_0_0 slices_S8x128_S8x1_0_1) (tail_start m c))).trans ?_
    unfold avgG
    rw [e0, e1]
  · unfold Pipeline.afterTail₀
    refine ((tail_v71 _).trans (congrArg (avgG 2 3 slices_S8x128_S8x1_0_2 slices_S8x128_S8x1_0_3) (tail_start m c))).trans ?_
    unfold avgG
    rw [e2, e3]
  · unfold Pipeline.afterTail₀
    refine ((tail_v77 _).trans (congrArg (avgG 4 5 slices_S8x128_S8x1_0_4 slices_S8x128_S8x1_0_5) (tail_start m c))).trans ?_
    unfold avgG
    rw [e4, e5]

end Cert.KernelIdeal.Val

end
-- ==== Proof.Alg.lean ====
/-
  The laws that join the two programs' arrangements of one computation: the row's negative log-likelihood written
  the reference's way equals the kernel's way when every logit of the row is a real number and the target names a
  column; a count of rows reads the same as a sum of ones, as an extended real and as a 32-bit word; 1024 rows are
  sixteen tiles of 64.
-/
import proofs.«414165_j8486855377000_2_alg».proof.Proof.Spec
import Idealize.ShloMosaic.Lib.StableHlo.Predicate
import Idealize.ShloMosaic.Lib.IdealHost

noncomputable section

namespace Cert.Spec

open Idealize.ShloMosaic Idealize.ShloMosaic.ValueIdx

/-- Every column of the row is a real number. -/
def RowFinite (x : Fin 32000 → EReal) : Prop := ∀ v, ∃ a : ℝ, x v = (a : EReal)

/-- The column a target word names (the word itself when it is below 32000). -/
def tgtIdx (w : BitVec 32) : Fin 32000 := ⟨w.toNat % 32000, Nat.mod_lt _ (by norm_num)⟩

/-- The reference's arrangement of a row's negative log-likelihood: −((x_t − M) − log Σ_v exp(x_v − M)). -/
def nllRowRef (x : Fin 32000 → EReal) (t : Fin 32000) : EReal :=
  -((x t - rowMax x) - Ideal.log (∑ v : Fin 32000, Ideal.exp (x v - rowMax x)))

/-- A finite sum of real numbers, read in the extended reals, is the extended real of their sum. -/
private theorem coe_finset_sum {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The maximum of a finite row is a real number: it is at least the row's first entry and below +∞. -/
private theorem rowMax_real (x : Fin 32000 → EReal) (hx : RowFinite x) : ∃ m : ℝ, rowMax x = (m : EReal) := by
  have hs : rowMax x = Finset.univ.sup x := rfl
  have hbot : rowMax x ≠ ⊥ := by
    obtain ⟨a, ha⟩ := hx ⟨0, by norm_num⟩
    have hle : x ⟨0, by norm_num⟩ ≤ rowMax x := by rw [hs]; exact Finset.le_sup (Finset.mem_univ _)
    intro h
    rw [h, ha] at hle
    exact absurd hle (not_le.mpr (EReal.bot_lt_coe a))
  have htop : rowMax x ≠ ⊤ := by
    have hlt : rowMax x < ⊤ := by
      rw [hs, Finset.sup_lt_iff (bot_lt_top : (⊥ : EReal) < ⊤)]
      intro v _
      obtain ⟨a, ha⟩ := hx v
      rw [ha]; exact EReal.coe_lt_top a
    exact ne_of_lt hlt
  exact ⟨(rowMax x).toReal, (EReal.coe_toReal htop hbot).symm⟩

/-- Below 32000 a column's word equals the target word exactly when the column is the one the target names. -/
private theorem ofNat_eq_iff_tgtIdx (w : BitVec 32) (hw : w.toNat < 32000) (v : Fin 32000) :
    BitVec.ofNat 32 v.val = w ↔ v = tgtIdx w := by
  constructor
  · intro h
    have hv : w.toNat = v.val := by
      rw [← h, BitVec.toNat_ofNat]; exact Nat.mod_eq_of_lt (by have := v.isLt; omega)
    apply Fin.ext
    show v.val = w.toNat % 32000
    rw [hv, Nat.mod_eq_of_lt v.isLt]
  · intro h
    have hv : v.val = w.toNat := by rw [h]; exact Nat.mod_eq_of_lt hw
    apply BitVec.eq_of_toNat_eq
    rw [BitVec.toNat_ofNat, hv]; exact Nat.mod_eq_of_lt w.isLt

/-- For a finite row and a target naming a column the two arrangements agree. -/
theorem nllRowRef_eq (x : Fin 32000 → EReal) (hx : RowFinite x) (w : BitVec 32) (hw : w.toNat < 32000) :
    nllRowRef x (tgtIdx w) = nllRow x w := by
  obtain ⟨m, hm⟩ := rowMax_real x hx
  choose a ha using hx
  -- every exponential is the real exponential of a real difference
  have hexp : ∀ v, Ideal.exp (x v - rowMax x) = ((Real.exp (a v - m) : ℝ) : EReal) := by
    intro v; rw [ha v, hm, ← EReal.coe_sub]; rfl
  have hsum : (∑ v : Fin 32000, Ideal.exp (x v - rowMax x)) = ((∑ v : Fin 32000, Real.exp (a v - m) : ℝ) : EReal) := by
    rw [← coe_finset_sum]; exact Finset.sum_congr rfl fun v _ => hexp v
  -- their sum is positive, so its logarithm is the real logarithm
  have hpos : 0 < ∑ v : Fin 32000, Real.exp (a v - m) :=
    Finset.sum_pos (fun v _ => Real.exp_pos _) ⟨⟨0, by norm_num⟩, Finset.mem_univ _⟩
  have hlog : Ideal.log (∑ v : Fin 32000, Ideal.exp (x v - rowMax x))
      = ((Real.log (∑ v : Fin 32000, Real.exp (a v - m)) : ℝ) : EReal) := by
    rw [hsum]
    show (if (∑ v : Fin 32000, Real.exp (a v - m)) ≤ 0 then (⊥ : EReal) else _) = _
    rw [if_neg (not_le.mpr hpos)]
  -- the indicator sum picks the target's entry
  have hpick : (∑ v : Fin 32000, if BitVec.ofNat 32 v.val = w then x v else 0) = x (tgtIdx w) := by
    rw [Finset.sum_eq_single (tgtIdx w)]
    · rw [if_pos ((ofNat_eq_iff_tgtIdx w hw _).mpr rfl)]
    · intro v _ hv; rw [if_neg fun h => hv ((ofNat_eq_iff_tgtIdx w hw v).mp h)]
    · intro h; exact absurd (Finset.mem_univ _) h
  unfold nllRowRef nllRow
  rw [hlog, hpick, ha (tgtIdx w), hm]
  rw [← EReal.coe_sub, ← EReal.coe_sub, ← EReal.coe_neg, ← EReal.coe_add, ← EReal.coe_sub]
  exact congrArg Real.toEReal (by ring)

/-- The sum of nll over a category's rows, the row's nll written the reference's way. -/
def catSumRefAt (P : BitVec 32 → Prop) [DecidablePred P] (lp : S8x1024x32000.Idx → EReal) (inp tgt : S8x1024.Idx → BitVec 32) (b : Fin 8) : EReal :=
  ∑ r : Fin 1024, if P (inp (ix2 b r)) then nllRowRef (rowOf lp b r) (tgtIdx (tgt (ix2 b r))) else 0

theorem catSumRefAt_eq (P : BitVec 32 → Prop) [DecidablePred P] (lp : S8x1024x32000.Idx → EReal) (inp tgt : S8x1024.Idx → BitVec 32)
    (hfin : ∀ i, ∃ a : ℝ, lp i = (a : EReal)) (hrange : ∀ i, (tgt i).toNat < 32000) (b : Fin 8) :
    catSumRefAt P lp inp tgt b = catSumAt P lp inp tgt b := by
  unfold catSumRefAt catSumAt
  refine Finset.sum_congr rfl fun r _ => ?_
  by_cases hP : P (inp (ix2 b r))
  · rw [if_pos hP, if_pos hP]
    exact nllRowRef_eq _ (fun v => hfin _) _ (hrange _)
  · rw [if_neg hP, if_neg hP]

/-- A category's count is at most the 1024 rows of its batch. -/
private theorem catCountAt_le (P : BitVec 32 → Prop) [DecidablePred P] (inp : S8x1024.Idx → BitVec 32) (b : Fin 8) :
    catCountAt P inp b ≤ 1024 := by
  unfold catCountAt
  exact (Finset.card_le_univ _).trans (by simp)

/-- A count's word reads back as the count. -/
private theorem toNat_ofNat_cnt (k : ℕ) (hk : k ≤ 1024) : (BitVec.ofNat 32 k).toNat = k := by
  rw [BitVec.toNat_ofNat]; exact Nat.mod_eq_of_lt (by omega)

/-- The float test `k > 0` and the signed word test `k > 0` agree for a count `k`. -/
private theorem cnt_cmp (k : ℕ) (hk : k ≤ 1024) :
    Ideal.cmp .ogt (((k : ℝ)) : EReal) (Ideal.ofBits .f32 0x00000000#32) = IntOp.cmpi .sgt (BitVec.ofNat 32 k) 0#32 := by
  rw [Ideal.ofBits_zero_f32]
  rcases Nat.eq_zero_or_pos k with rfl | hpos
  · have h0 : IntOp.cmpi .sgt (BitVec.ofNat 32 0) 0#32 = 0#1 := by decide
    rw [h0]
    show BitVec.ofBool (decide ((0 : EReal) < (((0 : ℕ) : ℝ) : EReal))) = 0#1
    rw [decide_eq_false (by simp)]; rfl
  · have h1 : IntOp.cmpi .sgt (BitVec.ofNat 32 k) 0#32 = 1#1 :=
      (StableHlo.Predicate.sgt_iff_toNat (by rw [toNat_ofNat_cnt k hk]; omega) (by decide)).mpr
        (by rw [toNat_ofNat_cnt k hk]; exact hpos)
    rw [h1]
    show BitVec.ofBool (decide ((0 : EReal) < ((k : ℝ) : EReal))) = 1#1
    rw [decide_eq_true (by exact_mod_cast hpos)]; rfl

/-- The signed maximum of a positive count's word with the word 1 is the count's word. -/
private theorem maxsi_cnt (k : ℕ) (hk : k ≤ 1024) (hpos : 0 < k) :
    IntOp.maxsi (BitVec.ofNat 32 k) 1#32 = BitVec.ofNat 32 k := by
  unfold IntOp.maxsi
  by_cases h : (1#32).slt (BitVec.ofNat 32 k) = true
  · rw [if_pos h]
  · rw [if_neg h]
    have h' : ¬ ((1#32).toNat < (BitVec.ofNat 32 k).toNat) := fun hlt =>
      h ((StableHlo.Predicate.ofBool_eq_one_iff _).mp
        ((StableHlo.Predicate.slt_bool_iff_toNat (by decide) (by rw [toNat_ofNat_cnt k hk]; omega)).mpr hlt))
    rw [toNat_ofNat_cnt k hk, show (1#32).toNat = 1 from rfl] at h'
    have hk1 : k = 1 := by omega
    subst hk1; rfl

/-- For a positive count, the float `max(k, 1)` is the signed word `max(k, 1)` converted. -/
private theorem cnt_val (k : ℕ) (hk : k ≤ 1024) (hpos : 0 < k) :
    max (((k : ℝ)) : EReal) (Ideal.ofBits .f32 0x3F800000#32)
      = ((((IntOp.maxsi (BitVec.ofNat 32 k) 1#32).toInt : ℝ)) : EReal) := by
  rw [maxsi_cnt k hk hpos, StableHlo.Predicate.toInt_ofNat_small k (by omega), Ideal.ofBits_one_f32]
  have h1 : (1 : EReal) ≤ ((k : ℝ) : EReal) := by exact_mod_cast hpos
  rw [max_eq_left h1]
  norm_cast

/-- A category's mean is the same from the float count and from the integer count (a count is at most 1024). -/
theorem catMeanF_cnt (hb : S_.BroadcastsInDim S8 (![] : Fin 0 → Fin S8.rank)) (P : BitVec 32 → Prop) [DecidablePred P]
    (inp : S8x1024.Idx → BitVec 32) (s : FVec Ideal S8 .f32) :
    catMeanF (F := Ideal) hb s (catCntF P inp) = catMeanI (F := Ideal) hb s (catCntI P inp) := by
  funext j
  have hk := catCountAt_le P inp ⟨(j 0).val, (j 0).isLt⟩
  generalize hkdef : catCountAt P inp ⟨(j 0).val, (j 0).isLt⟩ = k at hk
  have hL : catMeanF (F := Ideal) hb s (catCntF P inp) j
      = Scalar.select (Ideal.cmp .ogt (((k : ℝ)) : EReal) (Ideal.ofBits .f32 0x00000000#32))
          (Ideal.div (s j) (max (((k : ℝ)) : EReal) (Ideal.ofBits .f32 0x3F800000#32)))
          (Ideal.ofBits .f32 0x00000000#32) := by
    rw [← hkdef]; rfl
  have hR : catMeanI (F := Ideal) hb s (catCntI P inp) j
      = Scalar.select (IntOp.cmpi .sgt (BitVec.ofNat 32 k) 0#32)
          (Ideal.div (s j) ((((IntOp.maxsi (BitVec.ofNat 32 k) 1#32).toInt : ℝ)) : EReal))
          (Ideal.ofBits .f32 0x00000000#32) := by
    rw [← hkdef]; rfl
  rw [hL, hR, cnt_cmp k hk]
  rcases Nat.eq_zero_or_pos k with rfl | hpos
  · -- an empty category: the test fails on both sides
    have h0 : IntOp.cmpi .sgt (BitVec.ofNat 32 0) 0#32 = 0#1 := by decide
    rw [h0, select_zero, select_zero]
  · rw [cnt_val k hk hpos]
/-- And so is its presence. -/
theorem catPresF_cnt (hb : S_.BroadcastsInDim S8 (![] : Fin 0 → Fin S8.rank)) (P : BitVec 32 → Prop) [DecidablePred P]
    (inp : S8x1024.Idx → BitVec 32) :
    catPresF (F := Ideal) hb (catCntF P inp) = catPresI (F := Ideal) hb (catCntI P inp) := by
  funext j
  have hk := catCountAt_le P inp ⟨(j 0).val, (j 0).isLt⟩
  generalize hkdef : catCountAt P inp ⟨(j 0).val, (j 0).isLt⟩ = k at hk
  have hL : catPresF (F := Ideal) hb (catCntF P inp) j
      = ((((Ideal.cmp .ogt (((k : ℝ)) : EReal) (Ideal.ofBits .f32 0x00000000#32)).toNat : ℝ)) : EReal) := by
    rw [← hkdef]; rfl
  have hR : catPresI (F := Ideal) hb (catCntI P inp) j
      = ((((IntOp.cmpi .sgt (BitVec.ofNat 32 k) 0#32).toNat : ℝ)) : EReal) := by
    rw [← hkdef]; rfl
  rw [hL, hR, cnt_cmp k hk]

/-- 1024 rows are sixteen tiles of 64. -/
theorem sum_tiles {M : Type} [AddCommMonoid M] (f : Fin 1024 → M) :
    ∑ s : Fin 16, ∑ r : Fin 64, f ⟨64 * s.val + r.val, by have := s.isLt; have := r.isLt; omega⟩ = ∑ r : Fin 1024, f r := by
  -- the pair (tile, row in the tile) names the row 64·tile + row, one to one onto the 1024 rows
  let e : Fin 16 × Fin 64 ≃ Fin 1024 := finProdFinEquiv
  rw [← Equiv.sum_comp e f, Fintype.sum_prod_type]
  refine Finset.sum_congr rfl fun s _ => Finset.sum_congr rfl fun r _ => ?_
  congr 1
  apply Fin.ext
  show 64 * s.val + r.val = r.val + 64 * s.val
  omega

/-- A sum of ones over a category's rows is their number. -/
theorem count_sum (P : BitVec 32 → Prop) [DecidablePred P] (inp : S8x1024.Idx → BitVec 32) (b : Fin 8) :
    (∑ r : Fin 1024, if P (inp (ix2 b r)) then (1 : EReal) else 0) = (((catCountAt P inp b : ℕ) : ℝ) : EReal) := by
  have h1 : ∀ r : Fin 1024, (if P (inp (ix2 b r)) then (1 : EReal) else 0)
      = (((if P (inp (ix2 b r)) then (1 : ℝ) else 0 : ℝ)) : EReal) := by
    intro r; split_ifs <;> simp
  rw [Finset.sum_congr rfl fun r _ => h1 r, coe_finset_sum, Finset.sum_boole]
  rfl

end Cert.Spec

end
-- ==== Proof.KVal.Results.lean ====
/-
  The kernel's four results in the specification's terms. Lane 2k of the output array sums, over a batch's sixteen
  tiles, the tile's masked sum of negative log-likelihoods; lane 2k + 1 its masked count. Each tile's block reads 64
  consecutive rows of the batch, and sixteen tiles of 64 rows are the batch's 1024 rows: so the lanes are the
  per-batch masked sums and counts of the whole arrays, and the results are the fixed chain of those.
-/
import proofs.«414165_j8486855377000_2_alg».proof.Proof.KVal.Acc
import proofs.«414165_j8486855377000_2_alg».proof.Proof.KVal.Host
import proofs.«414165_j8486855377000_2_alg».proof.Proof.Alg

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

variable (c : Dev nD)

/-- Over a batch's sixteen tiles of 64 rows, the masked sum of the rows' negative log-likelihoods is the batch's. -/
theorem lane_sum (hrange : ∀ i, ((m ((c.tc : Thread nD τ).loc main_arg2)) i).toNat < 32000) (P : BitVec 32 → Prop) [DecidablePred P] (b : Fin 8) :
    (∑ s : Fin 16, ∑ r : Fin 64, if P (blk1 m c (pt b s) (ix3 0 r 0))
        then Spec.nllRow (fun v => blk0 m c (pt b s) (ix3 0 r v)) (blk2 m c (pt b s) (ix3 0 r 0)) else 0)
      = Spec.catSumAt P (m ((c.tc : Thread nD τ).loc main_arg0)) (m ((c.tc : Thread nD τ).loc main_arg1)) (m ((c.tc : Thread nD τ).loc main_arg2)) b := by
  simp only [blk0_apply, blk1_apply, blk2_apply m c hrange]
  exact Spec.sum_tiles (fun r' : Fin 1024 => if P ((m ((c.tc : Thread nD τ).loc main_arg1)) (ix2 b r'))
    then Spec.nllRow (Spec.rowOf (m ((c.tc : Thread nD τ).loc main_arg0)) b r') ((m ((c.tc : Thread nD τ).loc main_arg2)) (ix2 b r')) else 0)

/-- Likewise the masked count. -/
theorem lane_cnt (P : BitVec 32 → Prop) [DecidablePred P] (b : Fin 8) :
    (∑ s : Fin 16, ∑ r : Fin 64, if P (blk1 m c (pt b s) (ix3 0 r 0)) then (1 : EReal) else 0)
      = (((Spec.catCountAt P (m ((c.tc : Thread nD τ).loc main_arg1)) b : ℕ) : ℝ) : EReal) := by
  simp only [blk1_apply]
  exact (Spec.sum_tiles (fun r' : Fin 1024 => if P ((m ((c.tc : Thread nD τ).loc main_arg1)) (ix2 b r')) then (1 : EReal) else 0)).trans
    (Spec.count_sum P (m ((c.tc : Thread nD τ).loc main_arg1)) b)

/-- The six lanes of the output array, as vectors over the batches. -/
theorem col0 (hrange : ∀ i, ((m ((c.tc : Thread nD τ).loc main_arg2)) i).toNat < 32000) : col m c 0 = Spec.catSum Spec.isReg (m ((c.tc : Thread nD τ).loc main_arg0)) (m ((c.tc : Thread nD τ).loc main_arg1)) (m ((c.tc : Thread nD τ).loc main_arg2)) := by
  funext i; exact (agg_lane m c _ 0).trans (lane_sum m c hrange Spec.isReg _)
theorem col1 : col m c 1 = Spec.catCntF Spec.isReg (m ((c.tc : Thread nD τ).loc main_arg1)) := by
  funext i; exact (agg_lane m c _ 1).trans (lane_cnt m c Spec.isReg _)
theorem col2 (hrange : ∀ i, ((m ((c.tc : Thread nD τ).loc main_arg2)) i).toNat < 32000) : col m c 2 = Spec.catSum Spec.isMsk (m ((c.tc : Thread nD τ).loc main_arg0)) (m ((c.tc : Thread nD τ).loc main_arg1)) (m ((c.tc : Thread nD τ).loc main_arg2)) := by
  funext i; exact (agg_lane m c _ 2).trans (lane_sum m c hrange Spec.isMsk _)
theorem col3 : col m c 3 = Spec.catCntF Spec.isMsk (m ((c.tc : Thread nD τ).loc main_arg1)) := by
  funext i; exact (agg_lane m c _ 3).trans (lane_cnt m c Spec.isMsk _)
theorem col4 (hrange : ∀ i, ((m ((c.tc : Thread nD τ).loc main_arg2)) i).toNat < 32000) : col m c 4 = Spec.catSum Spec.isSpc (m ((c.tc : Thread nD τ).loc main_arg0)) (m ((c.tc : Thread nD τ).loc main_arg1)) (m ((c.tc : Thread nD τ).loc main_arg2)) := by
  funext i; exact (agg_lane m c _ 4).trans (lane_sum m c hrange Spec.isSpc _)
theorem col5 : col m c 5 = Spec.catCntF Spec.isSpc (m ((c.tc : Thread nD τ).loc main_arg1)) := by
  funext i; exact (agg_lane m c _ 5).trans (lane_cnt m c Spec.isSpc _)

/-- The four results of the kernel program, from the arguments. -/
theorem results (hrange : ∀ i, ((m ((c.tc : Thread nD τ).loc main_arg2)) i).toNat < 32000) :
    Pipeline.afterTail₀ cfgs (dats (F := Ideal) m) 0 (V0 m) tailOps c main_v59
        = Spec.lossOf Cert.KernelIdeal.Gen.bcast_S_S8 Cert.KernelIdeal.Gen.reducesTo_S8_S_d0 Cert.KernelIdeal.Gen.h_S_
            (Spec.catMeanF Cert.KernelIdeal.Gen.bcast_S_S8 (Spec.catSum Spec.isReg (m ((c.tc : Thread nD τ).loc main_arg0)) (m ((c.tc : Thread nD τ).loc main_arg1)) (m ((c.tc : Thread nD τ).loc main_arg2))) (Spec.catCntF Spec.isReg (m ((c.tc : Thread nD τ).loc main_arg1)))) (Spec.catPresF Cert.KernelIdeal.Gen.bcast_S_S8 (Spec.catCntF Spec.isReg (m ((c.tc : Thread nD τ).loc main_arg1)))) (Spec.catMeanF Cert.KernelIdeal.Gen.bcast_S_S8 (Spec.catSum Spec.isMsk (m ((c.tc : Thread nD τ).loc main_arg0)) (m ((c.tc : Thread nD τ).loc main_arg1)) (m ((c.tc : Thread nD τ).loc main_arg2))) (Spec.catCntF Spec.isMsk (m ((c.tc : Thread nD τ).loc main_arg1)))) (Spec.catPresF Cert.KernelIdeal.Gen.bcast_S_S8 (Spec.catCntF Spec.isMsk (m ((c.tc : Thread nD τ).loc main_arg1)))) (Spec.catMeanF Cert.KernelIdeal.Gen.bcast_S_S8 (Spec.catSum Spec.isSpc (m ((c.tc : Thread nD τ).loc main_arg0)) (m ((c.tc : Thread nD τ).loc main_arg1)) (m ((c.tc : Thread nD τ).loc main_arg2))) (Spec.catCntF Spec.isSpc (m ((c.tc : Thread nD τ).loc main_arg1)))) (Spec.catPresF Cert.KernelIdeal.Gen.bcast_S_S8 (Spec.catCntF Spec.isSpc (m ((c.tc : Thread nD τ).loc main_arg1))))
    ∧ Pipeline.afterTail₀ cfgs (dats (F := Ideal) m) 0 (V0 m) tailOps c main_v65
        = Spec.catAvg Cert.KernelIdeal.Gen.reducesTo_S8_S_d0 Cert.KernelIdeal.Gen.h_S_ (Spec.catMeanF Cert.KernelIdeal.Gen.bcast_S_S8 (Spec.catSum Spec.isReg (m ((c.tc : Thread nD τ).loc main_arg0)) (m ((c.tc : Thread nD τ).loc main_arg1)) (m ((c.tc : Thread nD τ).loc main_arg2))) (Spec.catCntF Spec.isReg (m ((c.tc : Thread nD τ).loc main_arg1)))) (Spec.catPresF Cert.KernelIdeal.Gen.bcast_S_S8 (Spec.catCntF Spec.isReg (m ((c.tc : Thread nD τ).loc main_arg1))))
    ∧ Pipeline.afterTail₀ cfgs (dats (F := Ideal) m) 0 (V0 m) tailOps c main_v71
        = Spec.catAvg Cert.KernelIdeal.Gen.reducesTo_S8_S_d0 Cert.KernelIdeal.Gen.h_S_ (Spec.catMeanF Cert.KernelIdeal.Gen.bcast_S_S8 (Spec.catSum Spec.isMsk (m ((c.tc : Thread nD τ).loc main_arg0)) (m ((c.tc : Thread nD τ).loc main_arg1)) (m ((c.tc : Thread nD τ).loc main_arg2))) (Spec.catCntF Spec.isMsk (m ((c.tc : Thread nD τ).loc main_arg1)))) (Spec.catPresF Cert.KernelIdeal.Gen.bcast_S_S8 (Spec.catCntF Spec.isMsk (m ((c.tc : Thread nD τ).loc main_arg1))))
    ∧ Pipeline.afterTail₀ cfgs (dats (F := Ideal) m) 0 (V0 m) tailOps c main_v77
        = Spec.catAvg Cert.KernelIdeal.Gen.reducesTo_S8_S_d0 Cert.KernelIdeal.Gen.h_S_ (Spec.catMeanF Cert.KernelIdeal.Gen.bcast_S_S8 (Spec.catSum Spec.isSpc (m ((c.tc : Thread nD τ).loc main_arg0)) (m ((c.tc : Thread nD τ).loc main_arg1)) (m ((c.tc : Thread nD τ).loc main_arg2))) (Spec.catCntF Spec.isSpc (m ((c.tc : Thread nD τ).loc main_arg1)))) (Spec.catPresF Cert.KernelIdeal.Gen.bcast_S_S8 (Spec.catCntF Spec.isSpc (m ((c.tc : Thread nD τ).loc main_arg1)))) := by
  have h := tail_results m c
  rw [col0 m c hrange, col1 m c, col2 m c hrange, col3 m c, col4 m c hrange, col5 m c] at h
  exact h

end Cert.KernelIdeal.Val

end
-- ==== Proof.RefRunS.lean ====
/-
  The run of the reference program, read stage by stage. Its 196 host operations are cut into ten consecutive
  stretches; across each stretch an invariant is carried: every buffer still needed later holds its stage
  (the value its operation writes, as a function of the three arguments), and the arguments are where they were.
  A stretch's operations are folded from ARBITRARY contents satisfying the invariant before it, so no composed term
  ever grows beyond one stretch; chaining the ten stretches gives each result buffer at its final stage.
-/
import proofs.«414165_j8486855377000_2_alg».proof.Proof.RefRun
import proofs.«414165_j8486855377000_2_alg».proof.Proof.RefRead

noncomputable section

namespace Cert.ReferenceIdeal.RunS

open Cert.ReferenceIdeal Cert.ReferenceIdeal.Gen Idealize.ShloMosaic Idealize.ShloMosaic.TcCoe Idealize.SL.Sem Idealize.ShloMosaic.StableHlo

variable {F : FTy → Type} [FloatOps F]

/-- Folding two lines one after the other is folding their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A typed reference's two transports cancel. -/
theorem ofBuf_toBuf {T : BufTy} (x : TRef sig T) (v : T.Contents (Elt F)) : x.ofBuf (x.toBuf v) = v := by
  obtain ⟨r, h, h1, h2⟩ := x
  subst h
  rfl

/-! ## The ten stretches of the operation list -/

/-- Operations 0 to 14: the log-softmax: the log-probabilities. -/
abbrev ops1 : List (HloOp τ sig (Elt F)) :=
  [ TRef.nullary (TRef.of (T := ⟨S_, .f32⟩) main_call0_cst) (constant S_ .f32 0xFF800000#32),
    TRef.binary (TRef.of (T := ⟨S8x1024x32000, .f32⟩) main_arg0) (TRef.of (T := ⟨S_, .f32⟩) main_call0_cst) (TRef.of (T := ⟨S8x1024, .f32⟩) main_call0_v0) (fun x v => Host.reduce FloatOps.maximumf x v reducesTo_S8x1024x32000_S8x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S8x1024, .f32⟩) main_call0_v1) (broadcastInDim S8x1024 ![] bcast_S_S8x1024),
    TRef.binary (TRef.of (T := ⟨S8x1024, .f32⟩) main_call0_v1) (TRef.of (T := ⟨S8x1024, .f32⟩) main_call0_v0) (TRef.of (T := ⟨S8x1024, .f32⟩) main_call0_v2) maximumf,
    TRef.unary (TRef.of (T := ⟨S8x1024, .f32⟩) main_call0_v2) (TRef.of (T := ⟨S8x1024x1, .f32⟩) main_call0_v3) (broadcastInDim S8x1024x1 ![0, 1] bcast_S8x1024_S8x1024x1_0_1),
    TRef.unary (TRef.of (T := ⟨S8x1024x1, .f32⟩) main_call0_v3) (TRef.of (T := ⟨S8x1024x32000, .f32⟩) main_call0_v4) (broadcastInDim S8x1024x32000 ![0, 1, 2] bcast_S8x1024x1_S8x1024x32000_0_1_2),
    TRef.binary (TRef.of (T := ⟨S8x1024x32000, .f32⟩) main_arg0) (TRef.of (T := ⟨S8x1024x32000, .f32⟩) main_call0_v4) (TRef.of (T := ⟨S8x1024x32000, .f32⟩) main_call0_v5) subf,
    TRef.unary (TRef.of (T := ⟨S8x1024x32000, .f32⟩) main_call0_v5) (TRef.of (T := ⟨S8x1024x32000, .f32⟩) main_call0_v6) Host.exp,
    TRef.nullary (TRef.of (T := ⟨S_, .f32⟩) main_call0_cst_1) (constant S_ .f32 0x00000000#32),
    TRef.binary (TRef.of (T := ⟨S8x1024x32000, .f32⟩) main_call0_v6) (TRef.of (T := ⟨S_, .f32⟩) main_call0_cst_1) (TRef.of (T := ⟨S8x1024, .f32⟩) main_call0_v7) (fun x v => Host.reduceAdd x v reducesTo_S8x1024x32000_S8x1024_d2 h_S_),
    TRef.unary (TRef.of (T := ⟨S8x1024, .f32⟩) main_call0_v7) (TRef.of (T := ⟨S8x1024x1, .f32⟩) main_call0_v8) (broadcastInDim S8x1024x1 ![0, 1] bcast_S8x1024_S8x1024x1_0_1),
    TRef.unary (TRef.of (T := ⟨S8x1024x1, .f32⟩) main_call0_v8) (TRef.of (T := ⟨S8x1024x1, .f32⟩) main_call0_v9) Host.log,
    TRef.unary (TRef.of (T := ⟨S8x1024x1, .f32⟩) main_call0_v9) (TRef.of (T := ⟨S8x1024x32000, .f32⟩) main_call0_v10) (broadcastInDim S8x1024x32000 ![0, 1, 2] bcast_S8x1024x1_S8x1024x32000_0_1_2),
    TRef.binary (TRef.of (T := ⟨S8x1024x32000, .f32⟩) main_call0_v5) (TRef.of (T := ⟨S8x1024x32000, .f32⟩) main_call0_v10) (TRef.of (T := ⟨S8x1024x32000, .f32⟩) main_v0) subf ]

/-- Operations 15 to 39: the target's log-probability picked out and negated: the per-row nll. -/
abbrev ops2 : List (HloOp τ sig (Elt F)) :=
  [ unary main_arg2 main_v1 (broadcastInDim S8x1024x1 ![0, 1] bcast_S8x1024_S8x1024x1_0_1 : (⟨S8x1024, .i32⟩ : BufTy).Contents (Elt F) → (⟨S8x1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1024x1, .i32⟩) main_call1_v0) (broadcastInDim S8x1024x1 ![] bcast_S_S8x1024x1),
    TRef.binary (TRef.of (T := ⟨S8x1024x1, .i32⟩) main_v1) (TRef.of (T := ⟨S8x1024x1, .i32⟩) main_call1_v0) (TRef.of (T := ⟨S8x1024x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8x1024x1, .i32⟩) main_call1_v2) (broadcastInDim S8x1024x1 ![] bcast_S_S8x1024x1),
    TRef.binary (TRef.of (T := ⟨S8x1024x1, .i32⟩) main_v1) (TRef.of (T := ⟨S8x1024x1, .i32⟩) main_call1_v2) (TRef.of (T := ⟨S8x1024x1, .i32⟩) main_call1_v3) addi,
    TRef.ternary (TRef.of (T := ⟨S8x1024x1, .i1⟩) main_call1_v1) (TRef.of (T := ⟨S8x1024x1, .i32⟩) main_call1_v3) (TRef.of (T := ⟨S8x1024x1, .i32⟩) main_v1) (TRef.of (T := ⟨S8x1024x1, .i32⟩) main_call1_v4) select,
    TRef.reshape (TRef.of (T := ⟨S8x1024x1, .i32⟩) main_call1_v4) (TRef.of (T := ⟨S8x1024x1x1, .i32⟩) main_call1_v5) rfl shapeCasts_S8x1024x1_S8x1024x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8x1024x1x1, .i32⟩) main_call1_v6) (broadcastInDim S8x1024x1x1 ![] bcast_S_S8x1024x1x1),
    TRef.binary (TRef.of (T := ⟨S8x1024x1x1, .i32⟩) main_call1_v5) (TRef.of (T := ⟨S8x1024x1x1, .i32⟩) main_call1_v6) (TRef.of (T := ⟨S8x1024x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x1024x1x1, .i32⟩) main_call1_v9) (broadcastInDim S8x1024x1x1 ![0, 1, 2, 3] bcast_S1x1x1x1_S8x1024x1x1_0_1_2_3),
    TRef.binary (TRef.of (T := ⟨S8x1024x1x1, .i32⟩) main_call1_v5) (TRef.of (T := ⟨S8x1024x1x1, .i32⟩) main_call1_v9) (TRef.of (T := ⟨S8x1024x1x1, .i1⟩) main_call1_v10) (cmpi .sle),
    TRef.binary (TRef.of (T := ⟨S8x1024x1x1, .i1⟩) main_call1_v7) (TRef.of (T := ⟨S8x1024x1x1, .i1⟩) main_call1_v10) (TRef.of (T := ⟨S8x1024x1x1, .i1⟩) main_call1_v11) andi,
    TRef.nullary (TRef.of (T := ⟨S_, .i1⟩) main_call1_c_3) (constantI S_ 1 1#1),
    TRef.binary (TRef.of (T := ⟨S8x1024x1x1, .i1⟩) main_call1_v11) (TRef.of (T := ⟨S_, .i1⟩) main_call1_c_3) (TRef.of (T := ⟨S8x1024x1, .i1⟩) main_call1_v12) (fun x v => Host.reduce IntOp.andi x v reducesTo_S8x1024x1x1_S8x1024x1_d3 h_S_),
    TRef.binary (TRef.of (T := ⟨S8x1024x32000, .f32⟩) main_v0) (TRef.of (T := ⟨S8x1024x1x1, .i32⟩) main_call1_v5) (TRef.of (T := ⟨S8x1024x1, .f32⟩) main_call1_v13) (fun x i => Host.gather gather_S8x1024x32000_S8x1024x1x1_S8x1024x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S8x1024x1, .f32⟩) main_call1_v14) (broadcastInDim S8x1024x1 ![] bcast_S_S8x1024x1),
    TRef.ternary (TRef.of (T := ⟨S8x1024x1, .i1⟩) main_call1_v12) (TRef.of (T := ⟨S8x1024x1, .f32⟩) main_call1_v13) (TRef.of (T := ⟨S8x1024x1, .f32⟩) main_call1_v14) (TRef.of (T := ⟨S8x1024x1, .f32⟩) main_v2) select,
    reshape main_v2 main_v3 rfl shapeCasts_S8x1024x1_S8x1024,
    unary main_v3 main_v4 (Host.negf : (⟨S8x1024, .f32⟩ : BufTy).Contents (Elt F) → (⟨S8x1024, .f32⟩ : BufTy).Contents (Elt F)) ]

/-- Operations 40 to 63: the three row masks (mask, special, regular). -/
abbrev ops3 : List (HloOp τ sig (Elt F)) :=
  [ nullary main_c (constantI S_ 32 4#32),
    unary main_c main_v5 (broadcastInDim S8x1024 ![] bcast_S_S8x1024 : (⟨S_, .i32⟩ : BufTy).Contents (Elt F) → (⟨S8x1024, .i32⟩ : BufTy).Contents (Elt F)),
    binary main_arg1 main_v5 main_v6 (cmpi .eq : (⟨S8x1024, .i32⟩ : BufTy).Contents (Elt F) → (⟨S8x1024, .i32⟩ : BufTy).Contents (Elt F) → (⟨S8x1024, .i1⟩ : BufTy).Contents (Elt F)),
    nullary main_c_0 (constantI S_ 1 0#1),
    unary main_c_0 main_v7 (broadcastInDim S8x1024 ![] bcast_S_S8x1024 : (⟨S_, .i1⟩ : BufTy).Contents (Elt F) → (⟨S8x1024, .i1⟩ : BufTy).Contents (Elt F)),
    nullary main_c_1 (constantI S_ 32 0#32),
    unary main_c_1 main_v8 (broadcastInDim S8x1024 ![] bcast_S_S8x1024 : (⟨S_, .i32⟩ : BufTy).Contents (Elt F) → (⟨S8x1024, .i32⟩ : BufTy).Contents (Elt F)),
    binary main_arg1 main_v8 main_v9 (cmpi .eq : (⟨S8x1024, .i32⟩ : BufTy).Contents (Elt F) → (⟨S8x1024, .i32⟩ : BufTy).Contents (Elt F) → (⟨S8x1024, .i1⟩ : BufTy).Contents (Elt F)),
    binary main_v7 main_v9 main_v10 (ori : (⟨S8x1024, .i1⟩ : BufTy).Contents (Elt F) → (⟨S8x1024, .i1⟩ : BufTy).Contents (Elt F) → (⟨S8x1024, .i1⟩ : BufTy).Contents (Elt F)),
    nullary main_c_2 (constantI S_ 32 1#32),
    unary main_c_2 main_v11 (broadcastInDim S8x1024 ![] bcast_S_S8x1024 : (⟨S_, .i32⟩ : BufTy).Contents (Elt F) → (⟨S8x1024, .i32⟩ : BufTy).Contents (Elt F)),
    binary main_arg1 main_v11 main_v12 (cmpi .eq : (⟨S8x1024, .i32⟩ : BufTy).Contents (Elt F) → (⟨S8x1024, .i32⟩ : BufTy).Contents (Elt F) → (⟨S8x1024, .i1⟩ : BufTy).Contents (Elt F)),
    binary main_v10 main_v12 main_v13 (ori : (⟨S8x1024, .i1⟩ : BufTy).Contents (Elt F) → (⟨S8x1024, .i1⟩ : BufTy).Contents (Elt F) → (⟨S8x1024, .i1⟩ : BufTy).Contents (Elt F)),
    nullary main_c_3 (constantI S_ 32 2#32),
    unary main_c_3 main_v14 (broadcastInDim S8x1024 ![] bcast_S_S8x1024 : (⟨S_, .i32⟩ : BufTy).Contents (Elt F) → (⟨S8x1024, .i32⟩ : BufTy).Contents (Elt F)),
    binary main_arg1 main_v14 main_v15 (cmpi .eq : (⟨S8x1024, .i32⟩ : BufTy).Contents (Elt F) → (⟨S8x1024, .i32⟩ : BufTy).Contents (Elt F) → (⟨S8x1024, .i1⟩ : BufTy).Contents (Elt F)),
    binary main_v13 main_v15 main_v16 (ori : (⟨S8x1024, .i1⟩ : BufTy).Contents (Elt F) → (⟨S8x1024, .i1⟩ : BufTy).Contents (Elt F) → (⟨S8x1024, .i1⟩ : BufTy).Contents (Elt F)),
    nullary main_c_4 (constantI S_ 32 3#32),
    unary main_c_4 main_v17 (broadcastInDim S8x1024 ![] bcast_S_S8x1024 : (⟨S_, .i32⟩ : BufTy).Contents (Elt F) → (⟨S8x1024, .i32⟩ : BufTy).Contents (Elt F)),
    binary main_arg1 main_v17 main_v18 (cmpi .eq : (⟨S8x1024, .i32⟩ : BufTy).Contents (Elt F) → (⟨S8x1024, .i32⟩ : BufTy).Contents (Elt F) → (⟨S8x1024, .i1⟩ : BufTy).Contents (Elt F)),
    binary main_v16 main_v18 main_v19 (ori : (⟨S8x1024, .i1⟩ : BufTy).Contents (Elt F) → (⟨S8x1024, .i1⟩ : BufTy).Contents (Elt F) → (⟨S8x1024, .i1⟩ : BufTy).Contents (Elt F)),
    unary main_v6 main_v20 (noti : (⟨S8x1024, .i1⟩ : BufTy).Contents (Elt F) → (⟨S8x1024, .i1⟩ : BufTy).Contents (Elt F)),
    unary main_v19 main_v21 (noti : (⟨S8x1024, .i1⟩ : BufTy).Contents (Elt F) → (⟨S8x1024, .i1⟩ : BufTy).Contents (Elt F)),
    binary main_v20 main_v21 main_v22 (andi : (⟨S8x1024, .i1⟩ : BufTy).Contents (Elt F) → (⟨S8x1024, .i1⟩ : BufTy).Contents (Elt F) → (⟨S8x1024, .i1⟩ : BufTy).Contents (Elt F)) ]

/-- Operations 64 to 85: the regular rows' count, masked sum, mean and presence. -/
abbrev ops4 : List (HloOp τ sig (Elt F)) :=
  [ unary main_v22 main_v23 ((extui 32 · natLt_1_32) : (⟨S8x1024, .i1⟩ : BufTy).Contents (Elt F) → (⟨S8x1024, .i32⟩ : BufTy).Contents (Elt F)),
    nullary main_c_5 (constantI S_ 32 0#32),
    binary main_v23 main_c_5 main_v24 ((fun x v => Host.reduce IntOp.addi x v reducesTo_S8x1024_S8_d1 h_S_) : (⟨S8x1024, .i32⟩ : BufTy).Contents (Elt F) → (⟨S_, .i32⟩ : BufTy).Contents (Elt F) → (⟨S8, .i32⟩ : BufTy).Contents (Elt F)),
    nullary main_cst (constant S_ .f32 0x00000000#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S8x1024, .f32⟩) main_call2_v1) (broadcastInDim S8x1024 ![] bcast_S_S8x1024),
    TRef.ternary (TRef.of (T := ⟨S8x1024, .i1⟩) main_v22) (TRef.of (T := ⟨S8x1024, .f32⟩) main_v4) (TRef.of (T := ⟨S8x1024, .f32⟩) main_call2_v1) (TRef.of (T := ⟨S8x1024, .f32⟩) main_v25) select,
    nullary main_cst_6 (constant S_ .f32 0x00000000#32),
    binary main_v25 main_cst_6 main_v26 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    nullary main_c_7 (constantI S_ 32 0#32),
    unary main_c_7 main_v27 (broadcastInDim S8 ![] bcast_S_S8 : (⟨S_, .i32⟩ : BufTy).Contents (Elt F) → (⟨S8, .i32⟩ : BufTy).Contents (Elt F)),
    binary main_v24 main_v27 main_v28 (cmpi .sgt : (⟨S8, .i32⟩ : BufTy).Contents (Elt F) → (⟨S8, .i32⟩ : BufTy).Contents (Elt F) → (⟨S8, .i1⟩ : BufTy).Contents (Elt F)),
    nullary main_c_8 (constantI S_ 32 1#32),
    unary main_c_8 main_v29 (broadcastInDim S8 ![] bcast_S_S8 : (⟨S_, .i32⟩ : BufTy).Contents (Elt F) → (⟨S8, .i32⟩ : BufTy).Contents (Elt F)),
    binary main_v24 main_v29 main_v30 (maxsi : (⟨S8, .i32⟩ : BufTy).Contents (Elt F) → (⟨S8, .i32⟩ : BufTy).Contents (Elt F) → (⟨S8, .i32⟩ : BufTy).Contents (Elt F)),
    unary main_v30 main_v31 (sitofp (F := F) .f32 : (⟨S8, .i32⟩ : BufTy).Contents (Elt F) → (⟨S8, .f32⟩ : BufTy).Contents (Elt F)),
    binary main_v26 main_v31 main_v32 (Host.divf : (⟨S8, .f32⟩ : BufTy).Contents (Elt F) → (⟨S8, .f32⟩ : BufTy).Contents (Elt F) → (⟨S8, .f32⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S8, .f32⟩) main_call3_v1) (broadcastInDim S8 ![] bcast_S_S8),
    TRef.ternary (TRef.of (T := ⟨S8, .i1⟩) main_v28) (TRef.of (T := ⟨S8, .f32⟩) main_v32) (TRef.of (T := ⟨S8, .f32⟩) main_call3_v1) (TRef.of (T := ⟨S8, .f32⟩) main_v33) select,
    unary main_v28 main_v34 (uitofp (F := F) .f32 : (⟨S8, .i1⟩ : BufTy).Contents (Elt F) → (⟨S8, .f32⟩ : BufTy).Contents (Elt F)) ]

/-- Operations 86 to 107: the mask rows' count, masked sum, mean and presence. -/
abbrev ops5 : List (HloOp τ sig (Elt F)) :=
  [ unary main_v6 main_v35 ((extui 32 · natLt_1_32) : (⟨S8x1024, .i1⟩ : BufTy).Contents (Elt F) → (⟨S8x1024, .i32⟩ : BufTy).Contents (Elt F)),
    nullary main_c_10 (constantI S_ 32 0#32),
    binary main_v35 main_c_10 main_v36 ((fun x v => Host.reduce IntOp.addi x v reducesTo_S8x1024_S8_d1 h_S_) : (⟨S8x1024, .i32⟩ : BufTy).Contents (Elt F) → (⟨S_, .i32⟩ : BufTy).Contents (Elt F) → (⟨S8, .i32⟩ : BufTy).Contents (Elt F)),
    nullary main_cst_11 (constant S_ .f32 0x00000000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S8x1024, .f32⟩) main_call4_v1) (broadcastInDim S8x1024 ![] bcast_S_S8x1024),
    TRef.ternary (TRef.of (T := ⟨S8x1024, .i1⟩) main_v6) (TRef.of (T := ⟨S8x1024, .f32⟩) main_v4) (TRef.of (T := ⟨S8x1024, .f32⟩) main_call4_v1) (TRef.of (T := ⟨S8x1024, .f32⟩) main_v37) select,
    nullary main_cst_12 (constant S_ .f32 0x00000000#32),
    binary main_v37 main_cst_12 main_v38 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    nullary main_c_13 (constantI S_ 32 0#32),
    unary main_c_13 main_v39 (broadcastInDim S8 ![] bcast_S_S8 : (⟨S_, .i32⟩ : BufTy).Contents (Elt F) → (⟨S8, .i32⟩ : BufTy).Contents (Elt F)),
    binary main_v36 main_v39 main_v40 (cmpi .sgt : (⟨S8, .i32⟩ : BufTy).Contents (Elt F) → (⟨S8, .i32⟩ : BufTy).Contents (Elt F) → (⟨S8, .i1⟩ : BufTy).Contents (Elt F)),
    nullary main_c_14 (constantI S_ 32 1#32),
    unary main_c_14 main_v41 (broadcastInDim S8 ![] bcast_S_S8 : (⟨S_, .i32⟩ : BufTy).Contents (Elt F) → (⟨S8, .i32⟩ : BufTy).Contents (Elt F)),
    binary main_v36 main_v41 main_v42 (maxsi : (⟨S8, .i32⟩ : BufTy).Contents (Elt F) → (⟨S8, .i32⟩ : BufTy).Contents (Elt F) → (⟨S8, .i32⟩ : BufTy).Contents (Elt F)),
    unary main_v42 main_v43 (sitofp (F := F) .f32 : (⟨S8, .i32⟩ : BufTy).Contents (Elt F) → (⟨S8, .f32⟩ : BufTy).Contents (Elt F)),
    binary main_v38 main_v43 main_v44 (Host.divf : (⟨S8, .f32⟩ : BufTy).Contents (Elt F) → (⟨S8, .f32⟩ : BufTy).Contents (Elt F) → (⟨S8, .f32⟩ : BufTy).Contents (Elt F)),
    nullary main_cst_15 (constant S_ .f32 0x00000000#32),
    TRef.unary (TRef.of (T := ⟨S_, .f32⟩) main_cst_15) (TRef.of (T := ⟨S_, .f32⟩) main_call5_v0) id,
    TRef.unary (TRef.of (T := ⟨S_, .f32⟩) main_call5_v0) (TRef.of (T := ⟨S8, .f32⟩) main_call5_v1) (broadcastInDim S8 ![] bcast_S_S8),
    TRef.ternary (TRef.of (T := ⟨S8, .i1⟩) main_v40) (TRef.of (T := ⟨S8, .f32⟩) main_v44) (TRef.of (T := ⟨S8, .f32⟩) main_call5_v1) (TRef.of (T := ⟨S8, .f32⟩) main_v45) select,
    unary main_v40 main_v46 (uitofp (F := F) .f32 : (⟨S8, .i1⟩ : BufTy).Contents (Elt F) → (⟨S8, .f32⟩ : BufTy).Contents (Elt F)) ]

/-- Operations 108 to 129: the special rows' count, masked sum, mean and presence. -/
abbrev ops6 : List (HloOp τ sig (Elt F)) :=
  [ unary main_v19 main_v47 ((extui 32 · natLt_1_32) : (⟨S8x1024, .i1⟩ : BufTy).Contents (Elt F) → (⟨S8x1024, .i32⟩ : BufTy).Contents (Elt F)),
    nullary main_c_16 (constantI S_ 32 0#32),
    binary main_v47 main_c_16 main_v48 ((fun x v => Host.reduce IntOp.addi x v reducesTo_S8x1024_S8_d1 h_S_) : (⟨S8x1024, .i32⟩ : BufTy).Contents (Elt F) → (⟨S_, .i32⟩ : BufTy).Contents (Elt F) → (⟨S8, .i32⟩ : BufTy).Contents (Elt F)),
    nullary main_cst_17 (constant S_ .f32 0x00000000#32),
    TRef.unary (TRef.of (T := ⟨S_, .f32⟩) main_cst_17) (TRef.of (T := ⟨S_, .f32⟩) main_call6_v0) id,
    TRef.unary (TRef.of (T := ⟨S_, .f32⟩) main_call6_v0) (TRef.of (T := ⟨S8x1024, .f32⟩) main_call6_v1) (broadcastInDim S8x1024 ![] bcast_S_S8x1024),
    TRef.ternary (TRef.of (T := ⟨S8x1024, .i1⟩) main_v19) (TRef.of (T := ⟨S8x1024, .f32⟩) main_v4) (TRef.of (T := ⟨S8x1024, .f32⟩) main_call6_v1) (TRef.of (T := ⟨S8x1024, .f32⟩) main_v49) select,
    nullary main_cst_18 (constant S_ .f32 0x00000000#32),
    binary main_v49 main_cst_18 main_v50 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    nullary main_c_19 (constantI S_ 32 0#32),
    unary main_c_19 main_v51 (broadcastInDim S8 ![] bcast_S_S8 : (⟨S_, .i32⟩ : BufTy).Contents (Elt F) → (⟨S8, .i32⟩ : BufTy).Contents (Elt F)),
    binary main_v48 main_v51 main_v52 (cmpi .sgt : (⟨S8, .i32⟩ : BufTy).Contents (Elt F) → (⟨S8, .i32⟩ : BufTy).Contents (Elt F) → (⟨S8, .i1⟩ : BufTy).Contents (Elt F)),
    nullary main_c_20 (constantI S_ 32 1#32),
    unary main_c_20 main_v53 (broadcastInDim S8 ![] bcast_S_S8 : (⟨S_, .i32⟩ : BufTy).Contents (Elt F) → (⟨S8, .i32⟩ : BufTy).Contents (Elt F)),
    binary main_v48 main_v53 main_v54 (maxsi : (⟨S8, .i32⟩ : BufTy).Contents (Elt F) → (⟨S8, .i32⟩ : BufTy).Contents (Elt F) → (⟨S8, .i32⟩ : BufTy).Contents (Elt F)),
    unary main_v54 main_v55 (sitofp (F := F) .f32 : (⟨S8, .i32⟩ : BufTy).Contents (Elt F) → (⟨S8, .f32⟩ : BufTy).Contents (Elt F)),
    binary main_v50 main_v55 main_v56 (Host.divf : (⟨S8, .f32⟩ : BufTy).Contents (Elt F) → (⟨S8, .f32⟩ : BufTy).Contents (Elt F) → (⟨S8, .f32⟩ : BufTy).Contents (Elt F)),
    nullary main_cst_21 (constant S_ .f32 0x00000000#32),
    TRef.unary (TRef.of (T := ⟨S_, .f32⟩) main_cst_21) (TRef.of (T := ⟨S_, .f32⟩) main_call7_v0) id,
    TRef.unary (TRef.of (T := ⟨S_, .f32⟩) main_call7_v0) (TRef.of (T := ⟨S8, .f32⟩) main_call7_v1) (broadcastInDim S8 ![] bcast_S_S8),
    TRef.ternary (TRef.of (T := ⟨S8, .i1⟩) main_v52) (TRef.of (T := ⟨S8, .f32⟩) main_v56) (TRef.of (T := ⟨S8, .f32⟩) main_call7_v1) (TRef.of (T := ⟨S8, .f32⟩) main_v57) select,
    unary main_v52 main_v58 (uitofp (F := F) .f32 : (⟨S8, .i1⟩ : BufTy).Contents (Elt F) → (⟨S8, .f32⟩ : BufTy).Contents (Elt F)) ]

/-- Operations 130 to 159: the weighted loss. -/
abbrev ops7 : List (HloOp τ sig (Elt F)) :=
  [ nullary main_cst_22 (constant S_ .f32 0x3F800000#32),
    unary main_cst_22 main_v59 (broadcastInDim S8 ![] bcast_S_S8 : (⟨S_, .f32⟩ : BufTy).Contents (Elt F) → (⟨S8, .f32⟩ : BufTy).Contents (Elt F)),
    binary main_v33 main_v59 main_v60 (mulf : (⟨S8, .f32⟩ : BufTy).Contents (Elt F) → (⟨S8, .f32⟩ : BufTy).Contents (Elt F) → (⟨S8, .f32⟩ : BufTy).Contents (Elt F)),
    binary main_v60 main_v34 main_v61 (mulf : (⟨S8, .f32⟩ : BufTy).Contents (Elt F) → (⟨S8, .f32⟩ : BufTy).Contents (Elt F) → (⟨S8, .f32⟩ : BufTy).Contents (Elt F)),
    nullary main_cst_23 (constant S_ .f32 0x3F800000#32),
    unary main_cst_23 main_v62 (broadcastInDim S8 ![] bcast_S_S8 : (⟨S_, .f32⟩ : BufTy).Contents (Elt F) → (⟨S8, .f32⟩ : BufTy).Contents (Elt F)),
    binary main_v45 main_v62 main_v63 (mulf : (⟨S8, .f32⟩ : BufTy).Contents (Elt F) → (⟨S8, .f32⟩ : BufTy).Contents (Elt F) → (⟨S8, .f32⟩ : BufTy).Contents (Elt F)),
    binary main_v63 main_v46 main_v64 (mulf : (⟨S8, .f32⟩ : BufTy).Contents (Elt F) → (⟨S8, .f32⟩ : BufTy).Contents (Elt F) → (⟨S8, .f32⟩ : BufTy).Contents (Elt F)),
    binary main_v61 main_v64 main_v65 (addf : (⟨S8, .f32⟩ : BufTy).Contents (Elt F) → (⟨S8, .f32⟩ : BufTy).Contents (Elt F) → (⟨S8, .f32⟩ : BufTy).Contents (Elt F)),
    nullary main_cst_24 (constant S_ .f32 0x3C23D70A#32),
    unary main_cst_24 main_v66 (broadcastInDim S8 ![] bcast_S_S8 : (⟨S_, .f32⟩ : BufTy).Contents (Elt F) → (⟨S8, .f32⟩ : BufTy).Contents (Elt F)),
    binary main_v57 main_v66 main_v67 (mulf : (⟨S8, .f32⟩ : BufTy).Contents (Elt F) → (⟨S8, .f32⟩ : BufTy).Contents (Elt F) → (⟨S8, .f32⟩ : BufTy).Contents (Elt F)),
    binary main_v67 main_v58 main_v68 (mulf : (⟨S8, .f32⟩ : BufTy).Contents (Elt F) → (⟨S8, .f32⟩ : BufTy).Contents (Elt F) → (⟨S8, .f32⟩ : BufTy).Contents (Elt F)),
    binary main_v65 main_v68 main_v69 (addf : (⟨S8, .f32⟩ : BufTy).Contents (Elt F) → (⟨S8, .f32⟩ : BufTy).Contents (Elt F) → (⟨S8, .f32⟩ : BufTy).Contents (Elt F)),
    nullary main_cst_25 (constant S_ .f32 0x3F800000#32),
    unary main_cst_25 main_v70 (broadcastInDim S8 ![] bcast_S_S8 : (⟨S_, .f32⟩ : BufTy).Contents (Elt F) → (⟨S8, .f32⟩ : BufTy).Contents (Elt F)),
    binary main_v34 main_v70 main_v71 (mulf : (⟨S8, .f32⟩ : BufTy).Contents (Elt F) → (⟨S8, .f32⟩ : BufTy).Contents (Elt F) → (⟨S8, .f32⟩ : BufTy).Contents (Elt F)),
    nullary main_cst_26 (constant S_ .f32 0x3F800000#32),
    unary main_cst_26 main_v72 (broadcastInDim S8 ![] bcast_S_S8 : (⟨S_, .f32⟩ : BufTy).Contents (Elt F) → (⟨S8, .f32⟩ : BufTy).Contents (Elt F)),
    binary main_v46 main_v72 main_v73 (mulf : (⟨S8, .f32⟩ : BufTy).Contents (Elt F) → (⟨S8, .f32⟩ : BufTy).Contents (Elt F) → (⟨S8, .f32⟩ : BufTy).Contents (Elt F)),
    binary main_v71 main_v73 main_v74 (addf : (⟨S8, .f32⟩ : BufTy).Contents (Elt F) → (⟨S8, .f32⟩ : BufTy).Contents (Elt F) → (⟨S8, .f32⟩ : BufTy).Contents (Elt F)),
    nullary main_cst_27 (constant S_ .f32 0x3C23D70A#32),
    unary main_cst_27 main_v75 (broadcastInDim S8 ![] bcast_S_S8 : (⟨S_, .f32⟩ : BufTy).Contents (Elt F) → (⟨S8, .f32⟩ : BufTy).Contents (Elt F)),
    binary main_v58 main_v75 main_v76 (mulf : (⟨S8, .f32⟩ : BufTy).Contents (Elt F) → (⟨S8, .f32⟩ : BufTy).Contents (Elt F) → (⟨S8, .f32⟩ : BufTy).Contents (Elt F)),
    binary main_v74 main_v76 main_v77 (addf : (⟨S8, .f32⟩ : BufTy).Contents (Elt F) → (⟨S8, .f32⟩ : BufTy).Contents (Elt F) → (⟨S8, .f32⟩ : BufTy).Contents (Elt F)),
    binary main_v69 main_v77 main_v78 (Host.divf : (⟨S8, .f32⟩ : BufTy).Contents (Elt F) → (⟨S8, .f32⟩ : BufTy).Contents (Elt F) → (⟨S8, .f32⟩ : BufTy).Contents (Elt F)),
    nullary main_cst_28 (constant S_ .f32 0x00000000#32),
    binary main_v78 main_cst_28 main_v79 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_29 (constant S_ .f32 0x41000000#32),
    binary main_v79 main_cst_29 main_v80 (Host.divf : (⟨S_, .f32⟩ : BufTy).Contents (Elt F) → (⟨S_, .f32⟩ : BufTy).Contents (Elt F) → (⟨S_, .f32⟩ : BufTy).Contents (Elt F)) ]

/-- Operations 160 to 171: the regular rows' average. -/
abbrev ops8 : List (HloOp τ sig (Elt F)) :=
  [ nullary main_cst_30 (constant S_ .f32 0x00000000#32),
    binary main_v34 main_cst_30 main_v81 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_31 (constant S_ .f32 0x00000000#32),
    binary main_v81 main_cst_31 main_v82 (cmpf (F := F) .ogt : (⟨S_, .f32⟩ : BufTy).Contents (Elt F) → (⟨S_, .f32⟩ : BufTy).Contents (Elt F) → (⟨S_, .i1⟩ : BufTy).Contents (Elt F)),
    nullary main_cst_32 (constant S_ .f32 0x00000000#32),
    binary main_v33 main_cst_32 main_v83 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_33 (constant S_ .f32 0x3F800000#32),
    binary main_v81 main_cst_33 main_v84 (maximumf : (⟨S_, .f32⟩ : BufTy).Contents (Elt F) → (⟨S_, .f32⟩ : BufTy).Contents (Elt F) → (⟨S_, .f32⟩ : BufTy).Contents (Elt F)),
    binary main_v83 main_v84 main_v85 (Host.divf : (⟨S_, .f32⟩ : BufTy).Contents (Elt F) → (⟨S_, .f32⟩ : BufTy).Contents (Elt F) → (⟨S_, .f32⟩ : BufTy).Contents (Elt F)),
    nullary main_cst_34 (constant S_ .f32 0x00000000#32),
    TRef.unary (TRef.of (T := ⟨S_, .f32⟩) main_cst_34) (TRef.of (T := ⟨S_, .f32⟩) main_call8_v0) id,
    TRef.ternary (TRef.of (T := ⟨S_, .i1⟩) main_v82) (TRef.of (T := ⟨S_, .f32⟩) main_v85) (TRef.of (T := ⟨S_, .f32⟩) main_call8_v0) (TRef.of (T := ⟨S_, .f32⟩) main_v86) select ]

/-- Operations 172 to 183: the mask rows' average. -/
abbrev ops9 : List (HloOp τ sig (Elt F)) :=
  [ nullary main_cst_35 (constant S_ .f32 0x00000000#32),
    binary main_v46 main_cst_35 main_v87 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_36 (constant S_ .f32 0x00000000#32),
    binary main_v87 main_cst_36 main_v88 (cmpf (F := F) .ogt : (⟨S_, .f32⟩ : BufTy).Contents (Elt F) → (⟨S_, .f32⟩ : BufTy).Contents (Elt F) → (⟨S_, .i1⟩ : BufTy).Contents (Elt F)),
    nullary main_cst_37 (constant S_ .f32 0x00000000#32),
    binary main_v45 main_cst_37 main_v89 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_38 (constant S_ .f32 0x3F800000#32),
    binary main_v87 main_cst_38 main_v90 (maximumf : (⟨S_, .f32⟩ : BufTy).Contents (Elt F) → (⟨S_, .f32⟩ : BufTy).Contents (Elt F) → (⟨S_, .f32⟩ : BufTy).Contents (Elt F)),
    binary main_v89 main_v90 main_v91 (Host.divf : (⟨S_, .f32⟩ : BufTy).Contents (Elt F) → (⟨S_, .f32⟩ : BufTy).Contents (Elt F) → (⟨S_, .f32⟩ : BufTy).Contents (Elt F)),
    nullary main_cst_39 (constant S_ .f32 0x00000000#32),
    TRef.unary (TRef.of (T := ⟨S_, .f32⟩) main_cst_39) (TRef.of (T := ⟨S_, .f32⟩) main_call9_v0) id,
    TRef.ternary (TRef.of (T := ⟨S_, .i1⟩) main_v88) (TRef.of (T := ⟨S_, .f32⟩) main_v91) (TRef.of (T := ⟨S_, .f32⟩) main_call9_v0) (TRef.of (T := ⟨S_, .f32⟩) main_v92) select ]

/-- Operations 184 to 195: the special rows' average. -/
abbrev ops10 : List (HloOp τ sig (Elt F)) :=
  [ nullary main_cst_40 (constant S_ .f32 0x00000000#32),
    binary main_v58 main_cst_40 main_v93 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_41 (constant S_ .f32 0x00000000#32),
    binary main_v93 main_cst_41 main_v94 (cmpf (F := F) .ogt : (⟨S_, .f32⟩ : BufTy).Contents (Elt F) → (⟨S_, .f32⟩ : BufTy).Contents (Elt F) → (⟨S_, .i1⟩ : BufTy).Contents (Elt F)),
    nullary main_cst_42 (constant S_ .f32 0x00000000#32),
    binary main_v57 main_cst_42 main_v95 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_43 (constant S_ .f32 0x3F800000#32),
    binary main_v93 main_cst_43 main_v96 (maximumf : (⟨S_, .f32⟩ : BufTy).Contents (Elt F) → (⟨S_, .f32⟩ : BufTy).Contents (Elt F) → (⟨S_, .f32⟩ : BufTy).Contents (Elt F)),
    binary main_v95 main_v96 main_v97 (Host.divf : (⟨S_, .f32⟩ : BufTy).Contents (Elt F) → (⟨S_, .f32⟩ : BufTy).Contents (Elt F) → (⟨S_, .f32⟩ : BufTy).Contents (Elt F)),
    nullary main_cst_44 (constant S_ .f32 0x00000000#32),
    TRef.unary (TRef.of (T := ⟨S_, .f32⟩) main_cst_44) (TRef.of (T := ⟨S_, .f32⟩) main_call10_v0) id,
    TRef.ternary (TRef.of (T := ⟨S_, .i1⟩) main_v94) (TRef.of (T := ⟨S_, .f32⟩) main_v97) (TRef.of (T := ⟨S_, .f32⟩) main_call10_v0) (TRef.of (T := ⟨S_, .f32⟩) main_v98) select ]

set_option maxRecDepth 8192 in
/-- The operation list is its ten stretches in order. -/
theorem ops_eq : (ValueP.ops : List (HloOp τ sig (Elt F))) = ops1 ++ ops2 ++ ops3 ++ ops4 ++ ops5 ++ ops6 ++ ops7 ++ ops8 ++ ops9 ++ ops10 := rfl

/-! ## Each stretch carries the invariant -/

/-- Stretch 1: from contents where every buffer it reads holds its stage, every buffer needed after it holds
    its stage. -/
theorem stretch1 (W : Valuation τ sig (Elt F)) (x0 : (⟨S8x1024x32000, .f32⟩ : BufTy).Contents (Elt F)) (x1 x2 : (⟨S8x1024, .i32⟩ : BufTy).Contents (Elt F))
    (h_arg0 : W (Proc.devRef .tc main_arg0) = x0)
    (h_arg2 : W (Proc.devRef .tc main_arg2) = x2)
    (h_arg1 : W (Proc.devRef .tc main_arg1) = x1) :
    after ops1 W (Proc.devRef .tc main_arg2) = x2
    ∧ after ops1 W (Proc.devRef .tc main_v0) = ReadP.val_main_v0 (F := F) x0
    ∧ after ops1 W (Proc.devRef .tc main_arg1) = x1
    ∧ after ops1 W (Proc.devRef .tc main_arg0) = x0 := by
  refine ⟨?_, ?_, ?_, ?_⟩
  · after_results_simp <;> exact h_arg2
  · after_results_simp
    (try simp only [ofBuf_toBuf])
    (try simp only [TRef.ofBuf, TRef.toBuf])
    (try simp only [cast_eq])
    simp only [ReadP.val_main_call0_cst, ReadP.val_main_call0_v0, ReadP.val_main_call0_cst_0, ReadP.val_main_call0_v1, ReadP.val_main_call0_v2, ReadP.val_main_call0_v3, ReadP.val_main_call0_v4, ReadP.val_main_call0_v5, ReadP.val_main_call0_v6, ReadP.val_main_call0_cst_1, ReadP.val_main_call0_v7, ReadP.val_main_call0_v8, ReadP.val_main_call0_v9, ReadP.val_main_call0_v10, ReadP.val_main_v0, h_arg0, h_arg2, h_arg1] <;> with_reducible rfl
  · after_results_simp <;> exact h_arg1
  · after_results_simp <;> exact h_arg0

/-- Stretch 2: from contents where every buffer it reads holds its stage, every buffer needed after it holds
    its stage. -/
theorem stretch2 (W : Valuation τ sig (Elt F)) (x0 : (⟨S8x1024x32000, .f32⟩ : BufTy).Contents (Elt F)) (x1 x2 : (⟨S8x1024, .i32⟩ : BufTy).Contents (Elt F))
    (h_arg2 : W (Proc.devRef .tc main_arg2) = x2)
    (h_v0 : W (Proc.devRef .tc main_v0) = ReadP.val_main_v0 (F := F) x0)
    (h_arg1 : W (Proc.devRef .tc main_arg1) = x1)
    (h_arg0 : W (Proc.devRef .tc main_arg0) = x0) :
    after ops2 W (Proc.devRef .tc main_arg1) = x1
    ∧ after ops2 W (Proc.devRef .tc main_v4) = ReadP.val_main_v4 (F := F) x0 x2
    ∧ after ops2 W (Proc.devRef .tc main_arg0) = x0
    ∧ after ops2 W (Proc.devRef .tc main_arg2) = x2 := by
  refine ⟨?_, ?_, ?_, ?_⟩
  · after_results_simp <;> exact h_arg1
  · after_results_simp
    (try simp only [ofBuf_toBuf])
    (try simp only [TRef.ofBuf, TRef.toBuf])
    (try simp only [cast_eq])
    simp only [ReadP.val_main_v1, ReadP.val_main_call1_c, ReadP.val_main_call1_v0, ReadP.val_main_call1_v1, ReadP.val_main_call1_c_0, ReadP.val_main_call1_v2, ReadP.val_main_call1_v3, ReadP.val_main_call1_v4, ReadP.val_main_call1_v5, ReadP.val_main_call1_c_1, ReadP.val_main_call1_c_2, ReadP.val_main_call1_v6, ReadP.val_main_call1_v7, ReadP.val_main_call1_v8, ReadP.val_main_call1_v9, ReadP.val_main_call1_v10, ReadP.val_main_call1_v11, ReadP.val_main_call1_c_3, ReadP.val_main_call1_v12, ReadP.val_main_call1_v13, ReadP.val_main_call1_cst, ReadP.val_main_call1_v14, ReadP.val_main_v2, ReadP.val_main_v3, ReadP.val_main_v4, h_arg2, h_v0, h_arg1, h_arg0] <;> rfl
  · after_results_simp <;> exact h_arg0
  · after_results_simp <;> exact h_arg2

/-- Stretch 3: from contents where every buffer it reads holds its stage, every buffer needed after it holds
    its stage. -/
theorem stretch3 (W : Valuation τ sig (Elt F)) (x0 : (⟨S8x1024x32000, .f32⟩ : BufTy).Contents (Elt F)) (x1 x2 : (⟨S8x1024, .i32⟩ : BufTy).Contents (Elt F))
    (h_arg1 : W (Proc.devRef .tc main_arg1) = x1)
    (h_v4 : W (Proc.devRef .tc main_v4) = ReadP.val_main_v4 (F := F) x0 x2)
    (h_arg0 : W (Proc.devRef .tc main_arg0) = x0)
    (h_arg2 : W (Proc.devRef .tc main_arg2) = x2) :
    after ops3 W (Proc.devRef .tc main_v22) = ReadP.val_main_v22 (F := F) x1
    ∧ after ops3 W (Proc.devRef .tc main_v4) = ReadP.val_main_v4 (F := F) x0 x2
    ∧ after ops3 W (Proc.devRef .tc main_v6) = ReadP.val_main_v6 (F := F) x1
    ∧ after ops3 W (Proc.devRef .tc main_v19) = ReadP.val_main_v19 (F := F) x1
    ∧ after ops3 W (Proc.devRef .tc main_arg0) = x0
    ∧ after ops3 W (Proc.devRef .tc main_arg1) = x1
    ∧ after ops3 W (Proc.devRef .tc main_arg2) = x2 := by
  refine ⟨?_, ?_, ?_, ?_, ?_, ?_, ?_⟩
  · after_results_simp
    (try simp only [ofBuf_toBuf])
    (try simp only [TRef.ofBuf, TRef.toBuf])
    (try simp only [cast_eq])
    simp only [ReadP.val_main_c, ReadP.val_main_v5, ReadP.val_main_v6, ReadP.val_main_c_0, ReadP.val_main_v7, ReadP.val_main_c_1, ReadP.val_main_v8, ReadP.val_main_v9, ReadP.val_main_v10, ReadP.val_main_c_2, ReadP.val_main_v11, ReadP.val_main_v12, ReadP.val_main_v13, ReadP.val_main_c_3, ReadP.val_main_v14, ReadP.val_main_v15, ReadP.val_main_v16, ReadP.val_main_c_4, ReadP.val_main_v17, ReadP.val_main_v18, ReadP.val_main_v19, ReadP.val_main_v20, ReadP.val_main_v21, ReadP.val_main_v22, h_arg1, h_v4, h_arg0, h_arg2] <;> with_reducible rfl
  · after_results_simp <;> exact h_v4
  · after_results_simp
    (try simp only [ofBuf_toBuf])
    (try simp only [TRef.ofBuf, TRef.toBuf])
    (try simp only [cast_eq])
    simp only [ReadP.val_main_c, ReadP.val_main_v5, ReadP.val_main_v6, ReadP.val_main_c_0, ReadP.val_main_v7, ReadP.val_main_c_1, ReadP.val_main_v8, ReadP.val_main_v9, ReadP.val_main_v10, ReadP.val_main_c_2, ReadP.val_main_v11, ReadP.val_main_v12, ReadP.val_main_v13, ReadP.val_main_c_3, ReadP.val_main_v14, ReadP.val_main_v15, ReadP.val_main_v16, ReadP.val_main_c_4, ReadP.val_main_v17, ReadP.val_main_v18, ReadP.val_main_v19, ReadP.val_main_v20, ReadP.val_main_v21, ReadP.val_main_v22, h_arg1, h_v4, h_arg0, h_arg2] <;> with_reducible rfl
  · after_results_simp
    (try simp only [ofBuf_toBuf])
    (try simp only [TRef.ofBuf, TRef.toBuf])
    (try simp only [cast_eq])
    simp only [ReadP.val_main_c, ReadP.val_main_v5, ReadP.val_main_v6, ReadP.val_main_c_0, ReadP.val_main_v7, ReadP.val_main_c_1, ReadP.val_main_v8, ReadP.val_main_v9, ReadP.val_main_v10, ReadP.val_main_c_2, ReadP.val_main_v11, ReadP.val_main_v12, ReadP.val_main_v13, ReadP.val_main_c_3, ReadP.val_main_v14, ReadP.val_main_v15, ReadP.val_main_v16, ReadP.val_main_c_4, ReadP.val_main_v17, ReadP.val_main_v18, ReadP.val_main_v19, ReadP.val_main_v20, ReadP.val_main_v21, ReadP.val_main_v22, h_arg1, h_v4, h_arg0, h_arg2] <;> with_reducible rfl
  · after_results_simp <;> exact h_arg0
  · after_results_simp <;> exact h_arg1
  · after_results_simp <;> exact h_arg2

/-- Stretch 4: from contents where every buffer it reads holds its stage, every buffer needed after it holds
    its stage. -/
theorem stretch4 (W : Valuation τ sig (Elt F)) (x0 : (⟨S8x1024x32000, .f32⟩ : BufTy).Contents (Elt F)) (x1 x2 : (⟨S8x1024, .i32⟩ : BufTy).Contents (Elt F))
    (h_v22 : W (Proc.devRef .tc main_v22) = ReadP.val_main_v22 (F := F) x1)
    (h_v4 : W (Proc.devRef .tc main_v4) = ReadP.val_main_v4 (F := F) x0 x2)
    (h_v6 : W (Proc.devRef .tc main_v6) = ReadP.val_main_v6 (F := F) x1)
    (h_v19 : W (Proc.devRef .tc main_v19) = ReadP.val_main_v19 (F := F) x1)
    (h_arg0 : W (Proc.devRef .tc main_arg0) = x0)
    (h_arg1 : W (Proc.devRef .tc main_arg1) = x1)
    (h_arg2 : W (Proc.devRef .tc main_arg2) = x2) :
    after ops4 W (Proc.devRef .tc main_v6) = ReadP.val_main_v6 (F := F) x1
    ∧ after ops4 W (Proc.devRef .tc main_v4) = ReadP.val_main_v4 (F := F) x0 x2
    ∧ after ops4 W (Proc.devRef .tc main_v19) = ReadP.val_main_v19 (F := F) x1
    ∧ after ops4 W (Proc.devRef .tc main_v33) = ReadP.val_main_v33 (F := F) x0 x1 x2
    ∧ after ops4 W (Proc.devRef .tc main_v34) = ReadP.val_main_v34 (F := F) x1
    ∧ after ops4 W (Proc.devRef .tc main_arg0) = x0
    ∧ after ops4 W (Proc.devRef .tc main_arg1) = x1
    ∧ after ops4 W (Proc.devRef .tc main_arg2) = x2 := by
  refine ⟨?_, ?_, ?_, ?_, ?_, ?_, ?_, ?_⟩
  · after_results_simp <;> exact h_v6
  · after_results_simp <;> exact h_v4
  · after_results_simp <;> exact h_v19
  · after_results_simp
    (try simp only [ofBuf_toBuf])
    (try simp only [TRef.ofBuf, TRef.toBuf])
    (try simp only [cast_eq])
    simp only [ReadP.val_main_v23, ReadP.val_main_c_5, ReadP.val_main_v24, ReadP.val_main_cst, ReadP.val_main_call2_v0, ReadP.val_main_call2_v1, ReadP.val_main_v25, ReadP.val_main_cst_6, ReadP.val_main_v26, ReadP.val_main_c_7, ReadP.val_main_v27, ReadP.val_main_v28, ReadP.val_main_c_8, ReadP.val_main_v29, ReadP.val_main_v30, ReadP.val_main_v31, ReadP.val_main_v32, ReadP.val_main_cst_9, ReadP.val_main_call3_v0, ReadP.val_main_call3_v1, ReadP.val_main_v33, ReadP.val_main_v34, h_v22, h_v4, h_v6, h_v19, h_arg0, h_arg1, h_arg2] <;> with_reducible rfl
  · after_results_simp
    (try simp only [ofBuf_toBuf])
    (try simp only [TRef.ofBuf, TRef.toBuf])
    (try simp only [cast_eq])
    simp only [ReadP.val_main_v23, ReadP.val_main_c_5, ReadP.val_main_v24, ReadP.val_main_cst, ReadP.val_main_call2_v0, ReadP.val_main_call2_v1, ReadP.val_main_v25, ReadP.val_main_cst_6, ReadP.val_main_v26, ReadP.val_main_c_7, ReadP.val_main_v27, ReadP.val_main_v28, ReadP.val_main_c_8, ReadP.val_main_v29, ReadP.val_main_v30, ReadP.val_main_v31, ReadP.val_main_v32, ReadP.val_main_cst_9, ReadP.val_main_call3_v0, ReadP.val_main_call3_v1, ReadP.val_main_v33, ReadP.val_main_v34, h_v22, h_v4, h_v6, h_v19, h_arg0, h_arg1, h_arg2] <;> with_reducible rfl
  · after_results_simp <;> exact h_arg0
  · after_results_simp <;> exact h_arg1
  · after_results_simp <;> exact h_arg2

/-- Stretch 5: from contents where every buffer it reads holds its stage, every buffer needed after it holds
    its stage. -/
theorem stretch5 (W : Valuation τ sig (Elt F)) (x0 : (⟨S8x1024x32000, .f32⟩ : BufTy).Contents (Elt F)) (x1 x2 : (⟨S8x1024, .i32⟩ : BufTy).Contents (Elt F))
    (h_v6 : W (Proc.devRef .tc main_v6) = ReadP.val_main_v6 (F := F) x1)
    (h_v4 : W (Proc.devRef .tc main_v4) = ReadP.val_main_v4 (F := F) x0 x2)
    (h_v19 : W (Proc.devRef .tc main_v19) = ReadP.val_main_v19 (F := F) x1)
    (h_v33 : W (Proc.devRef .tc main_v33) = ReadP.val_main_v33 (F := F) x0 x1 x2)
    (h_v34 : W (Proc.devRef .tc main_v34) = ReadP.val_main_v34 (F := F) x1)
    (h_arg0 : W (Proc.devRef .tc main_arg0) = x0)
    (h_arg1 : W (Proc.devRef .tc main_arg1) = x1)
    (h_arg2 : W (Proc.devRef .tc main_arg2) = x2) :
    after ops5 W (Proc.devRef .tc main_v19) = ReadP.val_main_v19 (F := F) x1
    ∧ after ops5 W (Proc.devRef .tc main_v4) = ReadP.val_main_v4 (F := F) x0 x2
    ∧ after ops5 W (Proc.devRef .tc main_v33) = ReadP.val_main_v33 (F := F) x0 x1 x2
    ∧ after ops5 W (Proc.devRef .tc main_v34) = ReadP.val_main_v34 (F := F) x1
    ∧ after ops5 W (Proc.devRef .tc main_v45) = ReadP.val_main_v45 (F := F) x0 x1 x2
    ∧ after ops5 W (Proc.devRef .tc main_v46) = ReadP.val_main_v46 (F := F) x1
    ∧ after ops5 W (Proc.devRef .tc main_arg0) = x0
    ∧ after ops5 W (Proc.devRef .tc main_arg1) = x1
    ∧ after ops5 W (Proc.devRef .tc main_arg2) = x2 := by
  refine ⟨?_, ?_, ?_, ?_, ?_, ?_, ?_, ?_, ?_⟩
  · after_results_simp <;> exact h_v19
  · after_results_simp <;> exact h_v4
  · after_results_simp <;> exact h_v33
  · after_results_simp <;> exact h_v34
  · after_results_simp
    (try simp only [ofBuf_toBuf])
    (try simp only [TRef.ofBuf, TRef.toBuf])
    (try simp only [cast_eq])
    simp only [ReadP.val_main_v35, ReadP.val_main_c_10, ReadP.val_main_v36, ReadP.val_main_cst_11, ReadP.val_main_call4_v0, ReadP.val_main_call4_v1, ReadP.val_main_v37, ReadP.val_main_cst_12, ReadP.val_main_v38, ReadP.val_main_c_13, ReadP.val_main_v39, ReadP.val_main_v40, ReadP.val_main_c_14, ReadP.val_main_v41, ReadP.val_main_v42, ReadP.val_main_v43, ReadP.val_main_v44, ReadP.val_main_cst_15, ReadP.val_main_call5_v0, ReadP.val_main_call5_v1, ReadP.val_main_v45, ReadP.val_main_v46, h_v6, h_v4, h_v19, h_v33, h_v34, h_arg0, h_arg1, h_arg2] <;> with_reducible rfl
  · after_results_simp
    (try simp only [ofBuf_toBuf])
    (try simp only [TRef.ofBuf, TRef.toBuf])
    (try simp only [cast_eq])
    simp only [ReadP.val_main_v35, ReadP.val_main_c_10, ReadP.val_main_v36, ReadP.val_main_cst_11, ReadP.val_main_call4_v0, ReadP.val_main_call4_v1, ReadP.val_main_v37, ReadP.val_main_cst_12, ReadP.val_main_v38, ReadP.val_main_c_13, ReadP.val_main_v39, ReadP.val_main_v40, ReadP.val_main_c_14, ReadP.val_main_v41, ReadP.val_main_v42, ReadP.val_main_v43, ReadP.val_main_v44, ReadP.val_main_cst_15, ReadP.val_main_call5_v0, ReadP.val_main_call5_v1, ReadP.val_main_v45, ReadP.val_main_v46, h_v6, h_v4, h_v19, h_v33, h_v34, h_arg0, h_arg1, h_arg2] <;> with_reducible rfl
  · after_results_simp <;> exact h_arg0
  · after_results_simp <;> exact h_arg1
  · after_results_simp <;> exact h_arg2

/-- Stretch 6: from contents where every buffer it reads holds its stage, every buffer needed after it holds
    its stage. -/
theorem stretch6 (W : Valuation τ sig (Elt F)) (x0 : (⟨S8x1024x32000, .f32⟩ : BufTy).Contents (Elt F)) (x1 x2 : (⟨S8x1024, .i32⟩ : BufTy).Contents (Elt F))
    (h_v19 : W (Proc.devRef .tc main_v19) = ReadP.val_main_v19 (F := F) x1)
    (h_v4 : W (Proc.devRef .tc main_v4) = ReadP.val_main_v4 (F := F) x0 x2)
    (h_v33 : W (Proc.devRef .tc main_v33) = ReadP.val_main_v33 (F := F) x0 x1 x2)
    (h_v34 : W (Proc.devRef .tc main_v34) = ReadP.val_main_v34 (F := F) x1)
    (h_v45 : W (Proc.devRef .tc main_v45) = ReadP.val_main_v45 (F := F) x0 x1 x2)
    (h_v46 : W (Proc.devRef .tc main_v46) = ReadP.val_main_v46 (F := F) x1)
    (h_arg0 : W (Proc.devRef .tc main_arg0) = x0)
    (h_arg1 : W (Proc.devRef .tc main_arg1) = x1)
    (h_arg2 : W (Proc.devRef .tc main_arg2) = x2) :
    after ops6 W (Proc.devRef .tc main_v33) = ReadP.val_main_v33 (F := F) x0 x1 x2
    ∧ after ops6 W (Proc.devRef .tc main_v34) = ReadP.val_main_v34 (F := F) x1
    ∧ after ops6 W (Proc.devRef .tc main_v45) = ReadP.val_main_v45 (F := F) x0 x1 x2
    ∧ after ops6 W (Proc.devRef .tc main_v46) = ReadP.val_main_v46 (F := F) x1
    ∧ after ops6 W (Proc.devRef .tc main_v57) = ReadP.val_main_v57 (F := F) x0 x1 x2
    ∧ after ops6 W (Proc.devRef .tc main_v58) = ReadP.val_main_v58 (F := F) x1
    ∧ after ops6 W (Proc.devRef .tc main_arg0) = x0
    ∧ after ops6 W (Proc.devRef .tc main_arg1) = x1
    ∧ after ops6 W (Proc.devRef .tc main_arg2) = x2 := by
  refine ⟨?_, ?_, ?_, ?_, ?_, ?_, ?_, ?_, ?_⟩
  · after_results_simp <;> exact h_v33
  · after_results_simp <;> exact h_v34
  · after_results_simp <;> exact h_v45
  · after_results_simp <;> exact h_v46
  · after_results_simp
    (try simp only [ofBuf_toBuf])
    (try simp only [TRef.ofBuf, TRef.toBuf])
    (try simp only [cast_eq])
    simp only [ReadP.val_main_v47, ReadP.val_main_c_16, ReadP.val_main_v48, ReadP.val_main_cst_17, ReadP.val_main_call6_v0, ReadP.val_main_call6_v1, ReadP.val_main_v49, ReadP.val_main_cst_18, ReadP.val_main_v50, ReadP.val_main_c_19, ReadP.val_main_v51, ReadP.val_main_v52, ReadP.val_main_c_20, ReadP.val_main_v53, ReadP.val_main_v54, ReadP.val_main_v55, ReadP.val_main_v56, ReadP.val_main_cst_21, ReadP.val_main_call7_v0, ReadP.val_main_call7_v1, ReadP.val_main_v57, ReadP.val_main_v58, h_v19, h_v4, h_v33, h_v34, h_v45, h_v46, h_arg0, h_arg1, h_arg2] <;> with_reducible rfl
  · after_results_simp
    (try simp only [ofBuf_toBuf])
    (try simp only [TRef.ofBuf, TRef.toBuf])
    (try simp only [cast_eq])
    simp only [ReadP.val_main_v47, ReadP.val_main_c_16, ReadP.val_main_v48, ReadP.val_main_cst_17, ReadP.val_main_call6_v0, ReadP.val_main_call6_v1, ReadP.val_main_v49, ReadP.val_main_cst_18, ReadP.val_main_v50, ReadP.val_main_c_19, ReadP.val_main_v51, ReadP.val_main_v52, ReadP.val_main_c_20, ReadP.val_main_v53, ReadP.val_main_v54, ReadP.val_main_v55, ReadP.val_main_v56, ReadP.val_main_cst_21, ReadP.val_main_call7_v0, ReadP.val_main_call7_v1, ReadP.val_main_v57, ReadP.val_main_v58, h_v19, h_v4, h_v33, h_v34, h_v45, h_v46, h_arg0, h_arg1, h_arg2] <;> with_reducible rfl
  · after_results_simp <;> exact h_arg0
  · after_results_simp <;> exact h_arg1
  · after_results_simp <;> exact h_arg2

/-- Stretch 7: from contents where every buffer it reads holds its stage, every buffer needed after it holds
    its stage. -/
theorem stretch7 (W : Valuation τ sig (Elt F)) (x0 : (⟨S8x1024x32000, .f32⟩ : BufTy).Contents (Elt F)) (x1 x2 : (⟨S8x1024, .i32⟩ : BufTy).Contents (Elt F))
    (h_v33 : W (Proc.devRef .tc main_v33) = ReadP.val_main_v33 (F := F) x0 x1 x2)
    (h_v34 : W (Proc.devRef .tc main_v34) = ReadP.val_main_v34 (F := F) x1)
    (h_v45 : W (Proc.devRef .tc main_v45) = ReadP.val_main_v45 (F := F) x0 x1 x2)
    (h_v46 : W (Proc.devRef .tc main_v46) = ReadP.val_main_v46 (F := F) x1)
    (h_v57 : W (Proc.devRef .tc main_v57) = ReadP.val_main_v57 (F := F) x0 x1 x2)
    (h_v58 : W (Proc.devRef .tc main_v58) = ReadP.val_main_v58 (F := F) x1)
    (h_arg0 : W (Proc.devRef .tc main_arg0) = x0)
    (h_arg1 : W (Proc.devRef .tc main_arg1) = x1)
    (h_arg2 : W (Proc.devRef .tc main_arg2) = x2) :
    after ops7 W (Proc.devRef .tc main_v34) = ReadP.val_main_v34 (F := F) x1
    ∧ after ops7 W (Proc.devRef .tc main_v33) = ReadP.val_main_v33 (F := F) x0 x1 x2
    ∧ after ops7 W (Proc.devRef .tc main_v46) = ReadP.val_main_v46 (F := F) x1
    ∧ after ops7 W (Proc.devRef .tc main_v45) = ReadP.val_main_v45 (F := F) x0 x1 x2
    ∧ after ops7 W (Proc.devRef .tc main_v58) = ReadP.val_main_v58 (F := F) x1
    ∧ after ops7 W (Proc.devRef .tc main_v57) = ReadP.val_main_v57 (F := F) x0 x1 x2
    ∧ after ops7 W (Proc.devRef .tc main_v80) = ReadP.val_main_v80 (F := F) x0 x1 x2
    ∧ after ops7 W (Proc.devRef .tc main_arg0) = x0
    ∧ after ops7 W (Proc.devRef .tc main_arg1) = x1
    ∧ after ops7 W (Proc.devRef .tc main_arg2) = x2 := by
  refine ⟨?_, ?_, ?_, ?_, ?_, ?_, ?_, ?_, ?_, ?_⟩
  · after_results_simp <;> exact h_v34
  · after_results_simp <;> exact h_v33
  · after_results_simp <;> exact h_v46
  · after_results_simp <;> exact h_v45
  · after_results_simp <;> exact h_v58
  · after_results_simp <;> exact h_v57
  · after_results_simp
    (try simp only [ofBuf_toBuf])
    (try simp only [TRef.ofBuf, TRef.toBuf])
    (try simp only [cast_eq])
    simp only [ReadP.val_main_cst_22, ReadP.val_main_v59, ReadP.val_main_v60, ReadP.val_main_v61, ReadP.val_main_cst_23, ReadP.val_main_v62, ReadP.val_main_v63, ReadP.val_main_v64, ReadP.val_main_v65, ReadP.val_main_cst_24, ReadP.val_main_v66, ReadP.val_main_v67, ReadP.val_main_v68, ReadP.val_main_v69, ReadP.val_main_cst_25, ReadP.val_main_v70, ReadP.val_main_v71, ReadP.val_main_cst_26, ReadP.val_main_v72, ReadP.val_main_v73, ReadP.val_main_v74, ReadP.val_main_cst_27, ReadP.val_main_v75, ReadP.val_main_v76, ReadP.val_main_v77, ReadP.val_main_v78, ReadP.val_main_cst_28, ReadP.val_main_v79, ReadP.val_main_cst_29, ReadP.val_main_v80, h_v33, h_v34, h_v45, h_v46, h_v57, h_v58, h_arg0, h_arg1, h_arg2] <;> with_reducible rfl
  · after_results_simp <;> exact h_arg0
  · after_results_simp <;> exact h_arg1
  · after_results_simp <;> exact h_arg2

/-- Stretch 8: from contents where every buffer it reads holds its stage, every buffer needed after it holds
    its stage. -/
theorem stretch8 (W : Valuation τ sig (Elt F)) (x0 : (⟨S8x1024x32000, .f32⟩ : BufTy).Contents (Elt F)) (x1 x2 : (⟨S8x1024, .i32⟩ : BufTy).Contents (Elt F))
    (h_v34 : W (Proc.devRef .tc main_v34) = ReadP.val_main_v34 (F := F) x1)
    (h_v33 : W (Proc.devRef .tc main_v33) = ReadP.val_main_v33 (F := F) x0 x1 x2)
    (h_v46 : W (Proc.devRef .tc main_v46) = ReadP.val_main_v46 (F := F) x1)
    (h_v45 : W (Proc.devRef .tc main_v45) = ReadP.val_main_v45 (F := F) x0 x1 x2)
    (h_v58 : W (Proc.devRef .tc main_v58) = ReadP.val_main_v58 (F := F) x1)
    (h_v57 : W (Proc.devRef .tc main_v57) = ReadP.val_main_v57 (F := F) x0 x1 x2)
    (h_v80 : W (Proc.devRef .tc main_v80) = ReadP.val_main_v80 (F := F) x0 x1 x2)
    (h_arg0 : W (Proc.devRef .tc main_arg0) = x0)
    (h_arg1 : W (Proc.devRef .tc main_arg1) = x1)
    (h_arg2 : W (Proc.devRef .tc main_arg2) = x2) :
    after ops8 W (Proc.devRef .tc main_v46) = ReadP.val_main_v46 (F := F) x1
    ∧ after ops8 W (Proc.devRef .tc main_v45) = ReadP.val_main_v45 (F := F) x0 x1 x2
    ∧ after ops8 W (Proc.devRef .tc main_v58) = ReadP.val_main_v58 (F := F) x1
    ∧ after ops8 W (Proc.devRef .tc main_v57) = ReadP.val_main_v57 (F := F) x0 x1 x2
    ∧ after ops8 W (Proc.devRef .tc main_v80) = ReadP.val_main_v80 (F := F) x0 x1 x2
    ∧ after ops8 W (Proc.devRef .tc main_v86) = ReadP.val_main_v86 (F := F) x0 x1 x2
    ∧ after ops8 W (Proc.devRef .tc main_arg0) = x0
    ∧ after ops8 W (Proc.devRef .tc main_arg1) = x1
    ∧ after ops8 W (Proc.devRef .tc main_arg2) = x2 := by
  refine ⟨?_, ?_, ?_, ?_, ?_, ?_, ?_, ?_, ?_⟩
  · after_results_simp <;> exact h_v46
  · after_results_simp <;> exact h_v45
  · after_results_simp <;> exact h_v58
  · after_results_simp <;> exact h_v57
  · after_results_simp <;> exact h_v80
  · after_results_simp
    (try simp only [ofBuf_toBuf])
    (try simp only [TRef.ofBuf, TRef.toBuf])
    (try simp only [cast_eq])
    simp only [ReadP.val_main_cst_30, ReadP.val_main_v81, ReadP.val_main_cst_31, ReadP.val_main_v82, ReadP.val_main_cst_32, ReadP.val_main_v83, ReadP.val_main_cst_33, ReadP.val_main_v84, ReadP.val_main_v85, ReadP.val_main_cst_34, ReadP.val_main_call8_v0, ReadP.val_main_v86, h_v34, h_v33, h_v46, h_v45, h_v58, h_v57, h_v80, h_arg0, h_arg1, h_arg2] <;> with_reducible rfl
  · after_results_simp <;> exact h_arg0
  · after_results_simp <;> exact h_arg1
  · after_results_simp <;> exact h_arg2

/-- Stretch 9: from contents where every buffer it reads holds its stage, every buffer needed after it holds
    its stage. -/
theorem stretch9 (W : Valuation τ sig (Elt F)) (x0 : (⟨S8x1024x32000, .f32⟩ : BufTy).Contents (Elt F)) (x1 x2 : (⟨S8x1024, .i32⟩ : BufTy).Contents (Elt F))
    (h_v46 : W (Proc.devRef .tc main_v46) = ReadP.val_main_v46 (F := F) x1)
    (h_v45 : W (Proc.devRef .tc main_v45) = ReadP.val_main_v45 (F := F) x0 x1 x2)
    (h_v58 : W (Proc.devRef .tc main_v58) = ReadP.val_main_v58 (F := F) x1)
    (h_v57 : W (Proc.devRef .tc main_v57) = ReadP.val_main_v57 (F := F) x0 x1 x2)
    (h_v80 : W (Proc.devRef .tc main_v80) = ReadP.val_main_v80 (F := F) x0 x1 x2)
    (h_v86 : W (Proc.devRef .tc main_v86) = ReadP.val_main_v86 (F := F) x0 x1 x2)
    (h_arg0 : W (Proc.devRef .tc main_arg0) = x0)
    (h_arg1 : W (Proc.devRef .tc main_arg1) = x1)
    (h_arg2 : W (Proc.devRef .tc main_arg2) = x2) :
    after ops9 W (Proc.devRef .tc main_v58) = ReadP.val_main_v58 (F := F) x1
    ∧ after ops9 W (Proc.devRef .tc main_v57) = ReadP.val_main_v57 (F := F) x0 x1 x2
    ∧ after ops9 W (Proc.devRef .tc main_v80) = ReadP.val_main_v80 (F := F) x0 x1 x2
    ∧ after ops9 W (Proc.devRef .tc main_v86) = ReadP.val_main_v86 (F := F) x0 x1 x2
    ∧ after ops9 W (Proc.devRef .tc main_v92) = ReadP.val_main_v92 (F := F) x0 x1 x2
    ∧ after ops9 W (Proc.devRef .tc main_arg0) = x0
    ∧ after ops9 W (Proc.devRef .tc main_arg1) = x1
    ∧ after ops9 W (Proc.devRef .tc main_arg2) = x2 := by
  refine ⟨?_, ?_, ?_, ?_, ?_, ?_, ?_, ?_⟩
  · after_results_simp <;> exact h_v58
  · after_results_simp <;> exact h_v57
  · after_results_simp <;> exact h_v80
  · after_results_simp <;> exact h_v86
  · after_results_simp
    (try simp only [ofBuf_toBuf])
    (try simp only [TRef.ofBuf, TRef.toBuf])
    (try simp only [cast_eq])
    simp only [ReadP.val_main_cst_35, ReadP.val_main_v87, ReadP.val_main_cst_36, ReadP.val_main_v88, ReadP.val_main_cst_37, ReadP.val_main_v89, ReadP.val_main_cst_38, ReadP.val_main_v90, ReadP.val_main_v91, ReadP.val_main_cst_39, ReadP.val_main_call9_v0, ReadP.val_main_v92, h_v46, h_v45, h_v58, h_v57, h_v80, h_v86, h_arg0, h_arg1, h_arg2] <;> with_reducible rfl
  · after_results_simp <;> exact h_arg0
  · after_results_simp <;> exact h_arg1
  · after_results_simp <;> exact h_arg2

/-- Stretch 10: from contents where every buffer it reads holds its stage, every buffer needed after it holds
    its stage. -/
theorem stretch10 (W : Valuation τ sig (Elt F)) (x0 : (⟨S8x1024x32000, .f32⟩ : BufTy).Contents (Elt F)) (x1 x2 : (⟨S8x1024, .i32⟩ : BufTy).Contents (Elt F))
    (h_v58 : W (Proc.devRef .tc main_v58) = ReadP.val_main_v58 (F := F) x1)
    (h_v57 : W (Proc.devRef .tc main_v57) = ReadP.val_main_v57 (F := F) x0 x1 x2)
    (h_v80 : W (Proc.devRef .tc main_v80) = ReadP.val_main_v80 (F := F) x0 x1 x2)
    (h_v86 : W (Proc.devRef .tc main_v86) = ReadP.val_main_v86 (F := F) x0 x1 x2)
    (h_v92 : W (Proc.devRef .tc main_v92) = ReadP.val_main_v92 (F := F) x0 x1 x2)
    (h_arg0 : W (Proc.devRef .tc main_arg0) = x0)
    (h_arg1 : W (Proc.devRef .tc main_arg1) = x1)
    (h_arg2 : W (Proc.devRef .tc main_arg2) = x2) :
    after ops10 W (Proc.devRef .tc main_v80) = ReadP.val_main_v80 (F := F) x0 x1 x2
    ∧ after ops10 W (Proc.devRef .tc main_v86) = ReadP.val_main_v86 (F := F) x0 x1 x2
    ∧ after ops10 W (Proc.devRef .tc main_v92) = ReadP.val_main_v92 (F := F) x0 x1 x2
    ∧ after ops10 W (Proc.devRef .tc main_v98) = ReadP.val_main_v98 (F := F) x0 x1 x2
    ∧ after ops10 W (Proc.devRef .tc main_arg0) = x0
    ∧ after ops10 W (Proc.devRef .tc main_arg1) = x1
    ∧ after ops10 W (Proc.devRef .tc main_arg2) = x2 := by
  refine ⟨?_, ?_, ?_, ?_, ?_, ?_, ?_⟩
  · after_results_simp <;> exact h_v80
  · after_results_simp <;> exact h_v86
  · after_results_simp <;> exact h_v92
  · after_results_simp
    (try simp only [ofBuf_toBuf])
    (try simp only [TRef.ofBuf, TRef.toBuf])
    (try simp only [cast_eq])
    simp only [ReadP.val_main_cst_40, ReadP.val_main_v93, ReadP.val_main_cst_41, ReadP.val_main_v94, ReadP.val_main_cst_42, ReadP.val_main_v95, ReadP.val_main_cst_43, ReadP.val_main_v96, ReadP.val_main_v97, ReadP.val_main_cst_44, ReadP.val_main_call10_v0, ReadP.val_main_v98, h_v58, h_v57, h_v80, h_v86, h_v92, h_arg0, h_arg1, h_arg2] <;> with_reducible rfl
  · after_results_simp <;> exact h_arg0
  · after_results_simp <;> exact h_arg1
  · after_results_simp <;> exact h_arg2

/-! ## The chain -/

/-- After all 196 operations, from any contents: the four results at their final stages of the three arguments'
    contents, the arguments unchanged. -/
theorem after_results (W : Valuation τ sig (Elt F)) :
    after ValueP.ops W (Proc.devRef .tc main_v80) = ReadP.val_main_v80 (F := F) (W (Proc.devRef .tc main_arg0)) (W (Proc.devRef .tc main_arg1)) (W (Proc.devRef .tc main_arg2))
    ∧ after ValueP.ops W (Proc.devRef .tc main_v86) = ReadP.val_main_v86 (F := F) (W (Proc.devRef .tc main_arg0)) (W (Proc.devRef .tc main_arg1)) (W (Proc.devRef .tc main_arg2))
    ∧ after ValueP.ops W (Proc.devRef .tc main_v92) = ReadP.val_main_v92 (F := F) (W (Proc.devRef .tc main_arg0)) (W (Proc.devRef .tc main_arg1)) (W (Proc.devRef .tc main_arg2))
    ∧ after ValueP.ops W (Proc.devRef .tc main_v98) = ReadP.val_main_v98 (F := F) (W (Proc.devRef .tc main_arg0)) (W (Proc.devRef .tc main_arg1)) (W (Proc.devRef .tc main_arg2))
    ∧ after ValueP.ops W (Proc.devRef .tc main_arg0) = W (Proc.devRef .tc main_arg0)
    ∧ after ValueP.ops W (Proc.devRef .tc main_arg1) = W (Proc.devRef .tc main_arg1)
    ∧ after ValueP.ops W (Proc.devRef .tc main_arg2) = W (Proc.devRef .tc main_arg2) := by
  have e : after (ValueP.ops (F := F)) W = after ops10 (after ops9 (after ops8 (after ops7 (after ops6 (after ops5 (after ops4 (after ops3 (after ops2 (after ops1 W))))))))) := by
    rw [ops_eq]; simp only [after_app]
  rw [e]
  obtain ⟨s1_arg2, s1_v0, s1_arg1, s1_arg0⟩ := stretch1 (F := F) W _ _ _ rfl rfl rfl
  obtain ⟨s2_arg1, s2_v4, s2_arg0, s2_arg2⟩ := stretch2 (F := F) (after ops1 W) _ _ _ s1_arg2 s1_v0 s1_arg1 s1_arg0
  obtain ⟨s3_v22, s3_v4, s3_v6, s3_v19, s3_arg0, s3_arg1, s3_arg2⟩ := stretch3 (F := F) (after ops2 (after ops1 W)) _ _ _ s2_arg1 s2_v4 s2_arg0 s2_arg2
  obtain ⟨s4_v6, s4_v4, s4_v19, s4_v33, s4_v34, s4_arg0, s4_arg1, s4_arg2⟩ := stretch4 (F := F) (after ops3 (after ops2 (after ops1 W))) _ _ _ s3_v22 s3_v4 s3_v6 s3_v19 s3_arg0 s3_arg1 s3_arg2
  obtain ⟨s5_v19, s5_v4, s5_v33, s5_v34, s5_v45, s5_v46, s5_arg0, s5_arg1, s5_arg2⟩ := stretch5 (F := F) (after ops4 (after ops3 (after ops2 (after ops1 W)))) _ _ _ s4_v6 s4_v4 s4_v19 s4_v33 s4_v34 s4_arg0 s4_arg1 s4_arg2
  obtain ⟨s6_v33, s6_v34, s6_v45, s6_v46, s6_v57, s6_v58, s6_arg0, s6_arg1, s6_arg2⟩ := stretch6 (F := F) (after ops5 (after ops4 (after ops3 (after ops2 (after ops1 W))))) _ _ _ s5_v19 s5_v4 s5_v33 s5_v34 s5_v45 s5_v46 s5_arg0 s5_arg1 s5_arg2
  obtain ⟨s7_v34, s7_v33, s7_v46, s7_v45, s7_v58, s7_v57, s7_v80, s7_arg0, s7_arg1, s7_arg2⟩ := stretch7 (F := F) (after ops6 (after ops5 (after ops4 (after ops3 (after ops2 (after ops1 W)))))) _ _ _ s6_v33 s6_v34 s6_v45 s6_v46 s6_v57 s6_v58 s6_arg0 s6_arg1 s6_arg2
  obtain ⟨s8_v46, s8_v45, s8_v58, s8_v57, s8_v80, s8_v86, s8_arg0, s8_arg1, s8_arg2⟩ := stretch8 (F := F) (after ops7 (after ops6 (after ops5 (after ops4 (after ops3 (after ops2 (after ops1 W))))))) _ _ _ s7_v34 s7_v33 s7_v46 s7_v45 s7_v58 s7_v57 s7_v80 s7_arg0 s7_arg1 s7_arg2
  obtain ⟨s9_v58, s9_v57, s9_v80, s9_v86, s9_v92, s9_arg0, s9_arg1, s9_arg2⟩ := stretch9 (F := F) (after ops8 (after ops7 (after ops6 (after ops5 (after ops4 (after ops3 (after ops2 (after ops1 W)))))))) _ _ _ s8_v46 s8_v45 s8_v58 s8_v57 s8_v80 s8_v86 s8_arg0 s8_arg1 s8_arg2
  obtain ⟨s10_v80, s10_v86, s10_v92, s10_v98, s10_arg0, s10_arg1, s10_arg2⟩ := stretch10 (F := F) (after ops9 (after ops8 (after ops7 (after ops6 (after ops5 (after ops4 (after ops3 (after ops2 (after ops1 W))))))))) _ _ _ s9_v58 s9_v57 s9_v80 s9_v86 s9_v92 s9_arg0 s9_arg1 s9_arg2
  exact ⟨s10_v80, s10_v86, s10_v92, s10_v98, s10_arg0, s10_arg1, s10_arg2⟩

/-- On every device, for any float values, from any memory with zero counters: every weakly fair execution of
    @main terminates with each result at its final stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = ReadP.val_main_v80 (F := F) (m ((c.tc : Thread nD τ).loc main_arg0)) (m ((c.tc : Thread nD τ).loc main_arg1)) (m ((c.tc : Thread nD τ).loc main_arg2))
      ∧ r.2.mem ((c.tc : Thread nD τ).loc main_v86) = ReadP.val_main_v86 (F := F) (m ((c.tc : Thread nD τ).loc main_arg0)) (m ((c.tc : Thread nD τ).loc main_arg1)) (m ((c.tc : Thread nD τ).loc main_arg2))
      ∧ r.2.mem ((c.tc : Thread nD τ).loc main_v92) = ReadP.val_main_v92 (F := F) (m ((c.tc : Thread nD τ).loc main_arg0)) (m ((c.tc : Thread nD τ).loc main_arg1)) (m ((c.tc : Thread nD τ).loc main_arg2))
      ∧ r.2.mem ((c.tc : Thread nD τ).loc main_v98) = ReadP.val_main_v98 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨e80, e86, e92, e98, e0, e1, e2⟩ := after_results (F := F) (launchContents m c)
      exact ⟨(h c main_v80).trans e80, (h c main_v86).trans e86, (h c main_v92).trans e92, (h c main_v98).trans e98,
        (h c main_arg0).trans e0, (h c main_arg1).trans e1, (h c main_arg2).trans e2⟩)
    (run_seq ValueP.scopedRefs_eq ValueP.scopedSems_eq defs main (fun _ => ValueP.ops) ValueP.main_eq (fun _ => ValueP.ops_sub) m ρ)

end Cert.ReferenceIdeal.RunS

end
-- ==== Proof.RValLib.lean ====
/-
  Readings used for the reference's results, none of them naming a stage of the program: the three row masks as one-bit
  words; the count of a mask's set bits along a batch as a 32-bit word; a row's maximum as the fold of the maximum over its
  columns; a conjunction over an axis of one element; a target word that names a column (the wrap of negative indices and
  the bounds test leave it alone); a masked sum over a batch's rows.
-/
import proofs.«414165_j8486855377000_2_alg».proof.Proof.Alg
import Idealize.ShloMosaic.Lib.StableHlo.Predicate
import Idealize.ShloMosaic.Lib.Affine
import Idealize.ShloMosaic.PureOps.Reduce

noncomputable section

namespace Cert.ReferenceIdeal.RValLib

open Idealize.ShloMosaic Idealize.ShloMosaic.ValueIdx Idealize.ShloMosaic.StableHlo

/-! ## The row masks, bit by bit -/

theorem bit_msk (w : BitVec 32) : IntOp.cmpi .eq w 4#32 = 1#1 ↔ Spec.isMsk w := IntOp.cmpi_eq

theorem bit_spc (w : BitVec 32) :
    IntOp.ori (IntOp.ori (IntOp.ori (IntOp.ori 0#1 (IntOp.cmpi .eq w 0#32)) (IntOp.cmpi .eq w 1#32)) (IntOp.cmpi .eq w 2#32))
      (IntOp.cmpi .eq w 3#32) = 1#1 ↔ Spec.isSpc w := by
  have h0 : ¬ (0#1 : BitVec 1) = 1#1 := by decide
  simp only [IntOp.ori_eq_one, IntOp.cmpi_eq, Spec.isSpc, h0, false_or, or_assoc]

theorem bit_reg (w : BitVec 32) :
    IntOp.andi (~~~ (IntOp.cmpi .eq w 4#32))
      (~~~ (IntOp.ori (IntOp.ori (IntOp.ori (IntOp.ori 0#1 (IntOp.cmpi .eq w 0#32)) (IntOp.cmpi .eq w 1#32)) (IntOp.cmpi .eq w 2#32))
        (IntOp.cmpi .eq w 3#32))) = 1#1 ↔ Spec.isReg w := by
  rw [IntOp.andi_eq_one, IntOp.not_eq_one, IntOp.not_eq_one, bit_msk, bit_spc]
  rfl

/-! ## Counting a mask's set bits along a batch -/

theorem ij_eq_ix2 {n m : Nat} (p : Fin n) (q : Fin m) : Predicate.ij p q = ix2 p q := by
  funext a; match a with | ⟨0, _⟩ => rfl | ⟨1, _⟩ => rfl

/-- The sum over a batch's rows of a mask's widened bits is, as a word, the number of the batch's rows the mask marks. -/
theorem count_word (P : BitVec 32 → Prop) [DecidablePred P] (inp : IVec Spec.S8x1024 32) (mask : IVec Spec.S8x1024 1)
    (hmask : ∀ i, mask i = 1#1 ↔ P (inp i)) (hw : 1 < 32) (h : Spec.S8x1024.ReducesTo [1] Spec.S8) {u : Shape}
    (hu : 0 < u.numel) :
    Host.reduce IntOp.addi (extui 32 mask hw) (constantI u 32 0#32) h hu = Spec.catCntI P inp := by
  funext j
  apply BitVec.eq_of_toNat_eq
  rw [Predicate.toNat_reduce_count_cols (by norm_num) mask hw h hu j]
  unfold Spec.catCntI Spec.catCountAt
  have hset : (Finset.univ.filter fun q : Fin 1024 => mask (Predicate.ij (j 0) q) = 1#1)
      = Finset.univ.filter fun r : Fin 1024 => P (inp (ix2 (⟨(j 0).val, (j 0).isLt⟩ : Fin 8) r)) := by
    ext q
    simp only [Finset.mem_filter, Finset.mem_univ, true_and]
    have e : (Predicate.ij (j 0) q : Spec.S8x1024.Idx) = ix2 (⟨(j 0).val, (j 0).isLt⟩ : Fin 8) q := by
      funext a; match a with | ⟨0, _⟩ => rfl | ⟨1, _⟩ => rfl
    rw [← hmask]
    exact Iff.of_eq (congrArg (fun i => mask i = 1#1) e)
  rw [hset, BitVec.toNat_ofNat, Nat.mod_eq_of_lt]
  exact lt_of_le_of_lt (Finset.card_le_univ _) (by simp)

/-! ## A row's maximum -/

theorem ofBits_ninf : Ideal.ofBits .f32 0xFF800000#32 = (⊥ : EReal) := by simp [Ideal.ofBits, Ideal.ieee]

/-- The maximum-reduction over the columns, from −∞, is at row (b, r) the row's maximum. -/
theorem rowMax_read (x : FVec Ideal Spec.S8x1024x32000 .f32) (h' : Spec.S8x1024x32000.ReducesTo [2] Spec.S8x1024) {u : Shape}
    (hu : 0 < u.numel) (b : Fin 8) (r : Fin 1024) :
    Host.reduce FloatOps.maximumf x (constant (F := Ideal) u .f32 0xFF800000#32) h' hu (ix2 b r)
      = Spec.rowMax (Spec.rowOf x b r) := by
  have h : Spec.S8x1024x32000.Reduces [2] Spec.S8x1024 := by decide
  rw [Host.reduce_eq_fold_single FloatOps.maximumf x _ h' h hu]
  show Finset.fold max (Ideal.ofBits .f32 0xFF800000#32) (x ∘ h.lift (ix2 b r)) (Finset.univ : Finset (Fin 32000)) = _
  rw [ofBits_ninf]
  unfold Spec.rowMax
  refine congrArg (fun f => Finset.fold max (⊥ : EReal) f (Finset.univ : Finset (Fin 32000))) ?_
  funext k
  exact congrArg x (funext fun a => Fin.ext (by match a with | ⟨0, _⟩ => rfl | ⟨1, _⟩ => rfl | ⟨2, _⟩ => rfl))

/-! ## A conjunction over an axis of one element -/

theorem andi_one (y : BitVec 1) : IntOp.andi y 1#1 = y := by revert y; decide

abbrev S8x1024x1 : Shape := ⟨3, ![8, 1024, 1]⟩
abbrev S8x1024x1x1 : Shape := ⟨4, ![8, 1024, 1, 1]⟩

theorem all_single (x : IVec S8x1024x1x1 1) (h' : S8x1024x1x1.ReducesTo [3] S8x1024x1) {u : Shape} (hu : 0 < u.numel)
    (b : Fin 8) (r : Fin 1024) :
    Host.reduce IntOp.andi x (constantI u 1 1#1) h' hu (ix3 b r 0) = x (ix4 b r 0 0) := by
  have h : S8x1024x1x1.Reduces [3] S8x1024x1 := by decide
  rw [Host.reduce_eq_fold_single IntOp.andi x _ h' h hu]
  show Finset.fold IntOp.andi 1#1 (fun k : Fin 1 => x (h.lift (ix3 b r 0) k)) (Finset.univ : Finset (Fin 1)) = _
  rw [Finset.univ_unique, Finset.fold_singleton, andi_one]
  exact congrArg x (funext fun a => Fin.ext (by match a with | ⟨0, _⟩ => rfl | ⟨1, _⟩ => rfl | ⟨2, _⟩ => rfl | ⟨3, _⟩ => rfl))

/-! ## A target word below 32000: the wrap of negative indices and the bounds test do nothing -/

theorem toInt_small (w : BitVec 32) (hw : w.toNat < 32000) : w.toInt = (w.toNat : ℤ) :=
  Predicate.toInt_eq_toNat_of_lt (by omega)

theorem slt_zero (w : BitVec 32) (hw : w.toNat < 32000) : IntOp.cmpi .slt w 0#32 = 0#1 := by
  refine eq_zero_of_ne_one fun h => ?_
  rw [IntOp.cmpi_slt, toInt_small w hw, show (0#32 : BitVec 32).toInt = 0 from by decide] at h
  omega

theorem wrap_id (w : BitVec 32) (hw : w.toNat < 32000) :
    Scalar.select (IntOp.cmpi .slt w 0#32) (IntOp.addi w 32000#32) w = w := by
  rw [slt_zero w hw, select_zero]

theorem inb_one (w : BitVec 32) (hw : w.toNat < 32000) :
    IntOp.andi (IntOp.cmpi .sge w 0#32) (IntOp.cmpi .sle w 31999#32) = 1#1 := by
  refine IntOp.andi_eq_one.2 ⟨IntOp.cmpi_sge.2 ?_, IntOp.cmpi_sle.2 ?_⟩
  · rw [toInt_small w hw, show (0#32 : BitVec 32).toInt = 0 from by decide]; omega
  · rw [toInt_small w hw, show (31999#32 : BitVec 32).toInt = 31999 from by decide]; omega

theorem tgtIdx_small (w : BitVec 32) (hw : w.toNat < 32000) : Spec.tgtIdx w = ⟨w.toNat, hw⟩ :=
  Fin.ext (Nat.mod_eq_of_lt hw)

/-! ## Floats at the extended reals -/

theorem max_ninf (y : EReal) : max (Ideal.ofBits .f32 0xFF800000#32) y = y := by
  rw [ofBits_ninf]; exact max_bot_left y

/-- A masked sum over a batch's rows, from 0: the sum over the rows the mask marks. -/
theorem masked_sum (P : BitVec 32 → Prop) [DecidablePred P] (inp : IVec Spec.S8x1024 32) (mask : IVec Spec.S8x1024 1)
    (hmask : ∀ i, mask i = 1#1 ↔ P (inp i)) (nll : Spec.S8x1024.Idx → EReal) (f : Fin 1024 → EReal) (b : Fin 8)
    (hn : ∀ r, nll (ix2 b r) = f r) :
    (0 : EReal) + ∑ k : Fin 1024, Scalar.select (mask (ix2 b k)) (nll (ix2 b k)) (0 : EReal)
      = ∑ r : Fin 1024, if P (inp (ix2 b r)) then f r else 0 := by
  rw [zero_add]
  refine Finset.sum_congr rfl fun r _ => ?_
  by_cases hP : P (inp (ix2 b r))
  · rw [(hmask _).2 hP, select_one, if_pos hP, hn]
  · rw [eq_zero_of_ne_one (fun h => hP ((hmask _).1 h)), select_zero, if_neg hP]

end Cert.ReferenceIdeal.RValLib

end
-- ==== Proof.RefGather.lean ====
/-
  A take along the last axis, read at an index. The operand is [8, 1024, 32000], the index array [8, 1024, 1, 1]
  (one column index per batch and row), the result [8, 1024, 1]: at (b, r, 0) the result is the operand at
  (b, r, k), k the index word at (b, r, 0, 0), when that word names a column (it is below 32000 read unsigned, so the
  gather's clamp of the start index into the operand does nothing).
-/
import proofs.«414165_j8486855377000_2_alg».proof.Proof.Gen.ReferenceIdeal
import Idealize.ShloMosaic.Lib.ValueIdx

noncomputable section

namespace Cert.ReferenceIdeal.RefGather

open Cert.ReferenceIdeal Idealize.ShloMosaic Idealize.ShloMosaic.ValueIdx

/-- The take's dimension numbers. -/
private abbrev D : GatherDims S8x1024x32000 S8x1024x1x1 S8x1024x1 :=
  gather_S8x1024x32000_S8x1024x1x1_S8x1024x1_n_2_01_01_2_3_111

private theorem ob0 : (0 : Fin 3) ∈ D.operandBatchingDims := by show (0 : Fin 3) ∈ [(0 : Fin 3), 1]; decide
private theorem ob1 : (1 : Fin 3) ∈ D.operandBatchingDims := by show (1 : Fin 3) ∈ [(0 : Fin 3), 1]; decide
private theorem ob2 : (2 : Fin 3) ∉ D.operandBatchingDims := by show (2 : Fin 3) ∉ [(0 : Fin 3), 1]; decide
private theorem cs2 : (2 : Fin 3) ∈ D.collapsedSliceDims := by show (2 : Fin 3) ∈ [(2 : Fin 3)]; decide
private theorem sm2 : (2 : Fin 3) ∈ D.startIndexMap := by show (2 : Fin 3) ∈ [(2 : Fin 3)]; decide

/-- On a batching axis the operand's coordinate is the result's. -/
private theorem batch0 (b : Fin 8) (r : Fin 1024) : D.batchCoord (ix3 b r (0 : Fin 1)) 0 = b.val := by
  unfold GatherDims.batchCoord
  rw [dif_pos ob0]
  rfl

private theorem batch1 (b : Fin 8) (r : Fin 1024) : D.batchCoord (ix3 b r (0 : Fin 1)) 1 = r.val := by
  unfold GatherDims.batchCoord
  rw [dif_pos ob1]
  rfl

/-- The index array is read at (b, r, 0, 0). -/
private theorem siIdx_at (b : Fin 8) (r : Fin 1024) (c : Fin D.startIndexMap.length) :
    D.siIdx (ix3 b r (0 : Fin 1)) c = ix4 b r 0 0 := by
  have hc : c.val = 0 := by have := c.isLt; have : D.startIndexMap.length = 1 := rfl; omega
  funext a
  refine Fin.ext ?_
  match a with
  | ⟨0, _⟩ => rfl
  | ⟨1, _⟩ => rfl
  | ⟨2, _⟩ => rfl
  | ⟨3, _⟩ => exact hc

theorem gather_apply {α : Type} (x : S8x1024x32000.Idx → α) (idx : IVec S8x1024x1x1 32) (b : Fin 8) (r : Fin 1024)
    (h : (idx (ix4 b r 0 0)).toNat < 32000) :
    Host.gather gather_S8x1024x32000_S8x1024x1x1_S8x1024x1_n_2_01_01_2_3_111 x idx (ix3 b r 0)
      = x (ix3 b r ⟨(idx (ix4 b r 0 0)).toNat, h⟩) := by
  unfold Host.gather
  congr 1
  funext a
  refine Fin.ext ?_
  show D.start (ix3 b r 0) idx a + D.batchCoord (ix3 b r 0) a + D.offCoord (ix3 b r 0) a = _
  match a with
  | ⟨0, _⟩ =>
    rw [show (⟨0, by decide⟩ : Fin S8x1024x32000.rank) = (0 : Fin 3) from rfl,
      D.start_batching _ _ _ ob0, D.offCoord_eq_zero _ _ (fun hm => ((D.mem_sKept _).1 hm).2 ob0), batch0]
    show 0 + b.val + 0 = b.val
    omega
  | ⟨1, _⟩ =>
    rw [show (⟨1, by decide⟩ : Fin S8x1024x32000.rank) = (1 : Fin 3) from rfl,
      D.start_batching _ _ _ ob1, D.offCoord_eq_zero _ _ (fun hm => ((D.mem_sKept _).1 hm).2 ob1), batch1]
    show 0 + r.val + 0 = r.val
    omega
  | ⟨2, _⟩ =>
    rw [show (⟨2, by decide⟩ : Fin S8x1024x32000.rank) = (2 : Fin 3) from rfl,
      D.batchCoord_eq_zero _ _ ob2, D.offCoord_eq_zero _ _ (fun hm => ((D.mem_sKept _).1 hm).1 cs2)]
    unfold GatherDims.start
    rw [dif_pos sm2, siIdx_at]
    have ht : (idx (ix4 b r 0 0)).toInt = ((idx (ix4 b r 0 0)).toNat : Int) :=
      BitVec.toInt_eq_toNat_of_lt (by omega)
    rw [ht, Int.toNat_natCast]
    show min (idx (ix4 b r 0 0)).toNat (32000 - 1) + 0 + 0 = (idx (ix4 b r 0 0)).toNat
    omega

end Cert.ReferenceIdeal.RefGather

end
-- ==== Proof.RVal.lean ====
/-
  The reference's four results as the fixed chain (`Spec.lossOf`, `Spec.catAvg`) of its per-batch means and
  presences, those from the per-batch masked sums of the rows' negative log-likelihoods (in the reference's arrangement:
  log-softmax, the target's column taken, negated) and the integer counts of the masks. The target words are in range,
  so the wrap of negative indices and the out-of-range fill of the take do nothing.
-/
import proofs.«414165_j8486855377000_2_alg».proof.Proof.RefRead
import proofs.«414165_j8486855377000_2_alg».proof.Proof.Alg
import proofs.«414165_j8486855377000_2_alg».proof.Proof.RValLib
import proofs.«414165_j8486855377000_2_alg».proof.Proof.RefGather
import Idealize.ShloMosaic.Lib.StableHlo.Predicate

noncomputable section

namespace Cert.ReferenceIdeal.RVal

open Cert.ReferenceIdeal Idealize.ShloMosaic Idealize.ShloMosaic.ValueIdx Cert.ReferenceIdeal.ReadP

/-! ## Where the index maps of the stages send a row's coordinates -/

private theorem idx_v3 (b : Fin 8) (r : Fin 1024) : idx_main_v3 (ix2 b r) = ix3 b r 0 := by
  funext a
  match a with
  | ⟨0, _⟩ => exact Fin.ext (by show (b.val * 1024 + r.val) / 1024 = b.val; have := r.isLt; omega)
  | ⟨1, _⟩ => exact Fin.ext (by show (b.val * 1024 + r.val) / 1 % 1024 = r.val; have := r.isLt; omega)
  | ⟨2, _⟩ => rfl
private theorem idx_c1v5 (b : Fin 8) (r : Fin 1024) : idx_main_call1_v5 (ix4 b r 0 0) = ix3 b r 0 := by
  funext a
  match a with
  | ⟨0, _⟩ => exact Fin.ext (by show (((b.val * 1024 + r.val) * 1 + 0) * 1 + 0) / 1024 = b.val; have := r.isLt; omega)
  | ⟨1, _⟩ => exact Fin.ext (by show (((b.val * 1024 + r.val) * 1 + 0) * 1 + 0) / 1 % 1024 = r.val; have := r.isLt; omega)
  | ⟨2, _⟩ => rfl
private theorem idx_v1 (b : Fin 8) (r : Fin 1024) : idx_main_v1 (ix3 b r 0) = ix2 b r := by
  funext a; match a with | ⟨0, _⟩ => rfl | ⟨1, _⟩ => rfl
private theorem idx_c0v3 (b : Fin 8) (r : Fin 1024) : idx_main_call0_v3 (ix3 b r 0) = ix2 b r := by
  funext a; match a with | ⟨0, _⟩ => rfl | ⟨1, _⟩ => rfl
private theorem idx_c0v8 (b : Fin 8) (r : Fin 1024) : idx_main_call0_v8 (ix3 b r 0) = ix2 b r := by
  funext a; match a with | ⟨0, _⟩ => rfl | ⟨1, _⟩ => rfl
private theorem idx_c0v4 (b : Fin 8) (r : Fin 1024) (v : Fin 32000) : idx_main_call0_v4 (ix3 b r v) = ix3 b r 0 := by
  funext a; match a with | ⟨0, _⟩ => rfl | ⟨1, _⟩ => rfl | ⟨2, _⟩ => rfl
private theorem idx_c0v10 (b : Fin 8) (r : Fin 1024) (v : Fin 32000) : idx_main_call0_v10 (ix3 b r v) = ix3 b r 0 := by
  funext a; match a with | ⟨0, _⟩ => rfl | ⟨1, _⟩ => rfl | ⟨2, _⟩ => rfl
private theorem idx_c0v7 (b : Fin 8) (r : Fin 1024) (k : Fin 32000) : idx_main_call0_v7 (ix2 b r) k = ix3 b r k := by
  funext a; match a with | ⟨0, _⟩ => rfl | ⟨1, _⟩ => rfl | ⟨2, _⟩ => rfl
private theorem idx_v26 (i : S8.Idx) (k : Fin 1024) : idx_main_v26 i k = ix2 (⟨(i 0).val, (i 0).isLt⟩ : Fin 8) k := by
  funext a; match a with | ⟨0, _⟩ => rfl | ⟨1, _⟩ => rfl
private theorem idx_v38 (i : S8.Idx) (k : Fin 1024) : idx_main_v38 i k = ix2 (⟨(i 0).val, (i 0).isLt⟩ : Fin 8) k := by
  funext a; match a with | ⟨0, _⟩ => rfl | ⟨1, _⟩ => rfl
private theorem idx_v50 (i : S8.Idx) (k : Fin 1024) : idx_main_v50 i k = ix2 (⟨(i 0).val, (i 0).isLt⟩ : Fin 8) k := by
  funext a; match a with | ⟨0, _⟩ => rfl | ⟨1, _⟩ => rfl

/-! ## The three masks and their counts -/

private theorem mskBit (inp : IVec S8x1024 32) (i : S8x1024.Idx) :
    val_main_v6 (F := Ideal) inp i = 1#1 ↔ Spec.isMsk (inp i) := by
  simp only [val_main_v6_apply, val_main_v5_apply, val_main_c_apply]
  exact RValLib.bit_msk _

private theorem spcBit (inp : IVec S8x1024 32) (i : S8x1024.Idx) :
    val_main_v19 (F := Ideal) inp i = 1#1 ↔ Spec.isSpc (inp i) := by
  simp only [val_main_v19_apply, val_main_v16_apply, val_main_v13_apply, val_main_v10_apply, val_main_v7_apply, val_main_c_0_apply,
    val_main_v9_apply, val_main_v8_apply, val_main_c_1_apply, val_main_v12_apply, val_main_v11_apply, val_main_c_2_apply,
    val_main_v15_apply, val_main_v14_apply, val_main_c_3_apply, val_main_v18_apply, val_main_v17_apply, val_main_c_4_apply]
  exact RValLib.bit_spc _

private theorem regBit (inp : IVec S8x1024 32) (i : S8x1024.Idx) :
    val_main_v22 (F := Ideal) inp i = 1#1 ↔ Spec.isReg (inp i) := by
  simp only [val_main_v22_apply, val_main_v20_apply, val_main_v21_apply, val_main_v6_apply, val_main_v5_apply, val_main_c_apply,
    val_main_v19_apply, val_main_v16_apply, val_main_v13_apply, val_main_v10_apply, val_main_v7_apply, val_main_c_0_apply,
    val_main_v9_apply, val_main_v8_apply, val_main_c_1_apply, val_main_v12_apply, val_main_v11_apply, val_main_c_2_apply,
    val_main_v15_apply, val_main_v14_apply, val_main_c_3_apply, val_main_v18_apply, val_main_v17_apply, val_main_c_4_apply]
  exact RValLib.bit_reg _

private theorem cntReg (inp : IVec S8x1024 32) : val_main_v24 (F := Ideal) inp = Spec.catCntI Spec.isReg inp :=
  RValLib.count_word Spec.isReg inp (val_main_v22 (F := Ideal) inp) (regBit inp) Gen.natLt_1_32 Gen.reducesTo_S8x1024_S8_d1 Gen.h_S_
private theorem cntMsk (inp : IVec S8x1024 32) : val_main_v36 (F := Ideal) inp = Spec.catCntI Spec.isMsk inp :=
  RValLib.count_word Spec.isMsk inp (val_main_v6 (F := Ideal) inp) (mskBit inp) Gen.natLt_1_32 Gen.reducesTo_S8x1024_S8_d1 Gen.h_S_
private theorem cntSpc (inp : IVec S8x1024 32) : val_main_v48 (F := Ideal) inp = Spec.catCntI Spec.isSpc inp :=
  RValLib.count_word Spec.isSpc inp (val_main_v19 (F := Ideal) inp) (spcBit inp) Gen.natLt_1_32 Gen.reducesTo_S8x1024_S8_d1 Gen.h_S_

/-! ## A row's log-softmax -/

private theorem rowMaxAt (lp : FVec Ideal S8x1024x32000 .f32) (b : Fin 8) (r : Fin 1024) :
    val_main_call0_v2 (F := Ideal) lp (ix2 b r) = Spec.rowMax (Spec.rowOf lp b r) := by
  rw [val_main_call0_v2_apply, val_main_call0_v1_apply, val_main_call0_cst_0_apply]
  show max (Ideal.ofBits .f32 0xFF800000#32) (val_main_call0_v0 (F := Ideal) lp (ix2 b r)) = _
  rw [RValLib.max_ninf]
  exact RValLib.rowMax_read lp Gen.reducesTo_S8x1024x32000_S8x1024_d2 Gen.h_S_ b r

private theorem shiftAt (lp : FVec Ideal S8x1024x32000 .f32) (b : Fin 8) (r : Fin 1024) (v : Fin 32000) :
    val_main_call0_v5 (F := Ideal) lp (ix3 b r v) = lp (ix3 b r v) - Spec.rowMax (Spec.rowOf lp b r) := by
  rw [val_main_call0_v5_apply, val_main_call0_v4_apply, idx_c0v4, val_main_call0_v3_apply, idx_c0v3, rowMaxAt]
  rfl

private theorem lseAt (lp : FVec Ideal S8x1024x32000 .f32) (b : Fin 8) (r : Fin 1024) :
    val_main_call0_v9 (F := Ideal) lp (ix3 b r 0)
      = Ideal.log (∑ k : Fin 32000, Ideal.exp (lp (ix3 b r k) - Spec.rowMax (Spec.rowOf lp b r))) := by
  rw [val_main_call0_v9_apply, val_main_call0_v8_apply, idx_c0v8, val_main_call0_v7_apply, val_main_call0_cst_1_apply,
    Ideal.hostUnary_log_def, Ideal.ofBits_def, Ideal.ofBits_zero_f32, zero_add]
  refine congrArg Ideal.log (Finset.sum_congr rfl fun k _ => ?_)
  rw [idx_c0v7, val_main_call0_v6_apply, shiftAt]
  rfl

private theorem lsmAt (lp : FVec Ideal S8x1024x32000 .f32) (b : Fin 8) (r : Fin 1024) (v : Fin 32000) :
    val_main_v0 (F := Ideal) lp (ix3 b r v)
      = (lp (ix3 b r v) - Spec.rowMax (Spec.rowOf lp b r))
        - Ideal.log (∑ k : Fin 32000, Ideal.exp (lp (ix3 b r k) - Spec.rowMax (Spec.rowOf lp b r))) := by
  rw [val_main_v0_apply, shiftAt, val_main_call0_v10_apply, idx_c0v10, lseAt]
  rfl

/-! ## The target's column -/

private theorem tgtAt (tgt : IVec S8x1024 32) (hrange : ∀ i, (tgt i).toNat < 32000) (b : Fin 8) (r : Fin 1024) :
    val_main_call1_v5 (F := Ideal) tgt (ix4 b r 0 0) = tgt (ix2 b r) := by
  rw [val_main_call1_v5_apply, idx_c1v5, val_main_call1_v4_apply, val_main_call1_v1_apply, val_main_call1_v3_apply,
    val_main_v1_apply, idx_v1, val_main_call1_v0_apply, val_main_call1_c_apply, val_main_call1_v2_apply, val_main_call1_c_0_apply]
  exact RValLib.wrap_id _ (hrange _)

private theorem inbAt (tgt : IVec S8x1024 32) (hrange : ∀ i, (tgt i).toNat < 32000) (b : Fin 8) (r : Fin 1024) :
    val_main_call1_v12 (F := Ideal) tgt (ix3 b r 0) = 1#1 := by
  refine (RValLib.all_single (val_main_call1_v11 (F := Ideal) tgt) Gen.reducesTo_S8x1024x1x1_S8x1024x1_d3 Gen.h_S_ b r).trans ?_
  rw [val_main_call1_v11_apply, val_main_call1_v7_apply, val_main_call1_v10_apply, tgtAt tgt hrange, val_main_call1_v6_apply,
    val_main_call1_c_2_apply, val_main_call1_v9_apply, val_main_call1_v8_apply, val_main_call1_c_1_apply]
  exact RValLib.inb_one _ (hrange _)

/-- A row's negative log-likelihood as the reference computes it. -/
private theorem nllAt (lp : FVec Ideal S8x1024x32000 .f32) (tgt : IVec S8x1024 32) (hrange : ∀ i, (tgt i).toNat < 32000)
    (b : Fin 8) (r : Fin 1024) :
    val_main_v4 (F := Ideal) lp tgt (ix2 b r) = Spec.nllRowRef (Spec.rowOf lp b r) (Spec.tgtIdx (tgt (ix2 b r))) := by
  have hlt : (val_main_call1_v5 (F := Ideal) tgt (ix4 b r 0 0)).toNat < 32000 := by rw [tgtAt tgt hrange]; exact hrange _
  have hcol : (⟨(val_main_call1_v5 (F := Ideal) tgt (ix4 b r 0 0)).toNat, hlt⟩ : Fin 32000) = Spec.tgtIdx (tgt (ix2 b r)) :=
    Fin.ext (by
      show (val_main_call1_v5 (F := Ideal) tgt (ix4 b r 0 0)).toNat = (tgt (ix2 b r)).toNat % 32000
      rw [tgtAt tgt hrange, Nat.mod_eq_of_lt (hrange _)])
  rw [val_main_v4_apply, val_main_v3_apply, idx_v3, val_main_v2_apply, inbAt tgt hrange, select_one]
  unfold val_main_call1_v13
  rw [RefGather.gather_apply (val_main_v0 (F := Ideal) lp) (val_main_call1_v5 (F := Ideal) tgt) b r hlt, hcol, lsmAt]
  rfl

/-! ## The masked sums -/

private theorem sumReg (lp : FVec Ideal S8x1024x32000 .f32) (inp tgt : IVec S8x1024 32) (hrange : ∀ i, (tgt i).toNat < 32000) :
    val_main_v26 (F := Ideal) lp inp tgt = fun j => Spec.catSumRefAt Spec.isReg lp inp tgt ⟨(j 0).val, (j 0).isLt⟩ := by
  funext j
  rw [val_main_v26_apply, val_main_cst_6_apply, Ideal.ofBits_def, Ideal.ofBits_zero_f32]
  refine Eq.trans ?_ (RValLib.masked_sum Spec.isReg inp (val_main_v22 (F := Ideal) inp) (regBit inp) (val_main_v4 (F := Ideal) lp tgt) _
    ⟨(j 0).val, (j 0).isLt⟩ (fun r => nllAt lp tgt hrange _ r))
  refine congrArg (fun s : EReal => 0 + s) (Finset.sum_congr rfl fun k _ => ?_)
  rw [idx_v26, val_main_v25_apply, val_main_call2_v1_apply, val_main_call2_v0_apply, val_main_cst_apply, Ideal.ofBits_def,
    Ideal.ofBits_zero_f32]

private theorem sumMsk (lp : FVec Ideal S8x1024x32000 .f32) (inp tgt : IVec S8x1024 32) (hrange : ∀ i, (tgt i).toNat < 32000) :
    val_main_v38 (F := Ideal) lp inp tgt = fun j => Spec.catSumRefAt Spec.isMsk lp inp tgt ⟨(j 0).val, (j 0).isLt⟩ := by
  funext j
  rw [val_main_v38_apply, val_main_cst_12_apply, Ideal.ofBits_def, Ideal.ofBits_zero_f32]
  refine Eq.trans ?_ (RValLib.masked_sum Spec.isMsk inp (val_main_v6 (F := Ideal) inp) (mskBit inp) (val_main_v4 (F := Ideal) lp tgt) _
    ⟨(j 0).val, (j 0).isLt⟩ (fun r => nllAt lp tgt hrange _ r))
  refine congrArg (fun s : EReal => 0 + s) (Finset.sum_congr rfl fun k _ => ?_)
  rw [idx_v38, val_main_v37_apply, val_main_call4_v1_apply, val_main_call4_v0_apply, val_main_cst_11_apply, Ideal.ofBits_def,
    Ideal.ofBits_zero_f32]

private theorem sumSpc (lp : FVec Ideal S8x1024x32000 .f32) (inp tgt : IVec S8x1024 32) (hrange : ∀ i, (tgt i).toNat < 32000) :
    val_main_v50 (F := Ideal) lp inp tgt = fun j => Spec.catSumRefAt Spec.isSpc lp inp tgt ⟨(j 0).val, (j 0).isLt⟩ := by
  funext j
  rw [val_main_v50_apply, val_main_cst_18_apply, Ideal.ofBits_def, Ideal.ofBits_zero_f32]
  refine Eq.trans ?_ (RValLib.masked_sum Spec.isSpc inp (val_main_v19 (F := Ideal) inp) (spcBit inp) (val_main_v4 (F := Ideal) lp tgt) _
    ⟨(j 0).val, (j 0).isLt⟩ (fun r => nllAt lp tgt hrange _ r))
  refine congrArg (fun s : EReal => 0 + s) (Finset.sum_congr rfl fun k _ => ?_)
  rw [idx_v50, val_main_v49_apply, val_main_call6_v1_apply, val_main_call6_v0_apply, val_main_cst_17_apply, Ideal.ofBits_def,
    Ideal.ofBits_zero_f32]

/-! ## The chain from the six per-batch vectors to the four results: the same operations, in the same order -/

section Chain
variable {F : FTy → Type} [FloatOps F]

private theorem chain80 (lp : FVec F S8x1024x32000 .f32) (inp tgt : IVec S8x1024 32) :
    val_main_v80 (F := F) lp inp tgt
      = Spec.lossOf Gen.bcast_S_S8 Gen.reducesTo_S8_S_d0 Gen.h_S_
          (Spec.catMeanI Gen.bcast_S_S8 (val_main_v26 (F := F) lp inp tgt) (val_main_v24 (F := F) inp))
          (Spec.catPresI Gen.bcast_S_S8 (val_main_v24 (F := F) inp))
          (Spec.catMeanI Gen.bcast_S_S8 (val_main_v38 (F := F) lp inp tgt) (val_main_v36 (F := F) inp))
          (Spec.catPresI Gen.bcast_S_S8 (val_main_v36 (F := F) inp))
          (Spec.catMeanI Gen.bcast_S_S8 (val_main_v50 (F := F) lp inp tgt) (val_main_v48 (F := F) inp))
          (Spec.catPresI Gen.bcast_S_S8 (val_main_v48 (F := F) inp)) := rfl

private theorem chain86 (lp : FVec F S8x1024x32000 .f32) (inp tgt : IVec S8x1024 32) :
    val_main_v86 (F := F) lp inp tgt
      = Spec.catAvg Gen.reducesTo_S8_S_d0 Gen.h_S_
          (Spec.catMeanI Gen.bcast_S_S8 (val_main_v26 (F := F) lp inp tgt) (val_main_v24 (F := F) inp))
          (Spec.catPresI Gen.bcast_S_S8 (val_main_v24 (F := F) inp)) := rfl

private theorem chain92 (lp : FVec F S8x1024x32000 .f32) (inp tgt : IVec S8x1024 32) :
    val_main_v92 (F := F) lp inp tgt
      = Spec.catAvg Gen.reducesTo_S8_S_d0 Gen.h_S_
          (Spec.catMeanI Gen.bcast_S_S8 (val_main_v38 (F := F) lp inp tgt) (val_main_v36 (F := F) inp))
          (Spec.catPresI Gen.bcast_S_S8 (val_main_v36 (F := F) inp)) := rfl

private theorem chain98 (lp : FVec F S8x1024x32000 .f32) (inp tgt : IVec S8x1024 32) :
    val_main_v98 (F := F) lp inp tgt
      = Spec.catAvg Gen.reducesTo_S8_S_d0 Gen.h_S_
          (Spec.catMeanI Gen.bcast_S_S8 (val_main_v50 (F := F) lp inp tgt) (val_main_v48 (F := F) inp))
          (Spec.catPresI Gen.bcast_S_S8 (val_main_v48 (F := F) inp)) := rfl

end Chain

theorem results (lp : FVec Ideal S8x1024x32000 .f32) (inp tgt : IVec S8x1024 32)
    (hfin : ∀ i, ∃ a : ℝ, lp i = (a : EReal)) (hrange : ∀ i, (tgt i).toNat < 32000) :
    val_main_v80 (F := Ideal) lp inp tgt
        = Spec.lossOf (F := Ideal) Cert.ReferenceIdeal.Gen.bcast_S_S8 Cert.ReferenceIdeal.Gen.reducesTo_S8_S_d0 Cert.ReferenceIdeal.Gen.h_S_
            (Spec.catMeanI Cert.ReferenceIdeal.Gen.bcast_S_S8 (fun j => Spec.catSumRefAt Spec.isReg lp inp tgt ⟨(j 0).val, (j 0).isLt⟩) (Spec.catCntI Spec.isReg inp)) (Spec.catPresI Cert.ReferenceIdeal.Gen.bcast_S_S8 (Spec.catCntI Spec.isReg inp)) (Spec.catMeanI Cert.ReferenceIdeal.Gen.bcast_S_S8 (fun j => Spec.catSumRefAt Spec.isMsk lp inp tgt ⟨(j 0).val, (j 0).isLt⟩) (Spec.catCntI Spec.isMsk inp)) (Spec.catPresI Cert.ReferenceIdeal.Gen.bcast_S_S8 (Spec.catCntI Spec.isMsk inp)) (Spec.catMeanI Cert.ReferenceIdeal.Gen.bcast_S_S8 (fun j => Spec.catSumRefAt Spec.isSpc lp inp tgt ⟨(j 0).val, (j 0).isLt⟩) (Spec.catCntI Spec.isSpc inp)) (Spec.catPresI Cert.ReferenceIdeal.Gen.bcast_S_S8 (Spec.catCntI Spec.isSpc inp))
    ∧ val_main_v86 (F := Ideal) lp inp tgt
        = Spec.catAvg (F := Ideal) Cert.ReferenceIdeal.Gen.reducesTo_S8_S_d0 Cert.ReferenceIdeal.Gen.h_S_ (Spec.catMeanI Cert.ReferenceIdeal.Gen.bcast_S_S8 (fun j => Spec.catSumRefAt Spec.isReg lp inp tgt ⟨(j 0).val, (j 0).isLt⟩) (Spec.catCntI Spec.isReg inp)) (Spec.catPresI Cert.ReferenceIdeal.Gen.bcast_S_S8 (Spec.catCntI Spec.isReg inp))
    ∧ val_main_v92 (F := Ideal) lp inp tgt
        = Spec.catAvg (F := Ideal) Cert.ReferenceIdeal.Gen.reducesTo_S8_S_d0 Cert.ReferenceIdeal.Gen.h_S_ (Spec.catMeanI Cert.ReferenceIdeal.Gen.bcast_S_S8 (fun j => Spec.catSumRefAt Spec.isMsk lp inp tgt ⟨(j 0).val, (j 0).isLt⟩) (Spec.catCntI Spec.isMsk inp)) (Spec.catPresI Cert.ReferenceIdeal.Gen.bcast_S_S8 (Spec.catCntI Spec.isMsk inp))
    ∧ val_main_v98 (F := Ideal) lp inp tgt
        = Spec.catAvg (F := Ideal) Cert.ReferenceIdeal.Gen.reducesTo_S8_S_d0 Cert.ReferenceIdeal.Gen.h_S_ (Spec.catMeanI Cert.ReferenceIdeal.Gen.bcast_S_S8 (fun j => Spec.catSumRefAt Spec.isSpc lp inp tgt ⟨(j 0).val, (j 0).isLt⟩) (Spec.catCntI Spec.isSpc inp)) (Spec.catPresI Cert.ReferenceIdeal.Gen.bcast_S_S8 (Spec.catCntI Spec.isSpc inp)) := by
  refine ⟨?_, ?_, ?_, ?_⟩
  · rw [chain80, cntReg, cntMsk, cntSpc, sumReg lp inp tgt hrange, sumMsk lp inp tgt hrange, sumSpc lp inp tgt hrange]
  · rw [chain86, cntReg, sumReg lp inp tgt hrange]
  · rw [chain92, cntMsk, sumMsk lp inp tgt hrange]
  · rw [chain98, cntSpc, sumSpc lp inp tgt hrange]

end Cert.ReferenceIdeal.RVal

end
-- ==== Proof.PreRead.lean ====
/-
  What the precondition says of the inputs: every logit is a real number, and every target word, read unsigned, is
  below 32000 (it is at least 0 and less than 32000 read signed).
-/
import proofs.«414165_j8486855377000_2_alg».proof.Proof.Gen.Pre_finite_inputs
import Idealize.ShloMosaic.Lib.ReduceAll
import Idealize.ShloMosaic.Lib.StableHlo.Predicate
import Idealize.ShloMosaic.Lib.ValueIdx

noncomputable section

namespace Cert.PreRead

open Idealize.ShloMosaic Idealize.ShloMosaic.ValueIdx Cert.Pre_finite_inputs

/-- The scalar shape has one index. -/
private instance subsingleton_scalar_idx : Subsingleton S_.Idx := ⟨fun a b => funext fun d => d.elim0⟩

/-- The pattern `0x7F800000` is +∞. -/
private theorem ofBits_inf : Ideal.ofBits .f32 0x7F800000#32 = ⊤ := by simp [Ideal.ofBits, Ideal.ieee]

/-- An extended real whose absolute value is below +∞ is a real number. -/
private theorem real_of_abs_lt (x : EReal)
    (hx : Ideal.cmp .olt (max x (-x)) (Ideal.ofBits .f32 0x7F800000#32) = 1#1) : ∃ a : ℝ, x = (a : EReal) := by
  rw [ofBits_inf] at hx
  have hlt : max x (-x) < ⊤ := of_decide_eq_true ((StableHlo.Predicate.ofBool_eq_one_iff _).mp hx)
  induction x using EReal.rec with
  | bot => simp at hlt
  | coe a => exact ⟨a, rfl⟩
  | top => simp at hlt

/-- A word at least 0 and below 32000, both read signed, is below 32000 read unsigned. -/
private theorem range_of_cmp (w : BitVec 32) (h1 : IntOp.cmpi .sge w 0#32 = 1#1) (h2 : IntOp.cmpi .slt w 32000#32 = 1#1) :
    w.toNat < 32000 := by
  have a1 : (0#32).sle w = true := (StableHlo.Predicate.ofBool_eq_one_iff _).mp h1
  have a2 : w.slt 32000#32 = true := (StableHlo.Predicate.ofBool_eq_one_iff _).mp h2
  simp only [BitVec.sle, BitVec.slt, decide_eq_true_eq] at a1 a2
  have e0 : (0#32).toInt = 0 := by decide
  have e1 : (32000#32).toInt = 32000 := by decide
  rw [e0] at a1
  rw [e1] at a2
  rw [BitVec.toInt_eq_toNat_cond] at a1 a2
  split_ifs at a1 a2 <;> omega

theorem of_pre (lp : FVec Ideal S8x1024x32000 .f32) (inp tgt : IVec S8x1024 32)
    (h : Cert.Pre_finite_inputs.fn (F := Ideal) lp inp tgt = fun _ => 1#1) :
    (∀ i, ∃ a : ℝ, lp i = (a : EReal)) ∧ (∀ i, (tgt i).toNat < 32000) := by
  have h0 := congrFun h ValueIdx.ix0
  dsimp only [Cert.Pre_finite_inputs.fn] at h0
  -- the predicate is the conjunction of two "for all" tests
  obtain ⟨hA, hB⟩ := IntOp.andi_eq_one.1 h0
  constructor
  · intro i
    have hi := Host.reduce_andi_all _ _ _ _ _ hA i
    exact real_of_abs_lt (lp i) hi
  · intro i
    have hi := Host.reduce_andi_all _ _ _ _ _ hB i
    obtain ⟨h1, h2⟩ := IntOp.andi_eq_one.1 hi
    exact range_of_cmp (tgt i) h1 h2

end Cert.PreRead

end
-- ==== Proof.lean ====
/-
  The certificate's five claims.

  Both kernel programs (the word-level one and its idealization, the same text) run to the end without fault and
  leave their arguments as launched: the pipeline's frame run around its one region, with the host lines before and
  after it. The reference runs to the end by its host operations' run. The idealization rewrote nothing, so there is
  nothing to preserve. And over the extended reals, under the precondition (every logit a real number, every target
  a column index in [0, 32000)), the two programs' four results are one chain of the same six per-batch vectors:
  the masked sums of the rows' negative log-likelihoods — the kernel's  (M + log Σ exp(x − M)) − x_t  against the
  reference's  −((x_t − M) − log Σ exp(x − M)),  equal for real entries — and the masked row counts, which the kernel
  carries as floats and the reference as integers converted late.
-/
import proofs.«414165_j8486855377000_2_alg».proof.Defs
import proofs.«414165_j8486855377000_2_alg».proof.Proof.Gen.Kernel
import proofs.«414165_j8486855377000_2_alg».proof.Proof.Gen.KernelIdeal
import proofs.«414165_j8486855377000_2_alg».proof.Proof.Gen.ReferenceIdeal
import proofs.«414165_j8486855377000_2_alg».proof.Proof.Gen.Pre_finite_inputs
import proofs.«414165_j8486855377000_2_alg».proof.Proof.K.Frame
import proofs.«414165_j8486855377000_2_alg».proof.Proof.KI.Frame
import proofs.«414165_j8486855377000_2_alg».proof.Proof.KVal.Results
import proofs.«414165_j8486855377000_2_alg».proof.Proof.RefRun
import proofs.«414165_j8486855377000_2_alg».proof.Proof.RefRead
import proofs.«414165_j8486855377000_2_alg».proof.Proof.RefRunS
import proofs.«414165_j8486855377000_2_alg».proof.Proof.RVal
import proofs.«414165_j8486855377000_2_alg».proof.Proof.Alg
import proofs.«414165_j8486855377000_2_alg».proof.Proof.PreRead
import Idealize.ShloMosaic.Adequacy
import Idealize.ShloMosaic.Init

set_option maxRecDepth 16384

noncomputable section

namespace Cert.Proof

open Idealize.ShloMosaic Idealize.ShloMosaic.TcCoe Idealize.SL.Sem

/-- A category's mean and presence: the reference's arrangement (integer count, the rows' negative log-likelihoods
    written its way) is the kernel's (float count), for real logits and targets that name columns. -/
theorem cat_mean_bridge (hb : Cert.Spec.S_.BroadcastsInDim Cert.Spec.S8 (![] : Fin 0 → Fin Cert.Spec.S8.rank))
    (P : BitVec 32 → Prop) [DecidablePred P]
    (lp : Cert.Spec.S8x1024x32000.Idx → EReal) (inp tgt : Cert.Spec.S8x1024.Idx → BitVec 32)
    (hfin : ∀ i, ∃ a : ℝ, lp i = (a : EReal)) (hrange : ∀ i, (tgt i).toNat < 32000) :
    Cert.Spec.catMeanI (F := Ideal) hb (fun j => Cert.Spec.catSumRefAt P lp inp tgt ⟨(j 0).val, (j 0).isLt⟩) (Cert.Spec.catCntI P inp)
      = Cert.Spec.catMeanF (F := Ideal) hb (Cert.Spec.catSum P lp inp tgt) (Cert.Spec.catCntF P inp) := by
  rw [Cert.Spec.catMeanF_cnt hb P inp]
  have hs : (fun j : Cert.Spec.S8.Idx => Cert.Spec.catSumRefAt P lp inp tgt ⟨(j 0).val, (j 0).isLt⟩) = Cert.Spec.catSum P lp inp tgt :=
    funext fun j => Cert.Spec.catSumRefAt_eq P lp inp tgt hfin hrange _
  rw [hs]

theorem cat_pres_bridge (hb : Cert.Spec.S_.BroadcastsInDim Cert.Spec.S8 (![] : Fin 0 → Fin Cert.Spec.S8.rank))
    (P : BitVec 32 → Prop) [DecidablePred P] (inp : Cert.Spec.S8x1024.Idx → BitVec 32) :
    Cert.Spec.catPresI (F := Ideal) hb (Cert.Spec.catCntI P inp) = Cert.Spec.catPresF (F := Ideal) hb (Cert.Spec.catCntF P inp) :=
  (Cert.Spec.catPresF_cnt hb P inp).symm

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2.2.2) (Cert.ReferenceIdeal.RunS.run (F := Ideal) m ρ)

theorem preserves : Cert.preserves_Kernel_KernelIdeal := trivial

theorem algebraic : Cert.algebraic_KernelIdeal_ReferenceIdeal := by
  intro m ρ m' ρ' hpre hagree
  have hp := fun c => Cert.PreRead.of_pre _ _ _ (hpre c)
  refine ⟨fun c => Cert.Spec.lossOf Cert.KernelIdeal.Gen.bcast_S_S8 Cert.KernelIdeal.Gen.reducesTo_S8_S_d0 Cert.KernelIdeal.Gen.h_S_
            (Cert.Spec.catMeanF Cert.KernelIdeal.Gen.bcast_S_S8 (Cert.Spec.catSum Cert.Spec.isReg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Spec.catCntF Cert.Spec.isReg (m ((c.tc : Thread Cert.KernelIdeal.nD Cert.KernelIdeal.τ).loc Cert.KernelIdeal.main_arg1)))) (Cert.Spec.catPresF Cert.KernelIdeal.Gen.bcast_S_S8 (Cert.Spec.catCntF Cert.Spec.isReg (m ((c.tc : Thread Cert.KernelIdeal.nD Cert.KernelIdeal.τ).loc Cert.KernelIdeal.main_arg1)))) (Cert.Spec.catMeanF Cert.KernelIdeal.Gen.bcast_S_S8 (Cert.Spec.catSum Cert.Spec.isMsk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Spec.catCntF Cert.Spec.isMsk (m ((c.tc : Thread Cert.KernelIdeal.nD Cert.KernelIdeal.τ).loc Cert.KernelIdeal.main_arg1)))) (Cert.Spec.catPresF Cert.KernelIdeal.Gen.bcast_S_S8 (Cert.Spec.catCntF Cert.Spec.isMsk (m ((c.tc : Thread Cert.KernelIdeal.nD Cert.KernelIdeal.τ).loc Cert.KernelIdeal.main_arg1)))) (Cert.Spec.catMeanF Cert.KernelIdeal.Gen.bcast_S_S8 (Cert.Spec.catSum Cert.Spec.isSpc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Spec.catCntF Cert.Spec.isSpc (m ((c.tc : Thread Cert.KernelIdeal.nD Cert.KernelIdeal.τ).loc Cert.KernelIdeal.main_arg1)))) (Cert.Spec.catPresF Cert.KernelIdeal.Gen.bcast_S_S8 (Cert.Spec.catCntF Cert.Spec.isSpc (m ((c.tc : Thread Cert.KernelIdeal.nD Cert.KernelIdeal.τ).loc Cert.KernelIdeal.main_arg1)))),
          fun c => Cert.Spec.catAvg Cert.KernelIdeal.Gen.reducesTo_S8_S_d0 Cert.KernelIdeal.Gen.h_S_ (Cert.Spec.catMeanF Cert.KernelIdeal.Gen.bcast_S_S8 (Cert.Spec.catSum Cert.Spec.isReg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Spec.catCntF Cert.Spec.isReg (m ((c.tc : Thread Cert.KernelIdeal.nD Cert.KernelIdeal.τ).loc Cert.KernelIdeal.main_arg1)))) (Cert.Spec.catPresF Cert.KernelIdeal.Gen.bcast_S_S8 (Cert.Spec.catCntF Cert.Spec.isReg (m ((c.tc : Thread Cert.KernelIdeal.nD Cert.KernelIdeal.τ).loc Cert.KernelIdeal.main_arg1)))),
          fun c => Cert.Spec.catAvg Cert.KernelIdeal.Gen.reducesTo_S8_S_d0 Cert.KernelIdeal.Gen.h_S_ (Cert.Spec.catMeanF Cert.KernelIdeal.Gen.bcast_S_S8 (Cert.Spec.catSum Cert.Spec.isMsk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Spec.catCntF Cert.Spec.isMsk (m ((c.tc : Thread Cert.KernelIdeal.nD Cert.KernelIdeal.τ).loc Cert.KernelIdeal.main_arg1)))) (Cert.Spec.catPresF Cert.KernelIdeal.Gen.bcast_S_S8 (Cert.Spec.catCntF Cert.Spec.isMsk (m ((c.tc : Thread Cert.KernelIdeal.nD Cert.KernelIdeal.τ).loc Cert.KernelIdeal.main_arg1)))),
          fun c => Cert.Spec.catAvg Cert.KernelIdeal.Gen.reducesTo_S8_S_d0 Cert.KernelIdeal.Gen.h_S_ (Cert.Spec.catMeanF Cert.KernelIdeal.Gen.bcast_S_S8 (Cert.Spec.catSum Cert.Spec.isSpc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Spec.catCntF Cert.Spec.isSpc (m ((c.tc : Thread Cert.KernelIdeal.nD Cert.KernelIdeal.τ).loc Cert.KernelIdeal.main_arg1)))) (Cert.Spec.catPresF Cert.KernelIdeal.Gen.bcast_S_S8 (Cert.Spec.catCntF Cert.Spec.isSpc (m ((c.tc : Thread Cert.KernelIdeal.nD Cert.KernelIdeal.τ).loc Cert.KernelIdeal.main_arg1)))), ?_, ?_⟩
  · -- the kernel program: the frame run's post read at the four result buffers and the three arguments
    refine (θ_run Cert.KernelIdeal.defs _ _).mono (fun r h c => ?_) (Cert.KernelIdeal.Fr.run_main (F := Ideal) m ρ)
    have hr := Cert.KernelIdeal.Val.results m c (hp c).2
    exact ⟨((h c).2 Cert.KernelIdeal.main_v59 (Pipeline.mem_restRefs_of Cert.KernelIdeal.main_v59 (by decide) (by decide))).trans hr.1,
      ((h c).2 Cert.KernelIdeal.main_v65 (Pipeline.mem_restRefs_of Cert.KernelIdeal.main_v65 (by decide) (by decide))).trans hr.2.1,
      ((h c).2 Cert.KernelIdeal.main_v71 (Pipeline.mem_restRefs_of Cert.KernelIdeal.main_v71 (by decide) (by decide))).trans hr.2.2.1,
      ((h c).2 Cert.KernelIdeal.main_v77 (Pipeline.mem_restRefs_of Cert.KernelIdeal.main_v77 (by decide) (by decide))).trans hr.2.2.2,
      ((h c).1 0).trans (((Cert.KernelIdeal.Fr.dats m 0 c).arrAt_in 0 rfl _).trans ((Cert.KernelIdeal.Fr.A_eq m c 0).trans (Cert.KernelIdeal.Fr.V_main_arg0 m c))),
      ((h c).2 Cert.KernelIdeal.main_arg1 (Pipeline.mem_restRefs_of Cert.KernelIdeal.main_arg1 (by decide) (by decide))).trans (Cert.KernelIdeal.Fr.W_main_arg1 m (Cert.KernelIdeal.Fr.dats m) c),
      ((h c).2 Cert.KernelIdeal.main_arg2 (Pipeline.mem_restRefs_of Cert.KernelIdeal.main_arg2 (by decide) (by decide))).trans (Cert.KernelIdeal.Fr.W_main_arg2 m (Cert.KernelIdeal.Fr.dats m) c)⟩
  · -- the reference: its run's results are the staged terms; the stages are the same chain of the same vectors
    refine (θ_run Cert.ReferenceIdeal.defs _ _).mono (fun r h c => ?_) (Cert.ReferenceIdeal.RunS.run (F := Ideal) m' ρ')
    obtain ⟨h80, h86, h92, h98, ha0, ha1, ha2⟩ := h c
    obtain ⟨e0, e1, e2⟩ := hagree c
    have hR := Cert.ReferenceIdeal.RVal.results (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (hp c).1 (hp c).2
    refine ⟨?_, ?_, ?_, ?_, ha0, ha1, ha2⟩
    · rw [h80, e0, e1, e2, hR.1,
        cat_mean_bridge _ Cert.Spec.isReg _ _ _ (hp c).1 (hp c).2, cat_pres_bridge _ Cert.Spec.isReg,
        cat_mean_bridge _ Cert.Spec.isMsk _ _ _ (hp c).1 (hp c).2, cat_pres_bridge _ Cert.Spec.isMsk,
        cat_mean_bridge _ Cert.Spec.isSpc _ _ _ (hp c).1 (hp c).2, cat_pres_bridge _ Cert.Spec.isSpc]
    · rw [h86, e0, e1, e2, hR.2.1,
        cat_mean_bridge _ Cert.Spec.isReg _ _ _ (hp c).1 (hp c).2, cat_pres_bridge _ Cert.Spec.isReg]
    · rw [h92, e0, e1, e2, hR.2.2.1,
        cat_mean_bridge _ Cert.Spec.isMsk _ _ _ (hp c).1 (hp c).2, cat_pres_bridge _ Cert.Spec.isMsk]
    · rw [h98, e0, e1, e2, hR.2.2.2,
        cat_mean_bridge _ Cert.Spec.isSpc _ _ _ (hp c).1 (hp c).2, cat_pres_bridge _ Cert.Spec.isSpc]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
